-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x3000 : Shape := ⟨2, ![32768, 3000]⟩
abbrev S_ : Shape := ⟨0, ![]⟩

class Facts : Prop where
  bcast_S_S32768x3000 : S_.BroadcastsInDim S32768x3000 (![] : Fin 0 → Fin S32768x3000.rank)
  reducesTo_S32768x3000_S_d0_1 : S32768x3000.ReducesTo [0, 1] S_
  h_S_ : 0 < S_.numel

variable [Facts]

def fn {F : FTy → Type} [FloatOps F] (main_arg0 : FVec F S32768x3000 .f32) : IVec S_ 1 :=
  let main_v0 : FVec F S32768x3000 .f32 := Host.absf main_arg0
  let main_cst : FVec F S_ .f32 := constant S_ .f32 0x7F800000#32
  let main_v1 : FVec F S32768x3000 .f32 := broadcastInDim S32768x3000 ![] bcast_S_S32768x3000 main_cst
  let main_v2 : IVec S32768x3000 1 := cmpf .olt main_v0 main_v1
  let main_c : IVec S_ 1 := constantI S_ 1 1#1
  let main_v3 : IVec S_ 1 := (fun x v => Host.reduce IntOp.andi x v reducesTo_S32768x3000_S_d0_1 h_S_) main_v2 main_c
  main_v3
-- ==== Kernel.lean ====
abbrev S32768x3000 : Shape := ⟨2, ![32768, 3000]⟩
abbrev S512x3000 : Shape := ⟨2, ![512, 3000]⟩
abbrev S_ : Shape := ⟨0, ![]⟩
abbrev S32768x1 : Shape := ⟨2, ![32768, 1]⟩
abbrev S1x3000 : Shape := ⟨2, ![1, 3000]⟩
abbrev S512x1 : Shape := ⟨2, ![512, 1]⟩
abbrev S3000 : Shape := ⟨1, ![3000]⟩
abbrev S512 : Shape := ⟨1, ![512]⟩

abbrev nBuf : Space → Nat
  | .hbm => 11
  | .vmem => 44
  | .smem => 0
  | _ => 0

abbrev bufTy : (tb : Table) → Fin (tcTables nBuf tb) → BufTy
  | .hbm, ⟨0, _⟩ => ⟨S32768x3000, .f32⟩
  | .hbm, ⟨1, _⟩ => ⟨S32768x3000, .bf16⟩
  | .hbm, ⟨2, _⟩ => ⟨S_, .f32⟩
  | .hbm, ⟨3, _⟩ => ⟨S32768x1, .f32⟩
  | .hbm, ⟨4, _⟩ => ⟨S1x3000, .f32⟩
  | .hbm, ⟨5, _⟩ => ⟨S32768x1, .f32⟩
  | .hbm, ⟨6, _⟩ => ⟨S1x3000, .f32⟩
  | .hbm, ⟨7, _⟩ => ⟨S32768x1, .f32⟩
  | .hbm, ⟨8, _⟩ => ⟨S1x3000, .f32⟩
  | .hbm, ⟨9, _⟩ => ⟨S32768x1, .f32⟩
  | .hbm, ⟨10, _⟩ => ⟨S32768x3000, .f32⟩
  | .local _ .vmem, ⟨0, _⟩ => ⟨S512x3000, .f32⟩
  | .local _ .vmem, ⟨1, _⟩ => ⟨S512x3000, .f32⟩
  | .local _ .vmem, ⟨2, _⟩ => ⟨S512x3000, .bf16⟩
  | .local _ .vmem, ⟨3, _⟩ => ⟨S512x3000, .bf16⟩
  | .local _ .vmem, ⟨4, _⟩ => ⟨S512x3000, .bf16⟩
  | .local _ .vmem, ⟨5, _⟩ => ⟨S512x3000, .bf16⟩
  | .local _ .vmem, ⟨6, _⟩ => ⟨S512x1, .f32⟩
  | .local _ .vmem, ⟨7, _⟩ => ⟨S512x1, .f32⟩
  | .local _ .vmem, ⟨8, _⟩ => ⟨S1x3000, .f32⟩
  | .local _ .vmem, ⟨9, _⟩ => ⟨S1x3000, .f32⟩
  | .local _ .vmem, ⟨10, _⟩ => ⟨S512x3000, .bf16⟩
  | .local _ .vmem, ⟨11, _⟩ => ⟨S512x3000, .bf16⟩
  | .local _ .vmem, ⟨12, _⟩ => ⟨S1x3000, .f32⟩
  | .local _ .vmem, ⟨13, _⟩ => ⟨S512x1, .f32⟩
  | .local _ .vmem, ⟨14, _⟩ => ⟨S512x1, .f32⟩
  | .local _ .vmem, ⟨15, _⟩ => ⟨S512x3000, .bf16⟩
  | .local _ .vmem, ⟨16, _⟩ => ⟨S512x3000, .bf16⟩
  | .local _ .vmem, ⟨17, _⟩ => ⟨S512x1, .f32⟩
  | .local _ .vmem, ⟨18, _⟩ => ⟨S512x1, .f32⟩
  | .local _ .vmem, ⟨19, _⟩ => ⟨S1x3000, .f32⟩
  | .local _ .vmem, ⟨20, _⟩ => ⟨S1x3000, .f32⟩
  | .local _ .vmem, ⟨21, _⟩ => ⟨S512x3000, .bf16⟩
  | .local _ .vmem, ⟨22, _⟩ => ⟨S512x3000, .bf16⟩
  | .local _ .vmem, ⟨23, _⟩ => ⟨S1x3000, .f32⟩
  | .local _ .vmem, ⟨24, _⟩ => ⟨S512x1, .f32⟩
  | .local _ .vmem, ⟨25, _⟩ => ⟨S512x1, .f32⟩
  | .local _ .vmem, ⟨26, _⟩ => ⟨S512x3000, .bf16⟩
  | .local _ .vmem, ⟨27, _⟩ => ⟨S512x3000, .bf16⟩
  | .local _ .vmem, ⟨28, _⟩ => ⟨S512x1, .f32⟩
  | .local _ .vmem, ⟨29, _⟩ => ⟨S512x1, .f32⟩
  | .local _ .vmem, ⟨30, _⟩ => ⟨S1x3000, .f32⟩
  | .local _ .vmem, ⟨31, _⟩ => ⟨S1x3000, .f32⟩
  | .local _ .vmem, ⟨32, _⟩ => ⟨S512x3000, .bf16⟩
  | .local _ .vmem, ⟨33, _⟩ => ⟨S512x3000, .bf16⟩
  | .local _ .vmem, ⟨34, _⟩ => ⟨S1x3000, .f32⟩
  | .local _ .vmem, ⟨35, _⟩ => ⟨S512x1, .f32⟩
  | .local _ .vmem, ⟨36, _⟩ => ⟨S512x1, .f32⟩
  | .local _ .vmem, ⟨37, _⟩ => ⟨S512x3000, .bf16⟩
  | .local _ .vmem, ⟨38, _⟩ => ⟨S512x3000, .bf16⟩
  | .local _ .vmem, ⟨39, _⟩ => ⟨S1x3000, .f32⟩
  | .local _ .vmem, ⟨40, _⟩ => ⟨S512x1, .f32⟩
  | .local _ .vmem, ⟨41, _⟩ => ⟨S512x1, .f32⟩
  | .local _ .vmem, ⟨42, _⟩ => ⟨S512x3000, .f32⟩
  | .local _ .vmem, ⟨43, _⟩ => ⟨S512x3000, .f32⟩
  | _, _ => ⟨S32768x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_scratch0 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_scratch0 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc7_stg3_0 : Ref sig .tc := ⟨.vmem, 42, rfl⟩
abbrev cc7_stg3_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc4_sem0_0 : DmaSem sig := 19
abbrev cc4_sem0_1 : DmaSem sig := 20
abbrev cc4_sem1_0 : DmaSem sig := 21
abbrev cc4_sem2_0 : DmaSem sig := 22
abbrev cc4_sem2_1 : DmaSem sig := 23
abbrev cc5_sem0_0 : DmaSem sig := 24
abbrev cc5_sem0_1 : DmaSem sig := 25
abbrev cc5_sem1_0 : DmaSem sig := 26
abbrev cc5_sem1_1 : DmaSem sig := 27
abbrev cc5_sem2_0 : DmaSem sig := 28
abbrev cc6_sem0_0 : DmaSem sig := 29
abbrev cc6_sem0_1 : DmaSem sig := 30
abbrev cc6_sem1_0 : DmaSem sig := 31
abbrev cc6_sem2_0 : DmaSem sig := 32
abbrev cc6_sem2_1 : DmaSem sig := 33
abbrev cc7_sem0_0 : DmaSem sig := 34
abbrev cc7_sem0_1 : DmaSem sig := 35
abbrev cc7_sem1_0 : DmaSem sig := 36
abbrev cc7_sem2_0 : DmaSem sig := 37
abbrev cc7_sem2_1 : DmaSem sig := 38
abbrev cc7_sem3_0 : DmaSem sig := 39
abbrev cc7_sem3_1 : DmaSem sig := 40

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v17 : BitVec 1 := Scalar.cmpi .eq arg0 c63_i32
  let v18 : BitVec 32 := Scalar.extui v17
  let c0_i32_8 : BitVec 32 := 0#32
  let v19 : BitVec 1 := Scalar.cmpi .ne v18 c0_i32_8
  v19

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x3000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x3000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x3000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x3000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![64], ![false]⟩

def k3_cond2 (i : grid3.Coords) : BitVec 1 :=
  let arg0 : BitVec 32 := BitVec.ofNat 32 (i 0).val
  let c63_i32 : BitVec 32 := 63#32
  let v17 : BitVec 1 := Scalar.cmpi .eq arg0 c63_i32
  let v18 : BitVec 32 := Scalar.extui v17
  let c0_i32_8 : BitVec 32 := 0#32
  let v19 : BitVec 1 := Scalar.cmpi .ne v18 c0_i32_8
  v19

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x3000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x3000 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x3000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x3000 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![64], ![false]⟩

def k5_cond2 (i : grid5.Coords) : BitVec 1 :=
  let arg0 : BitVec 32 := BitVec.ofNat 32 (i 0).val
  let c63_i32 : BitVec 32 := 63#32
  let v17 : BitVec 1 := Scalar.cmpi .eq arg0 c63_i32
  let v18 : BitVec 32 := Scalar.extui v17
  let c0_i32_8 : BitVec 32 := 0#32
  let v19 : BitVec 1 := Scalar.cmpi .ne v18 c0_i32_8
  v19

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x3000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x3000 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x3000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x3000 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![64], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x3000 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x3000 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S512x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S512x3000 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  inb_S512x3000_S512x3000_0_0 : ∀ a, (![0, 0] : Fin 2 → Nat) a + S512x3000.size a ≤ S512x3000.size a
  h_S512x3000 : 0 < S512x3000.numel
  bitsLt_bf16_f32 : FTy.bits .bf16 < FTy.bits .f32
  packedbf16_S512x3000_S512x3000_0_0 : (Rect.unit (s := S512x3000) ![0, 0] S512x3000.size inb_S512x3000_S512x3000_0_0).PackedRows (EltTy.packing .bf16)
  bcast_S_S32768x1 : S_.BroadcastsInDim S32768x1 (![] : Fin 0 → Fin S32768x1.rank)
  inb_S1x3000_S1x3000_0_0 : ∀ a, (![0, 0] : Fin 2 → Nat) a + S1x3000.size a ≤ S1x3000.size a
  h_S1x3000 : 0 < S1x3000.numel
  shapeCasts_S1x3000_S1x3000 : S1x3000.ShapeCasts S1x3000
  shapeCasts_S512x3000_S512x3000 : S512x3000.ShapeCasts S512x3000
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x3000 : S512x1.Broadcasts S512x3000
  reduces_S512x3000_S3000 : S512x3000.Reduces [0] S3000
  shapeCasts_S3000_S1x3000 : S3000.ShapeCasts S1x3000
  broadcasts_S1x3000_S512x3000 : S1x3000.Broadcasts S512x3000
  reduces_S512x3000_S512 : S512x3000.Reduces [1] S512
  shapeCasts_S512_S512x1 : S512.ShapeCasts S512x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3000.size a ≤ S32768x3000.size a
  hwx0_0 : ∀ i : grid0.Coords, EltTy.bits .f32 = 32 ∨ (Rect.block (s := S32768x3000) S512x3000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3000.size a ≤ S32768x3000.size a
  hwx0_1 : ∀ i : grid0.Coords, EltTy.bits .bf16 = 32 ∨ (Rect.block (s := S32768x3000) S512x3000.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3000.size a ≤ S32768x3000.size a
  hwx1_0 : ∀ i : grid1.Coords, EltTy.bits .bf16 = 32 ∨ (Rect.block (s := S32768x3000) S512x3000.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S32768x1.size a
  hwx1_1 : ∀ i : grid1.Coords, EltTy.bits .f32 = 32 ∨ (Rect.block (s := S32768x1) S512x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x3000.size a ≤ S1x3000.size a
  hwx1_2 : ∀ i : grid1.Coords, EltTy.bits .f32 = 32 ∨ (Rect.block (s := S1x3000) S1x3000.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x3000.size a ≤ S32768x3000.size a
  hwx2_0 : ∀ i : grid2.Coords, EltTy.bits .bf16 = 32 ∨ (Rect.block (s := S32768x3000) S512x3000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x3000.size a ≤ S1x3000.size a
  hwx2_1 : ∀ i : grid2.Coords, EltTy.bits .f32 = 32 ∨ (Rect.block (s := S1x3000) S1x3000.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S32768x1.size a
  hwx2_2 : ∀ i : grid2.Coords, EltTy.bits .f32 = 32 ∨ (Rect.block (s := S32768x1) S512x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x3000.size a ≤ S32768x3000.size a
  hwx3_0 : ∀ i : grid3.Coords, EltTy.bits .bf16 = 32 ∨ (Rect.block (s := S32768x3000) S512x3000.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x1.size a ≤ S32768x1.size a
  hwx3_1 : ∀ i : grid3.Coords, EltTy.bits .f32 = 32 ∨ (Rect.block (s := S32768x1) S512x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x3000.size a ≤ S1x3000.size a
  hwx3_2 : ∀ i : grid3.Coords, EltTy.bits .f32 = 32 ∨ (Rect.block (s := S1x3000) S1x3000.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x3000.size a ≤ S32768x3000.size a
  hwx4_0 : ∀ i : grid4.Coords, EltTy.bits .bf16 = 32 ∨ (Rect.block (s := S32768x3000) S512x3000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x3000.size a ≤ S1x3000.size a
  hwx4_1 : ∀ i : grid4.Coords, EltTy.bits .f32 = 32 ∨ (Rect.block (s := S1x3000) S1x3000.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1.size a ≤ S32768x1.size a
  hwx4_2 : ∀ i : grid4.Coords, EltTy.bits .f32 = 32 ∨ (Rect.block (s := S32768x1) S512x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x3000.size a ≤ S32768x3000.size a
  hwx5_0 : ∀ i : grid5.Coords, EltTy.bits .bf16 = 32 ∨ (Rect.block (s := S32768x3000) S512x3000.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x1.size a ≤ S32768x1.size a
  hwx5_1 : ∀ i : grid5.Coords, EltTy.bits .f32 = 32 ∨ (Rect.block (s := S32768x1) S512x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x3000.size a ≤ S1x3000.size a
  hwx5_2 : ∀ i : grid5.Coords, EltTy.bits .f32 = 32 ∨ (Rect.block (s := S1x3000) S1x3000.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x3000.size a ≤ S32768x3000.size a
  hwx6_0 : ∀ i : grid6.Coords, EltTy.bits .bf16 = 32 ∨ (Rect.block (s := S32768x3000) S512x3000.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x3000.size a ≤ S1x3000.size a
  hwx6_1 : ∀ i : grid6.Coords, EltTy.bits .f32 = 32 ∨ (Rect.block (s := S1x3000) S1x3000.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x1.size a ≤ S32768x1.size a
  hwx6_2 : ∀ i : grid6.Coords, EltTy.bits .f32 = 32 ∨ (Rect.block (s := S32768x1) S512x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x3000.size a ≤ S32768x3000.size a
  hwx7_0 : ∀ i : grid7.Coords, EltTy.bits .bf16 = 32 ∨ (Rect.block (s := S32768x3000) S512x3000.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x3000.size a ≤ S1x3000.size a
  hwx7_1 : ∀ i : grid7.Coords, EltTy.bits .f32 = 32 ∨ (Rect.block (s := S1x3000) S1x3000.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x1.size a ≤ S32768x1.size a
  hwx7_2 : ∀ i : grid7.Coords, EltTy.bits .f32 = 32 ∨ (Rect.block (s := S32768x1) S512x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x3000.size a ≤ S32768x3000.size a
  hwx7_3 : ∀ i : grid7.Coords, EltTy.bits .f32 = 32 ∨ (Rect.block (s := S32768x3000) S512x3000.size (cc7_transform_3 i) (hinb7_3 i)).WholeWords (EltTy.packing .f32)

variable [Facts₀]

abbrev win0_0 : Pipeline.Window sig grid0 :=
  Pipeline.Window.ofSpec (Memref.whole main_arg0) S512x3000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x3000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x3000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x3000.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v0) S512x3000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x3000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S512x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S512x3000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S512x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1x3000.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v0) S512x3000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S1x3000.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v5) S512x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v0) S512x3000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S512x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v6) S1x3000.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v0) S512x3000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v6) S1x3000.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v7) S512x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v0) S512x3000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v6) S1x3000.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v7) S512x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v8) S512x3000.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S32768x3000 : Shape := ⟨2, ![32768, 3000]⟩
abbrev S3000x32768 : Shape := ⟨2, ![3000, 32768]⟩
abbrev S_ : Shape := ⟨0, ![]⟩
abbrev S3000 : Shape := ⟨1, ![3000]⟩
abbrev S3000x1 : Shape := ⟨2, ![3000, 1]⟩
abbrev S32768 : Shape := ⟨1, ![32768]⟩
abbrev S1x32768 : Shape := ⟨2, ![1, 32768]⟩

abbrev nBuf : Space → Nat
  | .hbm => 59
  | .vmem => 0
  | .smem => 0
  | _ => 0

abbrev bufTy : (tb : Table) → Fin (tcTables nBuf tb) → BufTy
  | .hbm, ⟨0, _⟩ => ⟨S32768x3000, .f32⟩
  | .hbm, ⟨1, _⟩ => ⟨S32768x3000, .f32⟩
  | .hbm, ⟨2, _⟩ => ⟨S3000x32768, .f32⟩
  | .hbm, ⟨3, _⟩ => ⟨S_, .f32⟩
  | .hbm, ⟨4, _⟩ => ⟨S_, .f32⟩
  | .hbm, ⟨5, _⟩ => ⟨S3000x32768, .f32⟩
  | .hbm, ⟨6, _⟩ => ⟨S3000x32768, .f32⟩
  | .hbm, ⟨7, _⟩ => ⟨S_, .f32⟩
  | .hbm, ⟨8, _⟩ => ⟨S3000, .f32⟩
  | .hbm, ⟨9, _⟩ => ⟨S3000x1, .f32⟩
  | .hbm, ⟨10, _⟩ => ⟨S_, .f32⟩
  | .hbm, ⟨11, _⟩ => ⟨S3000x1, .f32⟩
  | .hbm, ⟨12, _⟩ => ⟨S3000x1, .f32⟩
  | .hbm, ⟨13, _⟩ => ⟨S3000x32768, .f32⟩
  | .hbm, ⟨14, _⟩ => ⟨S3000x32768, .f32⟩
  | .hbm, ⟨15, _⟩ => ⟨S_, .f32⟩
  | .hbm, ⟨16, _⟩ => ⟨S32768, .f32⟩
  | .hbm, ⟨17, _⟩ => ⟨S1x32768, .f32⟩
  | .hbm, ⟨18, _⟩ => ⟨S_, .f32⟩
  | .hbm, ⟨19, _⟩ => ⟨S1x32768, .f32⟩
  | .hbm, ⟨20, _⟩ => ⟨S1x32768, .f32⟩
  | .hbm, ⟨21, _⟩ => ⟨S3000x32768, .f32⟩
  | .hbm, ⟨22, _⟩ => ⟨S3000x32768, .f32⟩
  | .hbm, ⟨23, _⟩ => ⟨S_, .f32⟩
  | .hbm, ⟨24, _⟩ => ⟨S3000, .f32⟩
  | .hbm, ⟨25, _⟩ => ⟨S3000x1, .f32⟩
  | .hbm, ⟨26, _⟩ => ⟨S_, .f32⟩
  | .hbm, ⟨27, _⟩ => ⟨S3000x1, .f32⟩
  | .hbm, ⟨28, _⟩ => ⟨S3000x1, .f32⟩
  | .hbm, ⟨29, _⟩ => ⟨S3000x32768, .f32⟩
  | .hbm, ⟨30, _⟩ => ⟨S3000x32768, .f32⟩
  | .hbm, ⟨31, _⟩ => ⟨S_, .f32⟩
  | .hbm, ⟨32, _⟩ => ⟨S32768, .f32⟩
  | .hbm, ⟨33, _⟩ => ⟨S1x32768, .f32⟩
  | .hbm, ⟨34, _⟩ => ⟨S_, .f32⟩
  | .hbm, ⟨35, _⟩ => ⟨S1x32768, .f32⟩
  | .hbm, ⟨36, _⟩ => ⟨S1x32768, .f32⟩
  | .hbm, ⟨37, _⟩ => ⟨S3000x32768, .f32⟩
  | .hbm, ⟨38, _⟩ => ⟨S3000x32768, .f32⟩
  | .hbm, ⟨39, _⟩ => ⟨S_, .f32⟩
  | .hbm, ⟨40, _⟩ => ⟨S3000, .f32⟩
  | .hbm, ⟨41, _⟩ => ⟨S3000x1, .f32⟩
  | .hbm, ⟨42, _⟩ => ⟨S_, .f32⟩
  | .hbm, ⟨43, _⟩ => ⟨S3000x1, .f32⟩
  | .hbm, ⟨44, _⟩ => ⟨S3000x1, .f32⟩
  | .hbm, ⟨45, _⟩ => ⟨S3000x32768, .f32⟩
  | .hbm, ⟨46, _⟩ => ⟨S3000x32768, .f32⟩
  | .hbm, ⟨47, _⟩ => ⟨S_, .f32⟩
  | .hbm, ⟨48, _⟩ => ⟨S32768, .f32⟩
  | .hbm, ⟨49, _⟩ => ⟨S1x32768, .f32⟩
  | .hbm, ⟨50, _⟩ => ⟨S_, .f32⟩
  | .hbm, ⟨51, _⟩ => ⟨S1x32768, .f32⟩
  | .hbm, ⟨52, _⟩ => ⟨S1x32768, .f32⟩
  | .hbm, ⟨53, _⟩ => ⟨S3000x32768, .f32⟩
  | .hbm, ⟨54, _⟩ => ⟨S3000x32768, .f32⟩
  | .hbm, ⟨55, _⟩ => ⟨S_, .f32⟩
  | .hbm, ⟨56, _⟩ => ⟨S3000x32768, .f32⟩
  | .hbm, ⟨57, _⟩ => ⟨S3000x32768, .f32⟩
  | .hbm, ⟨58, _⟩ => ⟨S32768x3000, .f32⟩
  | _, _ => ⟨S32768x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_cst_7 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_8 : Ref sig .tc := ⟨.hbm, 39, rfl⟩
abbrev main_v29 : Ref sig .tc := ⟨.hbm, 40, rfl⟩
abbrev main_v30 : Ref sig .tc := ⟨.hbm, 41, rfl⟩
abbrev main_cst_9 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_10 : Ref sig .tc := ⟨.hbm, 47, rfl⟩
abbrev main_v35 : Ref sig .tc := ⟨.hbm, 48, rfl⟩
abbrev main_v36 : Ref sig .tc := ⟨.hbm, 49, rfl⟩
abbrev main_cst_11 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_12 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  transposes_S32768x3000_S3000x32768_1_0 : S32768x3000.Transposes [1, 0] S3000x32768
  reducesTo_S3000x32768_S_d0_1 : S3000x32768.ReducesTo [0, 1] S_
  h_S_ : 0 < S_.numel
  bcast_S_S3000x32768 : S_.BroadcastsInDim S3000x32768 (![] : Fin 0 → Fin S3000x32768.rank)
  reducesTo_S3000x32768_S3000_d1 : S3000x32768.ReducesTo [1] S3000
  bcast_S3000_S3000x1_0 : S3000.BroadcastsInDim S3000x1 (![0] : Fin 1 → Fin S3000x1.rank)
  bcast_S_S3000x1 : S_.BroadcastsInDim S3000x1 (![] : Fin 0 → Fin S3000x1.rank)
  bcast_S3000x1_S3000x32768_0_1 : S3000x1.BroadcastsInDim S3000x32768 (![0, 1] : Fin 2 → Fin S3000x32768.rank)
  reducesTo_S3000x32768_S32768_d0 : S3000x32768.ReducesTo [0] S32768
  bcast_S32768_S1x32768_1 : S32768.BroadcastsInDim S1x32768 (![1] : Fin 1 → Fin S1x32768.rank)
  bcast_S_S1x32768 : S_.BroadcastsInDim S1x32768 (![] : Fin 0 → Fin S1x32768.rank)
  bcast_S1x32768_S3000x32768_0_1 : S1x32768.BroadcastsInDim S3000x32768 (![0, 1] : Fin 2 → Fin S3000x32768.rank)
  transposes_S3000x32768_S32768x3000_1_0 : S3000x32768.Transposes [1, 0] S32768x3000

variable [Facts₀]

class Facts : Prop extends Facts₀ where

variable [Facts]
-- ==== Proof.K.Region0.lean ====
import proofs.«177643_j32452772888869_1_alg».proof.Proof.Gen.Kernel.Launch
import proofs.«177643_j32452772888869_1_alg».proof.Proof.Gen.Kernel.Skeleton
import proofs.«177643_j32452772888869_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the exponential kernel `cc0__exp_kernel` (pipeline 0), at the entry contents `V`

At each of the 64 grid points the kernel reads one block of 512 rows of the logits (window 0, f32), takes the
exponential of every entry, rounds it to bf16 and writes the whole block of the result (window 1). No value is
carried from one point to the next, and each point's output block depends on that point's input block only. -/

/-! ## The windows' blocks -/

/-- Window `w`'s block at grid point `t`: the 512 × 3000 slice its index map selects there, read off the window's
    array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits window's current staging buffer holds the point's own block when the body starts, whatever it held
    before: the window is fetched at every point, its blocks tile the array (none is cut at the array's end) and it
    is never idle, and the body only reads it. Stated for ANY proof data whose array 0 is `V`'s (`hA`) and whose
    body leaves block 0 in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body touches, in either staging buffer: all of the 512 × 3000 block. -/
abbrev r0_0 : Rect S512x3000 := Rect.unit (s := S512x3000) ![0, 0] S512x3000.size inb_S512x3000_S512x3000_0_0

/-! ## What the body leaves in the output window's buffer -/

/-- The result window's staging buffer after the body, as a function of the logits block `x0`: a single store, of
    the payload `k0_pay1` (entrywise `exp`, then rounding f32 → bf16) of the whole block loaded from `x0`, over
    the whole block. -/
def out0_1 (x0 : Vec F S512x3000 .f32) : Vec F S512x3000 .bf16 :=
  View.canon [⟨r0_0, k0_pay1 (View.ld x0 r0_0)⟩]

/-- That single store's rectangle is the whole block, so every index of the buffer lies in it. -/
theorem cover0_1 (p0 : Vec F S512x3000 .bf16) (y : S512x3000.Idx) :
    ∃ pc ∈ ([⟨r0_0, p0⟩] : List (View.Piece (Elt F) S512x3000 .bf16)), y ∈ pc.1.set :=
  View.cover_of_tiled [⟨r0_0, p0⟩] S512x3000.size (by rfl) y

/-! ## The body's triple -/

set_option maxHeartbeats 1000000 in
/-- The kernel on whole staging memrefs — the logits' at contents `x0`, the result's at anything — runs to a
    continuation that holds the logits' buffer unchanged and the result's at `out0_1 x0`. The body is its skeleton:
    a load of the logits block, a load of the result buffer (whose value is not used), and the covering store. The
    grid coordinate `i` is not read. -/
theorem sound_kernel0 (c : Dev nD) (E : Set ℕ) (i : grid0.Coords) (arg1 : Memref sig .tc .vmem S512x3000 .f32) (harg1 : arg1.IsWhole)
    (arg2 : Memref sig .tc .vmem S512x3000 .bf16) (harg2 : arg2.IsWhole)
    (x0 : Vec F S512x3000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__exp_kernel i arg1 harg1 arg2 harg2) K := by
  simp only [cc0__exp_kernel_eq_skeleton]; unfold cc0__exp_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`. The arrays are as the region finds them (`V`). After the body at
    point `t` the logits' buffer still holds the point's block and the result's holds `out0_1` of that block.
    The invariant is the plain one (the scoped buffers that are no staging buffer of this call, at some contents,
    and the generator register at some state: the body touches neither), the same at every point. Nothing is owed
    between cores; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves in each window's buffer: the logits block untouched, -/
theorem after0_0 (c : Dev nD) (t : Fin cfg0.N) : (dat0 V c).after 0 t = iblk0 V c 0 t := by dsimp only [dat0]
/-- and the rounded exponentials of that block. -/
theorem after0_1 (c : Dev nD) (t : Fin cfg0.N) : (dat0 V c).after 1 t = out0_1 (iblk0 V c 0 t) := by dsimp only [dat0]

/-- The logits' current staging buffer holds the point's block at every point (`before0_0_of` at `dat0`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`: the invariant, the core's debts, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns: the same, each buffer now at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the logits' memref holds the point's block (`before0_0`) and the result's holds something,
    so `sound_kernel0` applies; the invariant and the debts are constant in the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the invariant and out of it -/

/-- The invariant at point 0 is the generator register and the scoped rest, in the other order. -/
theorem Phi0_in (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  rw [show (dat0 V c).Φ 0 = Pipeline.ΦA spec0 c from rfl]; unfold Pipeline.ΦA
  iintro ⟨Hp, Hr⟩
  isplitl [Hr]; · iexact Hr
  iexact Hp

/-- After the last point the invariant gives both back. -/
theorem Phi0_out (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  rw [show (dat0 V c).Φ (Fin.last _) = Pipeline.ΦA spec0 c from rfl]; unfold Pipeline.ΦA
  iintro ⟨Hr, Hp⟩
  isplitl [Hp]; · iexact Hp
  iexact Hr

end Cert.Kernel.Hand

end
-- ==== Proof.K.Region1Runs.lean ====
import proofs.«177643_j32452772888869_1_alg».proof.Proof.Gen.Kernel.Launch
import proofs.«177643_j32452772888869_1_alg».proof.Proof.Gen.Kernel.Skeleton
import proofs.«177643_j32452772888869_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the column-scaling kernel's body, case by case

The body adds the block's contribution `Σ_rows E·c` to an accumulator kept in a scratch buffer across the grid:
at the FIRST point it zeroes the accumulator first; at the LAST point it also writes `1 / (32768 · acc)` to the
output block. Three cases cover the 64 points: first (not last), middle, last (not first). -/

/-- The condition of the body's first `scf.if` (zero the accumulator), from the grid coordinate. -/
abbrev condA1 (i : grid1.Coords) : Prop :=
  (Scalar.cmpi .ne (Scalar.extui (Scalar.cmpi .eq (BitVec.ofNat 32 (i 0).val) 0#32)) 0#32) = 1#1

/-- The zero origin of a whole-block rectangle of rank 2, as the constant function. -/
theorem run1_hz : (![0, 0] : Fin 2 → Nat) = fun _ => 0 := funext fun a => by fin_cases a <;> rfl

/-- A store through the whole-block rectangle of the accumulator's shape, last in a list of stores, covers every
    index of the shape (what reading the stores back asks). -/
theorem run1_cover (w : S1x3000.Idx → Elt F .f32) (L : List (View.Piece (Elt F) S1x3000 .f32)) (y : S1x3000.Idx) :
    ∃ p ∈ (⟨Rect.unit (s := S1x3000) ![0, 0] S1x3000.size inb_S1x3000_S1x3000_0_0, w⟩ : View.Piece (Elt F) S1x3000 .f32) :: L,
      y ∈ p.1.set :=
  ⟨_, List.mem_cons_self .., View.mem_set_unit_zero (S := S1x3000) run1_hz inb_S1x3000_S1x3000_0_0 y⟩

set_option maxHeartbeats 1000000 in
/-- FIRST point: the accumulator is zeroed, then holds this block's contribution; the output block is not touched. -/
theorem run1_first (c : Dev nD) (E : Set ℕ) (i : grid1.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : condA1 i) (hL : ¬ k1_cond2 i = 1#1)
    (x0 : Vec F S512x3000 .bf16) (x1 : Vec F S512x1 .f32) (d3 : Vec F S1x3000 .f32) (K : PUnit → sProp 𝕄) :
    iprop(owns (c : Thread nD τ) arg1 fullShare x0 ∗ owns (c : Thread nD τ) arg2 fullShare x1 ∗ owns (c : Thread nD τ) arg3 fullShare d3
        ∗ (∃ s, owns (c : Thread nD τ) arg4 fullShare s)
        ∗ (iprop(owns (c : Thread nD τ) arg1 fullShare x0 ∗ owns (c : Thread nD τ) arg2 fullShare x1 ∗ owns (c : Thread nD τ) arg3 fullShare d3
            ∗ owns (c : Thread nD τ) arg4 fullShare (k1_pay2 x0 x1 (k1_pay1 (F := F)))) -∗ K ⟨⟩))
      ⊢ wp frame (wpE (defs₀ (F := F)) Variants.none c none) E (cc1__reduce_r_kernel i arg1 harg1 arg2 harg2 arg3 harg3 arg4 harg4) K := by
  simp only [cc1__reduce_r_kernel_eq_skeleton]; unfold cc1__reduce_r_kernel_skel
  unfold owns
  iintro ⟨⟨%f1, %hf1, H1⟩, ⟨%f2, %hf2, H2⟩, ⟨%f3, %hf3, H3⟩, ⟨%s4, %f4, -, H4⟩, Hk⟩
  obtain rfl := harg1.eq_unread hf1; obtain rfl := harg2.eq_unread hf2; obtain rfl := harg3.eq_unread hf3
  -- the first branch is taken (the accumulator is zeroed), the second is not
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  -- the accumulator: two whole-block stores, the later (the update) covering; it read back the earlier (the zero block)
  iexists _; isplitr; swap; · iexact H4
  ipureintro
  sl_unfold_words
  rw [View.read_writes_eq_canon _ _ _ (run1_cover _ _)]
  rw [View.canon_cons_unit_zero (S := S1x3000) run1_hz, View.readCov_unit_zero (S := S1x3000) _ run1_hz]
  simp only [View.readAt_eq_ld, harg1.read_unread, harg2.read_unread,
    View.ld_unit_zero (S := S512x3000) run1_hz, View.ld_unit_zero (S := S512x1) run1_hz]

set_option maxHeartbeats 1000000 in
/-- A MIDDLE point: the accumulator gains this block's contribution; the output block is not touched. -/
theorem run1_mid (c : Dev nD) (E : Set ℕ) (i : grid1.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : ¬ condA1 i) (hL : ¬ k1_cond2 i = 1#1)
    (x0 : Vec F S512x3000 .bf16) (x1 : Vec F S512x1 .f32) (d3 : Vec F S1x3000 .f32) (a : Vec F S1x3000 .f32) (K : PUnit → sProp 𝕄) :
    iprop(owns (c : Thread nD τ) arg1 fullShare x0 ∗ owns (c : Thread nD τ) arg2 fullShare x1 ∗ owns (c : Thread nD τ) arg3 fullShare d3
        ∗ owns (c : Thread nD τ) arg4 fullShare a
        ∗ (iprop(owns (c : Thread nD τ) arg1 fullShare x0 ∗ owns (c : Thread nD τ) arg2 fullShare x1 ∗ owns (c : Thread nD τ) arg3 fullShare d3
            ∗ owns (c : Thread nD τ) arg4 fullShare (k1_pay2 x0 x1 a)) -∗ K ⟨⟩))
      ⊢ wp frame (wpE (defs₀ (F := F)) Variants.none c none) E (cc1__reduce_r_kernel i arg1 harg1 arg2 harg2 arg3 harg3 arg4 harg4) K := by
  simp only [cc1__reduce_r_kernel_eq_skeleton]; unfold cc1__reduce_r_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  -- neither branch is taken
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  -- the accumulator: one whole-block store, whose payload's loads each read a whole block's contents
  iexists _; isplitr; swap; · iexact H4
  ipureintro
  rw [View.read_writes_eq_canon _ _ _ (run1_cover _ _)]
  rw [View.canon_unit_zero run1_hz]
  simp only [View.readAt_eq_ld, harg1.read_unread, harg2.read_unread, harg4.read_unread,
    View.ld_unit_zero (S := S512x3000) run1_hz, View.ld_unit_zero (S := S512x1) run1_hz, View.ld_unit_zero (S := S1x3000) run1_hz]

set_option maxHeartbeats 1000000 in
/-- The LAST point: the accumulator gains this block's contribution, and the output block is written from it. -/
theorem run1_last (c : Dev nD) (E : Set ℕ) (i : grid1.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : ¬ condA1 i) (hL : k1_cond2 i = 1#1)
    (x0 : Vec F S512x3000 .bf16) (x1 : Vec F S512x1 .f32) (a : Vec F S1x3000 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare a
        ∗ (iprop(owns (c : Thread nD τ) arg1 fullShare x0 ∗ owns (c : Thread nD τ) arg2 fullShare x1
            ∗ owns (c : Thread nD τ) arg3 fullShare (k1_pay3 (k1_pay2 x0 x1 a))
            ∗ owns (c : Thread nD τ) arg4 fullShare (k1_pay2 x0 x1 a)) -∗ K ⟨⟩))
      ⊢ wp frame (wpE (defs₀ (F := F)) Variants.none c none) E (cc1__reduce_r_kernel i arg1 harg1 arg2 harg2 arg3 harg3 arg4 harg4) K := by
  simp only [cc1__reduce_r_kernel_eq_skeleton]; unfold cc1__reduce_r_kernel_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  -- the first branch is not taken, the second is (the output block is written)
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  -- the output block: one whole-block store of the reciprocal payload at the accumulator read back after its update
  · iexists _; isplitr; swap; · iexact H3
    ipureintro
    sl_unfold_words
    rw [View.read_writes_eq_canon _ _ _ (run1_cover _ _)]
    rw [View.canon_unit_zero run1_hz, View.readCov_unit_zero (S := S1x3000) _ run1_hz]
    simp only [View.readAt_eq_ld, harg1.read_unread, harg2.read_unread, harg4.read_unread,
      View.ld_unit_zero (S := S512x3000) run1_hz, View.ld_unit_zero (S := S512x1) run1_hz, View.ld_unit_zero (S := S1x3000) run1_hz]
  -- the accumulator: one whole-block store, whose payload's loads each read a whole block's contents
  iexists _; isplitr; swap; · iexact H4
  ipureintro
  sl_unfold_words
  rw [View.read_writes_eq_canon _ _ _ (run1_cover _ _)]
  rw [View.canon_unit_zero run1_hz]
  simp only [View.readAt_eq_ld, harg1.read_unread, harg2.read_unread, harg4.read_unread,
    View.ld_unit_zero (S := S512x3000) run1_hz, View.ld_unit_zero (S := S512x1) run1_hz, View.ld_unit_zero (S := S1x3000) run1_hz]

end Cert.Kernel.Hand

end
-- ==== Proof.K.Region1.lean ====
import proofs.«177643_j32452772888869_1_alg».proof.Proof.Gen.Kernel.Launch
import proofs.«177643_j32452772888869_1_alg».proof.Proof.Gen.Kernel.Skeleton
import proofs.«177643_j32452772888869_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«177643_j32452772888869_1_alg».proof.Proof.K.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the column-scaling kernel `cc1__reduce_r_kernel` (pipeline 1), at the entry contents `V`

The grid has 64 points, one per block of 512 rows. At each point the kernel reads a block of the matrix `E`
(window 0, 512 × 3000, bf16) and the matching block of the row scaling `c` (window 1, 512 × 1, f32), and adds the
block's column sums `Σ_rows E·c` to an accumulator of 3000 columns that lives in a scratch buffer and is carried
from point to point: zeroed at the first point, read and rewritten at every point. Only at the last point does
it store the output block (window 2, 1 × 3000, f32): `1 / (32768 · accumulator)`. At every other point the output
window's buffer is left as found. -/

/-! ## The windows' blocks -/

/-- Window `w`'s block at grid point `t`: the slice its index map selects there, read off the window's array as
    the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The matrix window's current staging buffer holds the point's own block when the body starts, whatever it held
    before: the window is fetched at every point, its blocks tile the array and it is never idle, and the body
    only reads it. Stated for ANY proof data whose array 0 is `V`'s (`hA`) and whose body leaves block 0 in place
    (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the row-scaling window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Which points are first and last -/

/-- The body zeroes the accumulator exactly at the grid's first point — decided over the grid. -/
theorem hcondA1 : ∀ t : Fin cfg1.N, condA1 (grid1.coords t) ↔ t.val = 0 :=
  (by decide +kernel : ∀ t : Fin grid1.N, condA1 (grid1.coords t) ↔ t.val = 0)

/-- The body stores the output block exactly at the grid's last point — decided over the grid. -/
theorem hcondL1 : ∀ t : Fin cfg1.N, k1_cond2 (grid1.coords t) = 1#1 ↔ t.val = 63 :=
  (by decide +kernel : ∀ t : Fin grid1.N, k1_cond2 (grid1.coords t) = 1#1 ↔ t.val = 63)

/-! ## The accumulator, point by point -/

/-- THE ACCUMULATION. What the scratch buffer holds after the body at position `n`: at the first point the
    block's contribution added to the zero vector; at each later point the block's contribution added to what
    the point before left. -/
def acc1 (c : Dev nD) : (n : ℕ) → n < cfg1.N → Vec F S1x3000 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (acc1 c n (Nat.lt_of_succ_lt h))

theorem acc1_zero (c : Dev nD) (h : 0 < cfg1.N) :
    acc1 V c 0 h = k1_pay2 (iblk1 V c 0 ⟨0, h⟩) (iblk1 V c 1 ⟨0, h⟩) (k1_pay1 (F := F)) := rfl

theorem acc1_succ (c : Dev nD) (n : ℕ) (h : n + 1 < cfg1.N) :
    acc1 V c (n + 1) h = k1_pay2 (iblk1 V c 0 ⟨n + 1, h⟩) (iblk1 V c 1 ⟨n + 1, h⟩) (acc1 V c n (Nat.lt_of_succ_lt h)) := rfl

/-- The accumulator after the first point, stated at a point known to be the first. -/
theorem acc1_first (c : Dev nD) (t : Fin cfg1.N) (h0 : t.val = 0) :
    acc1 V c t.val t.isLt = k1_pay2 (iblk1 V c 0 t) (iblk1 V c 1 t) (k1_pay1 (F := F)) := by
  obtain ⟨n, hn⟩ := t
  cases n with
  | zero => exact rfl
  | succ n => exact absurd h0 (Nat.succ_ne_zero n)

/-- The accumulator after a later point: this block's contribution over what the point before left. -/
theorem acc1_later (c : Dev nD) (t : Fin cfg1.N) (h0 : t.val ≠ 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd rfl h0
  | succ n => exact rfl

/-! ## The invariant between points -/

/-- The scratch buffer, as a whole-buffer memref (what the pipeline passes the body as its last operand). -/
abbrev scratch1 : Memref sig .tc .vmem S1x3000 .f32 := Memref.whole cc1_scratch0

/-- The accumulator's part of the invariant at position `n` (before point `n`): before the first point the
    scratch buffer is held at SOME contents (the body overwrites them); before point `n + 1` it holds what
    point `n` left, `acc1 … n`. -/
def scr1 (c : Dev nD) : (n : ℕ) → n < cfg1.N + 1 → sProp 𝕄
  | 0, _ => iprop(∃ s : Vec F S1x3000 .f32, owns (c : Thread nD τ) scratch1 fullShare s)
  | n + 1, h => owns (c : Thread nD τ) scratch1 fullShare (acc1 V c n (Nat.lt_of_succ_lt_succ h))

/-- The invariant before point `t`: the accumulator's part, every other scoped buffer that is no staging buffer of
    this call at some contents, and the generator register at some state. The body touches neither of the last
    two. -/
def Phi1 (c : Dev nD) (t : Fin (cfg1.N + 1)) : sProp 𝕄 :=
  iprop(scr1 V c t.val t.isLt
    ∗ Pipeline.scopedRestBut (Ix := Unit) (Name := ℕ) (U := UR sig nD τ) (Lvl := ℕ) (Val := Elt F) spec1 c [cc1_scratch0]
    ∗ ∃ r, prngReg c r)

/-- Whatever the position, the accumulator's part holds the scratch buffer's points-to at some contents. -/
theorem scr1_forget (c : Dev nD) (n : ℕ) (h : n < cfg1.N + 1) :
    scr1 V c n h ⊢ (iprop(∃ f : Buf (Elt F) ((c : Thread nD τ).loc cc1_scratch0), ((c : Thread nD τ).loc cc1_scratch0) ↦{fullShare} f) : sProp 𝕄) := by
  cases n with
  | zero =>
    show iprop(∃ s : Vec F S1x3000 .f32, owns (c : Thread nD τ) (Memref.whole cc1_scratch0) fullShare s) ⊢ _
    simp only [owns_whole]
    iintro ⟨%s, Hs⟩
    iexists s; iexact Hs
  | succ n =>
    show owns (c : Thread nD τ) (Memref.whole cc1_scratch0) fullShare (acc1 V c n (Nat.lt_of_succ_lt_succ h)) ⊢ _
    rw [owns_whole]
    iintro Hs
    iexists _; iexact Hs

/-! ## The pipeline's proof data -/

/-- The proof data of pipeline 1 on core `c`. The arrays are as the region finds them (`V`). After the body at
    point `t` the two input windows' buffers still hold the point's blocks; the output window's holds, at the last
    point, the reciprocal `k1_pay3` of the accumulator there (at the other points, idle for that window, the entry
    is not consulted). The invariant carries the accumulator. Nothing is owed between cores; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves in each window's buffer: the matrix block untouched, -/
theorem after1_0 (c : Dev nD) (t : Fin cfg1.N) : (dat1 V c).after 0 t = iblk1 V c 0 t := by dsimp only [dat1]
/-- the row-scaling block untouched, -/
theorem after1_1 (c : Dev nD) (t : Fin cfg1.N) : (dat1 V c).after 1 t = iblk1 V c 1 t := by dsimp only [dat1]
/-- and (where the output is stored) the reciprocal of the accumulator. -/
theorem after1_2 (c : Dev nD) (t : Fin cfg1.N) : (dat1 V c).after 2 t = k1_pay3 (acc1 V c t.val t.isLt) := by dsimp only [dat1]

/-- Each input's current staging buffer holds the point's block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant after point `t`: the accumulator at `acc1 … t`. -/
theorem Phi1_succ (c : Dev nD) (t : Fin cfg1.N) :
    (dat1 V c).Φ t.succ = iprop(owns (c : Thread nD τ) scratch1 fullShare (acc1 V c t.val t.isLt)
      ∗ Pipeline.scopedRestBut (Ix := Unit) (Name := ℕ) (U := UR sig nD τ) (Lvl := ℕ) (Val := Elt F) spec1 c [cc1_scratch0]
      ∗ ∃ r, prngReg c r) := rfl

/-- The invariant before the first point: the scratch buffer at some contents. -/
theorem Phi1_first (c : Dev nD) (t : Fin cfg1.N) (h0 : t.val = 0) :
    (dat1 V c).Φ t.castSucc = iprop((∃ s : Vec F S1x3000 .f32, owns (c : Thread nD τ) scratch1 fullShare s)
      ∗ Pipeline.scopedRestBut (Ix := Unit) (Name := ℕ) (U := UR sig nD τ) (Lvl := ℕ) (Val := Elt F) spec1 c [cc1_scratch0]
      ∗ ∃ r, prngReg c r) := by
  obtain ⟨n, hn⟩ := t
  cases n with
  | zero => exact rfl
  | succ n => exact absurd h0 (Nat.succ_ne_zero n)

/-- The invariant before a later point: the accumulator at what the point before left. -/
theorem Phi1_later (c : Dev nD) (t : Fin cfg1.N) (h0 : t.val ≠ 0) :
    (dat1 V c).Φ t.castSucc = iprop(owns (c : Thread nD τ) scratch1 fullShare (acc1 V c (t.val - 1) (Nat.lt_of_le_of_lt (Nat.sub_le _ _) t.isLt))
      ∗ Pipeline.scopedRestBut (Ix := Unit) (Name := ℕ) (U := UR sig nD τ) (Lvl := ℕ) (Val := Elt F) spec1 c [cc1_scratch0]
      ∗ ∃ r, prngReg c r) := by
  obtain ⟨n, hn⟩ := t
  cases n with
  | zero => exact absurd rfl h0
  | succ n => exact rfl

/-! ## The output window: idle but at the last point -/

/-- At a point that is not the last the output window is idle and its block is not written back, so the body
    hands its buffer back at what it found there; -/
theorem leaves1_idle (c : Dev nD) (t : Fin cfg1.N) (hl : t.val ≠ 63) :
    (dat1 V c).leavesExact 2 t = iprop(∃ d, owns (c : Thread nD τ) (st1_2 t) fullShare ((dat1 V c).before 2 t d)) := by
  have hL : ¬ k1_cond2 (grid1.coords t) = 1#1 := fun h => hl ((hcondL1 t).mp h)
  have hN : t.val < 64 := lt_of_lt_of_eq t.isLt (show cfg1.N = 64 from N_1)
  refine Dat.leavesExact_idle _ 2 t ?_ ?_
  · show (!(k1_cond2 (grid1.coords t) == 1#1)) = true
    simp only [beq_iff_eq, hL, Bool.not_eq_true', decide_eq_false_iff_not, not_false_eq_true, Bool.not_eq_eq_eq_not, Bool.not_true, beq_eq_false_iff_ne, ne_eq]
  · exact Bool.eq_false_iff.mpr fun h => by have := (flush1_2 t).mp h; omega

/-- at the last point it is live: the body leaves the reciprocal of the accumulator there. -/
theorem leaves1_last (c : Dev nD) (t : Fin cfg1.N) (hl : t.val = 63) :
    (dat1 V c).leavesExact 2 t = owns (c : Thread nD τ) (st1_2 t) fullShare (k1_pay3 (acc1 V c t.val t.isLt)) := by
  have hL : k1_cond2 (grid1.coords t) = 1#1 := (hcondL1 t).mpr hl
  have hi : cfg1.idle 2 (cfg1.grid.coords t) = false := by
    show (!(k1_cond2 (grid1.coords t) == 1#1)) = false
    rw [hL]; rfl
  unfold Dat.leavesExact; rw [hi, after1_2]

/-! ## The body obligation, at a generic point -/

/-- What the body is called with at point `t`: the invariant, the core's debts, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the invariant at the next position, the debts, the inputs' buffers at their blocks and
    the output's buffer at what the body leaves there (as found, or at the last point the stored reciprocal). -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (dat1 V c).leavesExact 2 t)

set_option maxHeartbeats 1000000 in
/-- The body at any point. The inputs' memrefs hold their blocks (`before1_0`, `before1_1`). Three cases on the
    point's position: at the first the scratch buffer holds anything and ends at the block's contribution over
    zero; at a middle point it holds what the point before left and gains the block's contribution; at the last
    likewise, and the output's buffer receives the reciprocal of the new accumulator. In each the new scratch
    contents are `acc1` at the point by its recursion equation. The rest of the invariant and the debts pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    after1_0, after1_1, Phi1_succ]
  have hN : t.val < 64 := lt_of_lt_of_eq t.isLt (show cfg1.N = 64 from N_1)
  by_cases h0 : t.val = 0
  · -- the first point
    have hl : t.val ≠ 63 := by omega
    rw [Phi1_first V c t h0, leaves1_idle V c t hl, acc1_first V c t h0]
    iintro ⟨⟨Hs, Hr, Hp⟩, Ho, ⟨%dx, Hx⟩, ⟨%dy, Hy⟩, ⟨%dz, Hz⟩⟩
    iapply (run1_first c Set.univ (grid1.coords t) _ _ _ _ _ _ _ _ ((hcondA1 t).mpr h0) (fun h => hl ((hcondL1 t).mp h))
      (iblk1 V c 0 t) (iblk1 V c 1 t) ((dat1 V c).before 2 t dz) _)
    isplitl [Hx]; · iexact Hx
    isplitl [Hy]; · iexact Hy
    isplitl [Hz]; · iexact Hz
    isplitl [Hs]; · iexact Hs
    iintro ⟨Hx, Hy, Hz, Hs⟩
    isplitl [Hs Hr Hp]
    · isplitl [Hs]; · iexact Hs
      isplitl [Hr]; · iexact Hr
      iexact Hp
    isplitl [Ho]; · iexact Ho
    isplitl [Hx]; · iexact Hx
    isplitl [Hy]; · iexact Hy
    iexists dz; iexact Hz
  · by_cases hl : t.val = 63
    · -- the last point
      rw [Phi1_later V c t h0, leaves1_last V c t hl, acc1_later V c t h0]
      iintro ⟨⟨Hs, Hr, Hp⟩, Ho, ⟨%dx, Hx⟩, ⟨%dy, Hy⟩, ⟨%dz, Hz⟩⟩
      iapply (run1_last c Set.univ (grid1.coords t) _ _ _ _ _ _ _ _ (fun h => h0 ((hcondA1 t).mp h)) ((hcondL1 t).mpr hl)
        (iblk1 V c 0 t) (iblk1 V c 1 t) _ _)
      isplitl [Hx]; · iexact Hx
      isplitl [Hy]; · iexact Hy
      isplitl [Hz]; · iexists _; iexact Hz
      isplitl [Hs]; · iexact Hs
      iintro ⟨Hx, Hy, Hz, Hs⟩
      isplitl [Hs Hr Hp]
      · isplitl [Hs]; · iexact Hs
        isplitl [Hr]; · iexact Hr
        iexact Hp
      isplitl [Ho]; · iexact Ho
      isplitl [Hx]; · iexact Hx
      isplitl [Hy]; · iexact Hy
      iexact Hz
    · -- a middle point
      rw [Phi1_later V c t h0, leaves1_idle V c t hl, acc1_later V c t h0]
      iintro ⟨⟨Hs, Hr, Hp⟩, Ho, ⟨%dx, Hx⟩, ⟨%dy, Hy⟩, ⟨%dz, Hz⟩⟩
      iapply (run1_mid c Set.univ (grid1.coords t) _ _ _ _ _ _ _ _ (fun h => h0 ((hcondA1 t).mp h)) (fun h => hl ((hcondL1 t).mp h))
        (iblk1 V c 0 t) (iblk1 V c 1 t) ((dat1 V c).before 2 t dz) _ _)
      isplitl [Hx]; · iexact Hx
      isplitl [Hy]; · iexact Hy
      isplitl [Hz]; · iexact Hz
      isplitl [Hs]; · iexact Hs
      iintro ⟨Hx, Hy, Hz, Hs⟩
      isplitl [Hs Hr Hp]
      · isplitl [Hs]; · iexact Hs
        isplitl [Hr]; · iexact Hr
        iexact Hp
      isplitl [Ho]; · iexact Ho
      isplitl [Hx]; · iexact Hx
      isplitl [Hy]; · iexact Hy
      iexists dz; iexact Hz

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- The invariant at position 0 from the generator register and the scoped rest: the scratch buffer is split out
    of the rest, at the contents it happens to hold. -/
theorem Phi1_in (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [scopedRest1_split, show (dat1 V c).Φ 0 = iprop((∃ s : Vec F S1x3000 .f32, owns (c : Thread nD τ) scratch1 fullShare s)
      ∗ Pipeline.scopedRestBut (Ix := Unit) (Name := ℕ) (U := UR sig nD τ) (Lvl := ℕ) (Val := Elt F) spec1 c [cc1_scratch0]
      ∗ ∃ r, prngReg c r) from rfl]
  iintro ⟨Hp, ⟨%f, Hs⟩, Hr⟩
  isplitl [Hs]
  · iexists f; unfold scratch1; rw [owns_whole]; iexact Hs
  isplitl [Hr]; · iexact Hr
  iexact Hp

/-- After the last point the invariant gives both back: the scratch buffer, its contents forgotten, rejoins the
    scoped rest. -/
theorem Phi1_out (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [scopedRest1_split, show (dat1 V c).Φ (Fin.last cfg1.N) = Phi1 V c (Fin.last cfg1.N) from rfl]
  unfold Phi1
  iintro ⟨Hs, Hr, Hp⟩
  isplitl [Hp]; · iexact Hp
  isplitl [Hs]; · iapply (scr1_forget V c _ _); iexact Hs
  iexact Hr

end Cert.Kernel.Hand

end
-- ==== Proof.K.Region2.lean ====
import proofs.«177643_j32452772888869_1_alg».proof.Proof.Gen.Kernel.Launch
import proofs.«177643_j32452772888869_1_alg».proof.Proof.Gen.Kernel.Skeleton
import proofs.«177643_j32452772888869_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The column-scaling update `cc2__update_c_kernel` (pipeline 2), at the entry contents `V`

Per block of 512 rows the body reads the block of the exponentiated matrix and the whole row vector of column
scalings, and overwrites the block of 512 row scalings with the reciprocal of 3000 times the row sums of their
product. Nothing is carried from one grid point to the next. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The matrix window (input 0, fetched at every point): its current staging buffer holds its block at every point,
    for ANY proof data whose array is `V`'s (`hA`) and whose body leaves the block in place (`hafter`). The window
    is uncut and never idle, so what a fetch would put there is the block itself. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The column-scaling window (input 1, block index constant, so fetched at the first point only): its staging
    buffer holds its block at every point all the same. Where it is not fetched the block index has not moved, and
    the body left the buffer as it found it, so it still holds the first point's block, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x3000 := Rect.unit (s := S512x3000) ![0, 0] S512x3000.size inb_S512x3000_S512x3000_0_0
abbrev r2_1 : Rect S1x3000 := Rect.unit (s := S1x3000) ![0, 0] S1x3000.size inb_S1x3000_S1x3000_0_0
abbrev r2_2 : Rect S512x1 := Rect.unit (s := S512x1) ![0, 0] S512x1.size inb_S512x1_S512x1_0_0

/-! ## What the body leaves in the output window's buffer -/

/-- The row-scaling block's staging buffer after the body, from the two input blocks: its one store, of the whole
    buffer, of the payload at the two whole-block loads. -/
def out2_2 (x0 : Vec F S512x3000 .bf16) (x1 : Vec F S1x3000 .f32) : Vec F S512x1 .f32 :=
  View.canon [⟨r2_2, k2_pay1 (View.ld x0 r2_0) (View.ld x1 r2_1)⟩]

/-- The one store is of the whole buffer (checked by evaluation), so it covers it. -/
theorem cover2_2 (p0 : Vec F S512x1 .f32) (y : S512x1.Idx) :
    ∃ pc ∈ ([⟨r2_2, p0⟩] : List (View.Piece (Elt F) S512x1 .f32)), y ∈ pc.1.set :=
  View.cover_of_tiled [⟨r2_2, p0⟩] S512x1.size (by rfl) y

/-! ## The body's triple -/

set_option maxHeartbeats 1000000 in
/-- The kernel body on whole staging memrefs, the two inputs' at read contents `x0`, `x1` and the output's at anything,
    runs to the continuation holding the inputs' as they were and the output's at `out2_2` of the inputs': the printed
    function is its skeleton of three loads and one store, run operation by operation; the grid coordinate is not read. -/
theorem sound_kernel2 (c : Dev nD) (E : Set ℕ) (i : grid2.Coords) (argE : Memref sig .tc .vmem S512x3000 .bf16) (hargE : argE.IsWhole)
    (argR : Memref sig .tc .vmem S1x3000 .f32) (hargR : argR.IsWhole) (argC : Memref sig .tc .vmem S512x1 .f32) (hargC : argC.IsWhole)
    (x0 : Vec F S512x3000 .bf16) (x1 : Vec F S1x3000 .f32) (K : PUnit → sProp 𝕄) :
    iprop(owns (c : Thread nD τ) argE fullShare x0 ∗ owns (c : Thread nD τ) argR fullShare x1 ∗ (∃ d, owns (c : Thread nD τ) argC fullShare d)
        ∗ (iprop(owns (c : Thread nD τ) argE fullShare x0 ∗ owns (c : Thread nD τ) argR fullShare x1
            ∗ owns (c : Thread nD τ) argC fullShare (out2_2 x0 x1)) -∗ K ⟨⟩))
      ⊢ wp frame (wpE (defs₀ (F := F)) Variants.none c none) E (cc2__update_c_kernel i argE hargE argR hargR argC hargC) K := by
  simp only [cc2__update_c_kernel_eq_skeleton]; unfold cc2__update_c_kernel_skel
  unfold owns
  iintro ⟨⟨%fE, %hfE, HE⟩, ⟨%fR, %hfR, HR⟩, ⟨%dC, %fC, -, HC⟩, Hk⟩
  subst hfE
  subst hfR
  sl_exec
  sl_step
  iapply Hk
  isplitl [HE]
  · iexists fE; isplitr; · ipureintro; rfl
    iexact HE
  isplitl [HR]
  · iexists fR; isplitr; · ipureintro; rfl
    iexact HR
  iexists _; isplitr
  swap; · iexact HC
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2` applies;
    the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%dE, HE⟩, ⟨%dR, HR⟩, ⟨%dC, HC⟩⟩
  iapply (sound_kernel2 c Set.univ _ _ _ _ _ _ _ (iblk2 V c 0 t) (iblk2 V c 1 t) _)
  isplitl [HE]; · iexact HE
  isplitl [HR]; · iexact HR
  isplitl [HC]; · iexists _; iexact HC
  iintro ⟨HE, HR, HC⟩
  isplitl [HΦ]; · iexact HΦ
  isplitl [Ho]; · iexact Ho
  isplitl [HE]; · iexact HE
  isplitl [HR]; · iexact HR
  iexact HC

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- Entering: the generator register and the scoped rest make up the invariant at the first point. -/
theorem Phi2_in (c : Dev nD) :
    iprop((∃ r, prngReg c r) ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Pipeline.ΦA spec2 c from rfl]; unfold Pipeline.ΦA
  iintro ⟨Hp, Hr⟩
  isplitl [Hr]; · iexact Hr
  iexact Hp

/-- Leaving: the invariant at the last point gives both back. -/
theorem Phi2_out (c : Dev nD) :
    ((dat2 V c).Φ (Fin.last cfg2.N) : sProp 𝕄)
      ⊢ iprop((∃ r, prngReg c r) ∗ Pipeline.scopedRest (Ix := Unit) (Name := ℕ) (U := UR sig nD τ) (Lvl := ℕ) (Val := Elt F) spec2 c) := by
  rw [show (dat2 V c).Φ (Fin.last _) = Pipeline.ΦA spec2 c from rfl]; unfold Pipeline.ΦA
  iintro ⟨Hr, Hp⟩
  isplitl [Hp]; · iexact Hp
  iexact Hr

end Cert.Kernel.Hand

end
-- ==== Proof.K.Region3Runs.lean ====
import proofs.«177643_j32452772888869_1_alg».proof.Proof.Gen.Kernel.Launch
import proofs.«177643_j32452772888869_1_alg».proof.Proof.Gen.Kernel.Skeleton
import proofs.«177643_j32452772888869_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the column-scaling kernel's body, case by case

The body adds the block's contribution `Σ_rows E·c` to an accumulator kept in a scratch buffer across the grid:
at the FIRST point it zeroes the accumulator first; at the LAST point it also writes `1 / (32768 · acc)` to the
output block. Three cases cover the 64 points: first (not last), middle, last (not first). -/

/-- The condition of the body's first `scf.if` (zero the accumulator), from the grid coordinate. -/
abbrev condA3 (i : grid3.Coords) : Prop :=
  (Scalar.cmpi .ne (Scalar.extui (Scalar.cmpi .eq (BitVec.ofNat 32 (i 0).val) 0#32)) 0#32) = 1#1

/-- The zero origin of a whole-block rectangle of rank 2, as the constant function. -/
theorem run3_hz : (![0, 0] : Fin 2 → Nat) = fun _ => 0 := funext fun a => by fin_cases a <;> rfl

/-- A store through the whole-block rectangle of the accumulator's shape, last in a list of stores, covers every
    index of the shape (what reading the stores back asks). -/
theorem run3_cover (w : S1x3000.Idx → Elt F .f32) (L : List (View.Piece (Elt F) S1x3000 .f32)) (y : S1x3000.Idx) :
    ∃ p ∈ (⟨Rect.unit (s := S1x3000) ![0, 0] S1x3000.size inb_S1x3000_S1x3000_0_0, w⟩ : View.Piece (Elt F) S1x3000 .f32) :: L,
      y ∈ p.1.set :=
  ⟨_, List.mem_cons_self .., View.mem_set_unit_zero (S := S1x3000) run3_hz inb_S1x3000_S1x3000_0_0 y⟩

set_option maxHeartbeats 1000000 in
/-- FIRST point: the accumulator is zeroed, then holds this block's contribution; the output block is not touched. -/
theorem run3_first (c : Dev nD) (E : Set ℕ) (i : grid3.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : condA3 i) (hL : ¬ k3_cond2 i = 1#1)
    (x0 : Vec F S512x3000 .bf16) (x1 : Vec F S512x1 .f32) (d3 : Vec F S1x3000 .f32) (K : PUnit → sProp 𝕄) :
    iprop(owns (c : Thread nD τ) arg1 fullShare x0 ∗ owns (c : Thread nD τ) arg2 fullShare x1 ∗ owns (c : Thread nD τ) arg3 fullShare d3
        ∗ (∃ s, owns (c : Thread nD τ) arg4 fullShare s)
        ∗ (iprop(owns (c : Thread nD τ) arg1 fullShare x0 ∗ owns (c : Thread nD τ) arg2 fullShare x1 ∗ owns (c : Thread nD τ) arg3 fullShare d3
            ∗ owns (c : Thread nD τ) arg4 fullShare (k3_pay2 x0 x1 (k3_pay1 (F := F)))) -∗ K ⟨⟩))
      ⊢ wp frame (wpE (defs₀ (F := F)) Variants.none c none) E (cc3__reduce_r_kernel i arg1 harg1 arg2 harg2 arg3 harg3 arg4 harg4) K := by
  simp only [cc3__reduce_r_kernel_eq_skeleton]; unfold cc3__reduce_r_kernel_skel
  unfold owns
  iintro ⟨⟨%f1, %hf1, H1⟩, ⟨%f2, %hf2, H2⟩, ⟨%f3, %hf3, H3⟩, ⟨%s4, %f4, -, H4⟩, Hk⟩
  obtain rfl := harg1.eq_unread hf1; obtain rfl := harg2.eq_unread hf2; obtain rfl := harg3.eq_unread hf3
  -- the first branch is taken (the accumulator is zeroed), the second is not
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  -- the accumulator: two whole-block stores, the later (the update) covering; it read back the earlier (the zero block)
  iexists _; isplitr; swap; · iexact H4
  ipureintro
  sl_unfold_words
  rw [View.read_writes_eq_canon _ _ _ (run3_cover _ _)]
  rw [View.canon_cons_unit_zero (S := S1x3000) run3_hz, View.readCov_unit_zero (S := S1x3000) _ run3_hz]
  simp only [View.readAt_eq_ld, harg1.read_unread, harg2.read_unread,
    View.ld_unit_zero (S := S512x3000) run3_hz, View.ld_unit_zero (S := S512x1) run3_hz]

set_option maxHeartbeats 1000000 in
/-- A MIDDLE point: the accumulator gains this block's contribution; the output block is not touched. -/
theorem run3_mid (c : Dev nD) (E : Set ℕ) (i : grid3.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : ¬ condA3 i) (hL : ¬ k3_cond2 i = 1#1)
    (x0 : Vec F S512x3000 .bf16) (x1 : Vec F S512x1 .f32) (d3 : Vec F S1x3000 .f32) (a : Vec F S1x3000 .f32) (K : PUnit → sProp 𝕄) :
    iprop(owns (c : Thread nD τ) arg1 fullShare x0 ∗ owns (c : Thread nD τ) arg2 fullShare x1 ∗ owns (c : Thread nD τ) arg3 fullShare d3
        ∗ owns (c : Thread nD τ) arg4 fullShare a
        ∗ (iprop(owns (c : Thread nD τ) arg1 fullShare x0 ∗ owns (c : Thread nD τ) arg2 fullShare x1 ∗ owns (c : Thread nD τ) arg3 fullShare d3
            ∗ owns (c : Thread nD τ) arg4 fullShare (k3_pay2 x0 x1 a)) -∗ K ⟨⟩))
      ⊢ wp frame (wpE (defs₀ (F := F)) Variants.none c none) E (cc3__reduce_r_kernel i arg1 harg1 arg2 harg2 arg3 harg3 arg4 harg4) K := by
  simp only [cc3__reduce_r_kernel_eq_skeleton]; unfold cc3__reduce_r_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  -- neither branch is taken
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  -- the accumulator: one whole-block store, whose payload's loads each read a whole block's contents
  iexists _; isplitr; swap; · iexact H4
  ipureintro
  rw [View.read_writes_eq_canon _ _ _ (run3_cover _ _)]
  rw [View.canon_unit_zero run3_hz]
  simp only [View.readAt_eq_ld, harg1.read_unread, harg2.read_unread, harg4.read_unread,
    View.ld_unit_zero (S := S512x3000) run3_hz, View.ld_unit_zero (S := S512x1) run3_hz, View.ld_unit_zero (S := S1x3000) run3_hz]

set_option maxHeartbeats 1000000 in
/-- The LAST point: the accumulator gains this block's contribution, and the output block is written from it. -/
theorem run3_last (c : Dev nD) (E : Set ℕ) (i : grid3.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : ¬ condA3 i) (hL : k3_cond2 i = 1#1)
    (x0 : Vec F S512x3000 .bf16) (x1 : Vec F S512x1 .f32) (a : Vec F S1x3000 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare a
        ∗ (iprop(owns (c : Thread nD τ) arg1 fullShare x0 ∗ owns (c : Thread nD τ) arg2 fullShare x1
            ∗ owns (c : Thread nD τ) arg3 fullShare (k3_pay3 (k3_pay2 x0 x1 a))
            ∗ owns (c : Thread nD τ) arg4 fullShare (k3_pay2 x0 x1 a)) -∗ K ⟨⟩))
      ⊢ wp frame (wpE (defs₀ (F := F)) Variants.none c none) E (cc3__reduce_r_kernel i arg1 harg1 arg2 harg2 arg3 harg3 arg4 harg4) K := by
  simp only [cc3__reduce_r_kernel_eq_skeleton]; unfold cc3__reduce_r_kernel_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  -- the first branch is not taken, the second is (the output block is written)
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  -- the output block: one whole-block store of the reciprocal payload at the accumulator read back after its update
  · iexists _; isplitr; swap; · iexact H3
    ipureintro
    sl_unfold_words
    rw [View.read_writes_eq_canon _ _ _ (run3_cover _ _)]
    rw [View.canon_unit_zero run3_hz, View.readCov_unit_zero (S := S1x3000) _ run3_hz]
    simp only [View.readAt_eq_ld, harg1.read_unread, harg2.read_unread, harg4.read_unread,
      View.ld_unit_zero (S := S512x3000) run3_hz, View.ld_unit_zero (S := S512x1) run3_hz, View.ld_unit_zero (S := S1x3000) run3_hz]
  -- the accumulator: one whole-block store, whose payload's loads each read a whole block's contents
  iexists _; isplitr; swap; · iexact H4
  ipureintro
  sl_unfold_words
  rw [View.read_writes_eq_canon _ _ _ (run3_cover _ _)]
  rw [View.canon_unit_zero run3_hz]
  simp only [View.readAt_eq_ld, harg1.read_unread, harg2.read_unread, harg4.read_unread,
    View.ld_unit_zero (S := S512x3000) run3_hz, View.ld_unit_zero (S := S512x1) run3_hz, View.ld_unit_zero (S := S1x3000) run3_hz]

end Cert.Kernel.Hand

end
-- ==== Proof.K.Region3.lean ====
import proofs.«177643_j32452772888869_1_alg».proof.Proof.Gen.Kernel.Launch
import proofs.«177643_j32452772888869_1_alg».proof.Proof.Gen.Kernel.Skeleton
import proofs.«177643_j32452772888869_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«177643_j32452772888869_1_alg».proof.Proof.K.Region3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: the column-scaling kernel `cc3__reduce_r_kernel` (pipeline 3), at the entry contents `V`

The grid has 64 points, one per block of 512 rows. At each point the kernel reads a block of the matrix `E`
(window 0, 512 × 3000, bf16) and the matching block of the row scaling `c` (window 1, 512 × 1, f32), and adds the
block's column sums `Σ_rows E·c` to an accumulator of 3000 columns that lives in a scratch buffer and is carried
from point to point: zeroed at the first point, read and rewritten at every point. Only at the last point does
it store the output block (window 2, 1 × 3000, f32): `1 / (32768 · accumulator)`. At every other point the output
window's buffer is left as found. -/

/-! ## The windows' blocks -/

/-- Window `w`'s block at grid point `t`: the slice its index map selects there, read off the window's array as
    the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The matrix window's current staging buffer holds the point's own block when the body starts, whatever it held
    before: the window is fetched at every point, its blocks tile the array and it is never idle, and the body
    only reads it. Stated for ANY proof data whose array 0 is `V`'s (`hA`) and whose body leaves block 0 in place
    (`hafter`). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the row-scaling window. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## Which points are first and last -/

/-- The body zeroes the accumulator exactly at the grid's first point — decided over the grid. -/
theorem hcondA3 : ∀ t : Fin cfg3.N, condA3 (grid3.coords t) ↔ t.val = 0 :=
  (by decide +kernel : ∀ t : Fin grid3.N, condA3 (grid3.coords t) ↔ t.val = 0)

/-- The body stores the output block exactly at the grid's last point — decided over the grid. -/
theorem hcondL3 : ∀ t : Fin cfg3.N, k3_cond2 (grid3.coords t) = 1#1 ↔ t.val = 63 :=
  (by decide +kernel : ∀ t : Fin grid3.N, k3_cond2 (grid3.coords t) = 1#1 ↔ t.val = 63)

/-! ## The accumulator, point by point -/

/-- THE ACCUMULATION. What the scratch buffer holds after the body at position `n`: at the first point the
    block's contribution added to the zero vector; at each later point the block's contribution added to what
    the point before left. -/
def acc3 (c : Dev nD) : (n : ℕ) → n < cfg3.N → Vec F S1x3000 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩) (acc3 c n (Nat.lt_of_succ_lt h))

theorem acc3_zero (c : Dev nD) (h : 0 < cfg3.N) :
    acc3 V c 0 h = k3_pay2 (iblk3 V c 0 ⟨0, h⟩) (iblk3 V c 1 ⟨0, h⟩) (k3_pay1 (F := F)) := rfl

theorem acc3_succ (c : Dev nD) (n : ℕ) (h : n + 1 < cfg3.N) :
    acc3 V c (n + 1) h = k3_pay2 (iblk3 V c 0 ⟨n + 1, h⟩) (iblk3 V c 1 ⟨n + 1, h⟩) (acc3 V c n (Nat.lt_of_succ_lt h)) := rfl

/-- The accumulator after the first point, stated at a point known to be the first. -/
theorem acc3_first (c : Dev nD) (t : Fin cfg3.N) (h0 : t.val = 0) :
    acc3 V c t.val t.isLt = k3_pay2 (iblk3 V c 0 t) (iblk3 V c 1 t) (k3_pay1 (F := F)) := by
  obtain ⟨n, hn⟩ := t
  cases n with
  | zero => exact rfl
  | succ n => exact absurd h0 (Nat.succ_ne_zero n)

/-- The accumulator after a later point: this block's contribution over what the point before left. -/
theorem acc3_later (c : Dev nD) (t : Fin cfg3.N) (h0 : t.val ≠ 0) :
    acc3 V c t.val t.isLt
      = k3_pay2 (iblk3 V c 0 t) (iblk3 V c 1 t) (acc3 V c (t.val - 1) (Nat.lt_of_le_of_lt (Nat.sub_le _ _) t.isLt)) := by
  obtain ⟨n, hn⟩ := t
  cases n with
  | zero => exact absurd rfl h0
  | succ n => exact rfl

/-! ## The invariant between points -/

/-- The scratch buffer, as a whole-buffer memref (what the pipeline passes the body as its last operand). -/
abbrev scratch3 : Memref sig .tc .vmem S1x3000 .f32 := Memref.whole cc3_scratch0

/-- The accumulator's part of the invariant at position `n` (before point `n`): before the first point the
    scratch buffer is held at SOME contents (the body overwrites them); before point `n + 1` it holds what
    point `n` left, `acc3 … n`. -/
def scr3 (c : Dev nD) : (n : ℕ) → n < cfg3.N + 1 → sProp 𝕄
  | 0, _ => iprop(∃ s : Vec F S1x3000 .f32, owns (c : Thread nD τ) scratch3 fullShare s)
  | n + 1, h => owns (c : Thread nD τ) scratch3 fullShare (acc3 V c n (Nat.lt_of_succ_lt_succ h))

/-- The invariant before point `t`: the accumulator's part, every other scoped buffer that is no staging buffer of
    this call at some contents, and the generator register at some state. The body touches neither of the last
    two. -/
def Phi3 (c : Dev nD) (t : Fin (cfg3.N + 1)) : sProp 𝕄 :=
  iprop(scr3 V c t.val t.isLt
    ∗ Pipeline.scopedRestBut (Ix := Unit) (Name := ℕ) (U := UR sig nD τ) (Lvl := ℕ) (Val := Elt F) spec3 c [cc3_scratch0]
    ∗ ∃ r, prngReg c r)

/-- Whatever the position, the accumulator's part holds the scratch buffer's points-to at some contents. -/
theorem scr3_forget (c : Dev nD) (n : ℕ) (h : n < cfg3.N + 1) :
    scr3 V c n h ⊢ (iprop(∃ f : Buf (Elt F) ((c : Thread nD τ).loc cc3_scratch0), ((c : Thread nD τ).loc cc3_scratch0) ↦{fullShare} f) : sProp 𝕄) := by
  cases n with
  | zero =>
    show iprop(∃ s : Vec F S1x3000 .f32, owns (c : Thread nD τ) (Memref.whole cc3_scratch0) fullShare s) ⊢ _
    simp only [owns_whole]
    iintro ⟨%s, Hs⟩
    iexists s; iexact Hs
  | succ n =>
    show owns (c : Thread nD τ) (Memref.whole cc3_scratch0) fullShare (acc3 V c n (Nat.lt_of_succ_lt_succ h)) ⊢ _
    rw [owns_whole]
    iintro Hs
    iexists _; iexact Hs

/-! ## The pipeline's proof data -/

/-- The proof data of pipeline 3 on core `c`. The arrays are as the region finds them (`V`). After the body at
    point `t` the two input windows' buffers still hold the point's blocks; the output window's holds, at the last
    point, the reciprocal `k3_pay3` of the accumulator there (at the other points, idle for that window, the entry
    is not consulted). The invariant carries the accumulator. Nothing is owed between cores; every share is full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (acc3 V c t.val t.isLt)
  Φ t := Phi3 V c t
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves in each window's buffer: the matrix block untouched, -/
theorem after3_0 (c : Dev nD) (t : Fin cfg3.N) : (dat3 V c).after 0 t = iblk3 V c 0 t := by dsimp only [dat3]
/-- the row-scaling block untouched, -/
theorem after3_1 (c : Dev nD) (t : Fin cfg3.N) : (dat3 V c).after 1 t = iblk3 V c 1 t := by dsimp only [dat3]
/-- and (where the output is stored) the reciprocal of the accumulator. -/
theorem after3_2 (c : Dev nD) (t : Fin cfg3.N) : (dat3 V c).after 2 t = k3_pay3 (acc3 V c t.val t.isLt) := by dsimp only [dat3]

/-- Each input's current staging buffer holds the point's block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- The invariant after point `t`: the accumulator at `acc3 … t`. -/
theorem Phi3_succ (c : Dev nD) (t : Fin cfg3.N) :
    (dat3 V c).Φ t.succ = iprop(owns (c : Thread nD τ) scratch3 fullShare (acc3 V c t.val t.isLt)
      ∗ Pipeline.scopedRestBut (Ix := Unit) (Name := ℕ) (U := UR sig nD τ) (Lvl := ℕ) (Val := Elt F) spec3 c [cc3_scratch0]
      ∗ ∃ r, prngReg c r) := rfl

/-- The invariant before the first point: the scratch buffer at some contents. -/
theorem Phi3_first (c : Dev nD) (t : Fin cfg3.N) (h0 : t.val = 0) :
    (dat3 V c).Φ t.castSucc = iprop((∃ s : Vec F S1x3000 .f32, owns (c : Thread nD τ) scratch3 fullShare s)
      ∗ Pipeline.scopedRestBut (Ix := Unit) (Name := ℕ) (U := UR sig nD τ) (Lvl := ℕ) (Val := Elt F) spec3 c [cc3_scratch0]
      ∗ ∃ r, prngReg c r) := by
  obtain ⟨n, hn⟩ := t
  cases n with
  | zero => exact rfl
  | succ n => exact absurd h0 (Nat.succ_ne_zero n)

/-- The invariant before a later point: the accumulator at what the point before left. -/
theorem Phi3_later (c : Dev nD) (t : Fin cfg3.N) (h0 : t.val ≠ 0) :
    (dat3 V c).Φ t.castSucc = iprop(owns (c : Thread nD τ) scratch3 fullShare (acc3 V c (t.val - 1) (Nat.lt_of_le_of_lt (Nat.sub_le _ _) t.isLt))
      ∗ Pipeline.scopedRestBut (Ix := Unit) (Name := ℕ) (U := UR sig nD τ) (Lvl := ℕ) (Val := Elt F) spec3 c [cc3_scratch0]
      ∗ ∃ r, prngReg c r) := by
  obtain ⟨n, hn⟩ := t
  cases n with
  | zero => exact absurd rfl h0
  | succ n => exact rfl

/-! ## The output window: idle but at the last point -/

/-- At a point that is not the last the output window is idle and its block is not written back, so the body
    hands its buffer back at what it found there; -/
theorem leaves3_idle (c : Dev nD) (t : Fin cfg3.N) (hl : t.val ≠ 63) :
    (dat3 V c).leavesExact 2 t = iprop(∃ d, owns (c : Thread nD τ) (st3_2 t) fullShare ((dat3 V c).before 2 t d)) := by
  have hL : ¬ k3_cond2 (grid3.coords t) = 1#1 := fun h => hl ((hcondL3 t).mp h)
  have hN : t.val < 64 := lt_of_lt_of_eq t.isLt (show cfg3.N = 64 from N_3)
  refine Dat.leavesExact_idle _ 2 t ?_ ?_
  · show (!(k3_cond2 (grid3.coords t) == 1#1)) = true
    simp only [beq_iff_eq, hL, Bool.not_eq_true', decide_eq_false_iff_not, not_false_eq_true, Bool.not_eq_eq_eq_not, Bool.not_true, beq_eq_false_iff_ne, ne_eq]
  · exact Bool.eq_false_iff.mpr fun h => by have := (flush3_2 t).mp h; omega

/-- at the last point it is live: the body leaves the reciprocal of the accumulator there. -/
theorem leaves3_last (c : Dev nD) (t : Fin cfg3.N) (hl : t.val = 63) :
    (dat3 V c).leavesExact 2 t = owns (c : Thread nD τ) (st3_2 t) fullShare (k3_pay3 (acc3 V c t.val t.isLt)) := by
  have hL : k3_cond2 (grid3.coords t) = 1#1 := (hcondL3 t).mpr hl
  have hi : cfg3.idle 2 (cfg3.grid.coords t) = false := by
    show (!(k3_cond2 (grid3.coords t) == 1#1)) = false
    rw [hL]; rfl
  unfold Dat.leavesExact; rw [hi, after3_2]

/-! ## The body obligation, at a generic point -/

/-- What the body is called with at point `t`: the invariant, the core's debts, and each window's current staging
    buffer at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns: the invariant at the next position, the debts, the inputs' buffers at their blocks and
    the output's buffer at what the body leaves there (as found, or at the last point the stored reciprocal). -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ (dat3 V c).leavesExact 2 t)

set_option maxHeartbeats 1000000 in
/-- The body at any point. The inputs' memrefs hold their blocks (`before3_0`, `before3_1`). Three cases on the
    point's position: at the first the scratch buffer holds anything and ends at the block's contribution over
    zero; at a middle point it holds what the point before left and gains the block's contribution; at the last
    likewise, and the output's buffer receives the reciprocal of the new accumulator. In each the new scratch
    contents are `acc3` at the point by its recursion equation. The rest of the invariant and the debts pass
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    after3_0, after3_1, Phi3_succ]
  have hN : t.val < 64 := lt_of_lt_of_eq t.isLt (show cfg3.N = 64 from N_3)
  by_cases h0 : t.val = 0
  · -- the first point
    have hl : t.val ≠ 63 := by omega
    rw [Phi3_first V c t h0, leaves3_idle V c t hl, acc3_first V c t h0]
    iintro ⟨⟨Hs, Hr, Hp⟩, Ho, ⟨%dx, Hx⟩, ⟨%dy, Hy⟩, ⟨%dz, Hz⟩⟩
    iapply (run3_first c Set.univ (grid3.coords t) _ _ _ _ _ _ _ _ ((hcondA3 t).mpr h0) (fun h => hl ((hcondL3 t).mp h))
      (iblk3 V c 0 t) (iblk3 V c 1 t) ((dat3 V c).before 2 t dz) _)
    isplitl [Hx]; · iexact Hx
    isplitl [Hy]; · iexact Hy
    isplitl [Hz]; · iexact Hz
    isplitl [Hs]; · iexact Hs
    iintro ⟨Hx, Hy, Hz, Hs⟩
    isplitl [Hs Hr Hp]
    · isplitl [Hs]; · iexact Hs
      isplitl [Hr]; · iexact Hr
      iexact Hp
    isplitl [Ho]; · iexact Ho
    isplitl [Hx]; · iexact Hx
    isplitl [Hy]; · iexact Hy
    iexists dz; iexact Hz
  · by_cases hl : t.val = 63
    · -- the last point
      rw [Phi3_later V c t h0, leaves3_last V c t hl, acc3_later V c t h0]
      iintro ⟨⟨Hs, Hr, Hp⟩, Ho, ⟨%dx, Hx⟩, ⟨%dy, Hy⟩, ⟨%dz, Hz⟩⟩
      iapply (run3_last c Set.univ (grid3.coords t) _ _ _ _ _ _ _ _ (fun h => h0 ((hcondA3 t).mp h)) ((hcondL3 t).mpr hl)
        (iblk3 V c 0 t) (iblk3 V c 1 t) _ _)
      isplitl [Hx]; · iexact Hx
      isplitl [Hy]; · iexact Hy
      isplitl [Hz]; · iexists _; iexact Hz
      isplitl [Hs]; · iexact Hs
      iintro ⟨Hx, Hy, Hz, Hs⟩
      isplitl [Hs Hr Hp]
      · isplitl [Hs]; · iexact Hs
        isplitl [Hr]; · iexact Hr
        iexact Hp
      isplitl [Ho]; · iexact Ho
      isplitl [Hx]; · iexact Hx
      isplitl [Hy]; · iexact Hy
      iexact Hz
    · -- a middle point
      rw [Phi3_later V c t h0, leaves3_idle V c t hl, acc3_later V c t h0]
      iintro ⟨⟨Hs, Hr, Hp⟩, Ho, ⟨%dx, Hx⟩, ⟨%dy, Hy⟩, ⟨%dz, Hz⟩⟩
      iapply (run3_mid c Set.univ (grid3.coords t) _ _ _ _ _ _ _ _ (fun h => h0 ((hcondA3 t).mp h)) (fun h => hl ((hcondL3 t).mp h))
        (iblk3 V c 0 t) (iblk3 V c 1 t) ((dat3 V c).before 2 t dz) _ _)
      isplitl [Hx]; · iexact Hx
      isplitl [Hy]; · iexact Hy
      isplitl [Hz]; · iexact Hz
      isplitl [Hs]; · iexact Hs
      iintro ⟨Hx, Hy, Hz, Hs⟩
      isplitl [Hs Hr Hp]
      · isplitl [Hs]; · iexact Hs
        isplitl [Hr]; · iexact Hr
        iexact Hp
      isplitl [Ho]; · iexact Ho
      isplitl [Hx]; · iexact Hx
      isplitl [Hy]; · iexact Hy
      iexists dz; iexact Hz

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into the invariant and out of it -/

/-- The invariant at position 0 from the generator register and the scoped rest: the scratch buffer is split out
    of the rest, at the contents it happens to hold. -/
theorem Phi3_in (c : Dev nD) :
    iprop((∃ r, prngReg c r) ∗ Pipeline.scopedRest (Ix := Unit) (Name := ℕ) (U := UR sig nD τ) (Lvl := ℕ) (Val := Elt F) spec3 c)
      ⊢ ((dat3 V c).Φ 0 : sProp 𝕄) := by
  rw [scopedRest3_split, show (dat3 V c).Φ 0 = iprop((∃ s : Vec F S1x3000 .f32, owns (c : Thread nD τ) scratch3 fullShare s)
      ∗ Pipeline.scopedRestBut (Ix := Unit) (Name := ℕ) (U := UR sig nD τ) (Lvl := ℕ) (Val := Elt F) spec3 c [cc3_scratch0]
      ∗ ∃ r, prngReg c r) from rfl]
  iintro ⟨Hp, ⟨%f, Hs⟩, Hr⟩
  isplitl [Hs]
  · iexists f; unfold scratch3; rw [owns_whole]; iexact Hs
  isplitl [Hr]; · iexact Hr
  iexact Hp

/-- After the last point the invariant gives both back: the scratch buffer, its contents forgotten, rejoins the
    scoped rest. -/
theorem Phi3_out (c : Dev nD) :
    ((dat3 V c).Φ (Fin.last cfg3.N) : sProp 𝕄)
      ⊢ iprop((∃ r, prngReg c r) ∗ Pipeline.scopedRest (Ix := Unit) (Name := ℕ) (U := UR sig nD τ) (Lvl := ℕ) (Val := Elt F) spec3 c) := by
  rw [scopedRest3_split, show (dat3 V c).Φ (Fin.last cfg3.N) = Phi3 V c (Fin.last cfg3.N) from rfl]
  unfold Phi3
  iintro ⟨Hs, Hr, Hp⟩
  isplitl [Hp]; · iexact Hp
  isplitl [Hs]; · iapply (scr3_forget V c _ _); iexact Hs
  iexact Hr

end Cert.Kernel.Hand

end
-- ==== Proof.K.Region4.lean ====
import proofs.«177643_j32452772888869_1_alg».proof.Proof.Gen.Kernel.Launch
import proofs.«177643_j32452772888869_1_alg».proof.Proof.Gen.Kernel.Skeleton
import proofs.«177643_j32452772888869_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The column-scaling update `cc4__update_c_kernel` (pipeline 4), at the entry contents `V`

Per block of 512 rows the body reads the block of the exponentiated matrix and the whole row vector of column
scalings, and overwrites the block of 512 row scalings with the reciprocal of 3000 times the row sums of their
product. Nothing is carried from one grid point to the next. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The matrix window (input 0, fetched at every point): its current staging buffer holds its block at every point,
    for ANY proof data whose array is `V`'s (`hA`) and whose body leaves the block in place (`hafter`). The window
    is uncut and never idle, so what a fetch would put there is the block itself. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The column-scaling window (input 1, block index constant, so fetched at the first point only): its staging
    buffer holds its block at every point all the same. Where it is not fetched the block index has not moved, and
    the body left the buffer as it found it, so it still holds the first point's block, which is this point's. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S512x3000 := Rect.unit (s := S512x3000) ![0, 0] S512x3000.size inb_S512x3000_S512x3000_0_0
abbrev r4_1 : Rect S1x3000 := Rect.unit (s := S1x3000) ![0, 0] S1x3000.size inb_S1x3000_S1x3000_0_0
abbrev r4_2 : Rect S512x1 := Rect.unit (s := S512x1) ![0, 0] S512x1.size inb_S512x1_S512x1_0_0

/-! ## What the body leaves in the output window's buffer -/

/-- The row-scaling block's staging buffer after the body, from the two input blocks: its one store, of the whole
    buffer, of the payload at the two whole-block loads. -/
def out4_2 (x0 : Vec F S512x3000 .bf16) (x1 : Vec F S1x3000 .f32) : Vec F S512x1 .f32 :=
  View.canon [⟨r4_2, k4_pay1 (View.ld x0 r4_0) (View.ld x1 r4_1)⟩]

/-- The one store is of the whole buffer (checked by evaluation), so it covers it. -/
theorem cover4_2 (p0 : Vec F S512x1 .f32) (y : S512x1.Idx) :
    ∃ pc ∈ ([⟨r4_2, p0⟩] : List (View.Piece (Elt F) S512x1 .f32)), y ∈ pc.1.set :=
  View.cover_of_tiled [⟨r4_2, p0⟩] S512x1.size (by rfl) y

/-! ## The body's triple -/

set_option maxHeartbeats 1000000 in
/-- The kernel body on whole staging memrefs, the two inputs' at read contents `x0`, `x1` and the output's at anything,
    runs to the continuation holding the inputs' as they were and the output's at `out4_2` of the inputs': the printed
    function is its skeleton of three loads and one store, run operation by operation; the grid coordinate is not read. -/
theorem sound_kernel4 (c : Dev nD) (E : Set ℕ) (i : grid4.Coords) (argE : Memref sig .tc .vmem S512x3000 .bf16) (hargE : argE.IsWhole)
    (argR : Memref sig .tc .vmem S1x3000 .f32) (hargR : argR.IsWhole) (argC : Memref sig .tc .vmem S512x1 .f32) (hargC : argC.IsWhole)
    (x0 : Vec F S512x3000 .bf16) (x1 : Vec F S1x3000 .f32) (K : PUnit → sProp 𝕄) :
    iprop(owns (c : Thread nD τ) argE fullShare x0 ∗ owns (c : Thread nD τ) argR fullShare x1 ∗ (∃ d, owns (c : Thread nD τ) argC fullShare d)
        ∗ (iprop(owns (c : Thread nD τ) argE fullShare x0 ∗ owns (c : Thread nD τ) argR fullShare x1
            ∗ owns (c : Thread nD τ) argC fullShare (out4_2 x0 x1)) -∗ K ⟨⟩))
      ⊢ wp frame (wpE (defs₀ (F := F)) Variants.none c none) E (cc4__update_c_kernel i argE hargE argR hargR argC hargC) K := by
  simp only [cc4__update_c_kernel_eq_skeleton]; unfold cc4__update_c_kernel_skel
  unfold owns
  iintro ⟨⟨%fE, %hfE, HE⟩, ⟨%fR, %hfR, HR⟩, ⟨%dC, %fC, -, HC⟩, Hk⟩
  subst hfE
  subst hfR
  sl_exec
  sl_step
  iapply Hk
  isplitl [HE]
  · iexists fE; isplitr; · ipureintro; rfl
    iexact HE
  isplitl [HR]
  · iexists fR; isplitr; · ipureintro; rfl
    iexact HR
  iexists _; isplitr
  swap; · iexact HC
  ipureintro
  exact View.read_writes_eq_canon _ _ _ (cover4_2 _)

/-! ## The pipeline's proof data -/

/-- The proof data of pipeline 4 on core `c`: the arrays as the region finds them (`V`); after the body at
    point `t` each input's buffer at its block and the output's at `out4_2` of the input blocks; the invariant the
    scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks (`before4_0`, `before4_1`), so `sound_kernel4` applies;
    the invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%dE, HE⟩, ⟨%dR, HR⟩, ⟨%dC, HC⟩⟩
  iapply (sound_kernel4 c Set.univ _ _ _ _ _ _ _ (iblk4 V c 0 t) (iblk4 V c 1 t) _)
  isplitl [HE]; · iexact HE
  isplitl [HR]; · iexact HR
  isplitl [HC]; · iexists _; iexact HC
  iintro ⟨HE, HR, HC⟩
  isplitl [HΦ]; · iexact HΦ
  isplitl [Ho]; · iexact Ho
  isplitl [HE]; · iexact HE
  isplitl [HR]; · iexact HR
  iexact HC

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- Entering: the generator register and the scoped rest make up the invariant at the first point. -/
theorem Phi4_in (c : Dev nD) :
    iprop((∃ r, prngReg c r) ∗ Pipeline.scopedRest (Ix := Unit) (Name := ℕ) (U := UR sig nD τ) (Lvl := ℕ) (Val := Elt F) spec4 c)
      ⊢ ((dat4 V c).Φ 0 : sProp 𝕄) := by
  rw [show (dat4 V c).Φ 0 = Pipeline.ΦA spec4 c from rfl]; unfold Pipeline.ΦA
  iintro ⟨Hp, Hr⟩
  isplitl [Hr]; · iexact Hr
  iexact Hp

/-- Leaving: the invariant at the last point gives both back. -/
theorem Phi4_out (c : Dev nD) :
    ((dat4 V c).Φ (Fin.last cfg4.N) : sProp 𝕄)
      ⊢ iprop((∃ r, prngReg c r) ∗ Pipeline.scopedRest (Ix := Unit) (Name := ℕ) (U := UR sig nD τ) (Lvl := ℕ) (Val := Elt F) spec4 c) := by
  rw [show (dat4 V c).Φ (Fin.last _) = Pipeline.ΦA spec4 c from rfl]; unfold Pipeline.ΦA
  iintro ⟨Hr, Hp⟩
  isplitl [Hp]; · iexact Hp
  iexact Hr

end Cert.Kernel.Hand

end
-- ==== Proof.K.Region5Runs.lean ====
import proofs.«177643_j32452772888869_1_alg».proof.Proof.Gen.Kernel.Launch
import proofs.«177643_j32452772888869_1_alg».proof.Proof.Gen.Kernel.Skeleton
import proofs.«177643_j32452772888869_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: the column-scaling kernel's body, case by case

The body adds the block's contribution `Σ_rows E·c` to an accumulator kept in a scratch buffer across the grid:
at the FIRST point it zeroes the accumulator first; at the LAST point it also writes `1 / (32768 · acc)` to the
output block. Three cases cover the 64 points: first (not last), middle, last (not first). -/

/-- The condition of the body's first `scf.if` (zero the accumulator), from the grid coordinate. -/
abbrev condA5 (i : grid5.Coords) : Prop :=
  (Scalar.cmpi .ne (Scalar.extui (Scalar.cmpi .eq (BitVec.ofNat 32 (i 0).val) 0#32)) 0#32) = 1#1

/-- The zero origin of a whole-block rectangle of rank 2, as the constant function. -/
theorem run5_hz : (![0, 0] : Fin 2 → Nat) = fun _ => 0 := funext fun a => by fin_cases a <;> rfl

/-- A store through the whole-block rectangle of the accumulator's shape, last in a list of stores, covers every
    index of the shape (what reading the stores back asks). -/
theorem run5_cover (w : S1x3000.Idx → Elt F .f32) (L : List (View.Piece (Elt F) S1x3000 .f32)) (y : S1x3000.Idx) :
    ∃ p ∈ (⟨Rect.unit (s := S1x3000) ![0, 0] S1x3000.size inb_S1x3000_S1x3000_0_0, w⟩ : View.Piece (Elt F) S1x3000 .f32) :: L,
      y ∈ p.1.set :=
  ⟨_, List.mem_cons_self .., View.mem_set_unit_zero (S := S1x3000) run5_hz inb_S1x3000_S1x3000_0_0 y⟩

set_option maxHeartbeats 1000000 in
/-- FIRST point: the accumulator is zeroed, then holds this block's contribution; the output block is not touched. -/
theorem run5_first (c : Dev nD) (E : Set ℕ) (i : grid5.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : condA5 i) (hL : ¬ k5_cond2 i = 1#1)
    (x0 : Vec F S512x3000 .bf16) (x1 : Vec F S512x1 .f32) (d3 : Vec F S1x3000 .f32) (K : PUnit → sProp 𝕄) :
    iprop(owns (c : Thread nD τ) arg1 fullShare x0 ∗ owns (c : Thread nD τ) arg2 fullShare x1 ∗ owns (c : Thread nD τ) arg3 fullShare d3
        ∗ (∃ s, owns (c : Thread nD τ) arg4 fullShare s)
        ∗ (iprop(owns (c : Thread nD τ) arg1 fullShare x0 ∗ owns (c : Thread nD τ) arg2 fullShare x1 ∗ owns (c : Thread nD τ) arg3 fullShare d3
            ∗ owns (c : Thread nD τ) arg4 fullShare (k5_pay2 x0 x1 (k5_pay1 (F := F)))) -∗ K ⟨⟩))
      ⊢ wp frame (wpE (defs₀ (F := F)) Variants.none c none) E (cc5__reduce_r_kernel i arg1 harg1 arg2 harg2 arg3 harg3 arg4 harg4) K := by
  simp only [cc5__reduce_r_kernel_eq_skeleton]; unfold cc5__reduce_r_kernel_skel
  unfold owns
  iintro ⟨⟨%f1, %hf1, H1⟩, ⟨%f2, %hf2, H2⟩, ⟨%f3, %hf3, H3⟩, ⟨%s4, %f4, -, H4⟩, Hk⟩
  obtain rfl := harg1.eq_unread hf1; obtain rfl := harg2.eq_unread hf2; obtain rfl := harg3.eq_unread hf3
  -- the first branch is taken (the accumulator is zeroed), the second is not
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  -- the accumulator: two whole-block stores, the later (the update) covering; it read back the earlier (the zero block)
  iexists _; isplitr; swap; · iexact H4
  ipureintro
  sl_unfold_words
  rw [View.read_writes_eq_canon _ _ _ (run5_cover _ _)]
  rw [View.canon_cons_unit_zero (S := S1x3000) run5_hz, View.readCov_unit_zero (S := S1x3000) _ run5_hz]
  simp only [View.readAt_eq_ld, harg1.read_unread, harg2.read_unread,
    View.ld_unit_zero (S := S512x3000) run5_hz, View.ld_unit_zero (S := S512x1) run5_hz]

set_option maxHeartbeats 1000000 in
/-- A MIDDLE point: the accumulator gains this block's contribution; the output block is not touched. -/
theorem run5_mid (c : Dev nD) (E : Set ℕ) (i : grid5.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : ¬ condA5 i) (hL : ¬ k5_cond2 i = 1#1)
    (x0 : Vec F S512x3000 .bf16) (x1 : Vec F S512x1 .f32) (d3 : Vec F S1x3000 .f32) (a : Vec F S1x3000 .f32) (K : PUnit → sProp 𝕄) :
    iprop(owns (c : Thread nD τ) arg1 fullShare x0 ∗ owns (c : Thread nD τ) arg2 fullShare x1 ∗ owns (c : Thread nD τ) arg3 fullShare d3
        ∗ owns (c : Thread nD τ) arg4 fullShare a
        ∗ (iprop(owns (c : Thread nD τ) arg1 fullShare x0 ∗ owns (c : Thread nD τ) arg2 fullShare x1 ∗ owns (c : Thread nD τ) arg3 fullShare d3
            ∗ owns (c : Thread nD τ) arg4 fullShare (k5_pay2 x0 x1 a)) -∗ K ⟨⟩))
      ⊢ wp frame (wpE (defs₀ (F := F)) Variants.none c none) E (cc5__reduce_r_kernel i arg1 harg1 arg2 harg2 arg3 harg3 arg4 harg4) K := by
  simp only [cc5__reduce_r_kernel_eq_skeleton]; unfold cc5__reduce_r_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  -- neither branch is taken
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  -- the accumulator: one whole-block store, whose payload's loads each read a whole block's contents
  iexists _; isplitr; swap; · iexact H4
  ipureintro
  rw [View.read_writes_eq_canon _ _ _ (run5_cover _ _)]
  rw [View.canon_unit_zero run5_hz]
  simp only [View.readAt_eq_ld, harg1.read_unread, harg2.read_unread, harg4.read_unread,
    View.ld_unit_zero (S := S512x3000) run5_hz, View.ld_unit_zero (S := S512x1) run5_hz, View.ld_unit_zero (S := S1x3000) run5_hz]

set_option maxHeartbeats 1000000 in
/-- The LAST point: the accumulator gains this block's contribution, and the output block is written from it. -/
theorem run5_last (c : Dev nD) (E : Set ℕ) (i : grid5.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : ¬ condA5 i) (hL : k5_cond2 i = 1#1)
    (x0 : Vec F S512x3000 .bf16) (x1 : Vec F S512x1 .f32) (a : Vec F S1x3000 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare a
        ∗ (iprop(owns (c : Thread nD τ) arg1 fullShare x0 ∗ owns (c : Thread nD τ) arg2 fullShare x1
            ∗ owns (c : Thread nD τ) arg3 fullShare (k5_pay3 (k5_pay2 x0 x1 a))
            ∗ owns (c : Thread nD τ) arg4 fullShare (k5_pay2 x0 x1 a)) -∗ K ⟨⟩))
      ⊢ wp frame (wpE (defs₀ (F := F)) Variants.none c none) E (cc5__reduce_r_kernel i arg1 harg1 arg2 harg2 arg3 harg3 arg4 harg4) K := by
  simp only [cc5__reduce_r_kernel_eq_skeleton]; unfold cc5__reduce_r_kernel_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  -- the first branch is not taken, the second is (the output block is written)
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  -- the output block: one whole-block store of the reciprocal payload at the accumulator read back after its update
  · iexists _; isplitr; swap; · iexact H3
    ipureintro
    sl_unfold_words
    rw [View.read_writes_eq_canon _ _ _ (run5_cover _ _)]
    rw [View.canon_unit_zero run5_hz, View.readCov_unit_zero (S := S1x3000) _ run5_hz]
    simp only [View.readAt_eq_ld, harg1.read_unread, harg2.read_unread, harg4.read_unread,
      View.ld_unit_zero (S := S512x3000) run5_hz, View.ld_unit_zero (S := S512x1) run5_hz, View.ld_unit_zero (S := S1x3000) run5_hz]
  -- the accumulator: one whole-block store, whose payload's loads each read a whole block's contents
  iexists _; isplitr; swap; · iexact H4
  ipureintro
  sl_unfold_words
  rw [View.read_writes_eq_canon _ _ _ (run5_cover _ _)]
  rw [View.canon_unit_zero run5_hz]
  simp only [View.readAt_eq_ld, harg1.read_unread, harg2.read_unread, harg4.read_unread,
    View.ld_unit_zero (S := S512x3000) run5_hz, View.ld_unit_zero (S := S512x1) run5_hz, View.ld_unit_zero (S := S1x3000) run5_hz]

end Cert.Kernel.Hand

end
-- ==== Proof.K.Region5.lean ====
import proofs.«177643_j32452772888869_1_alg».proof.Proof.Gen.Kernel.Launch
import proofs.«177643_j32452772888869_1_alg».proof.Proof.Gen.Kernel.Skeleton
import proofs.«177643_j32452772888869_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«177643_j32452772888869_1_alg».proof.Proof.K.Region5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: the column-scaling kernel `cc5__reduce_r_kernel` (pipeline 5), at the entry contents `V`

The grid has 64 points, one per block of 512 rows. At each point the kernel reads a block of the matrix `E`
(window 0, 512 × 3000, bf16) and the matching block of the row scaling `c` (window 1, 512 × 1, f32), and adds the
block's column sums `Σ_rows E·c` to an accumulator of 3000 columns that lives in a scratch buffer and is carried
from point to point: zeroed at the first point, read and rewritten at every point. Only at the last point does
it store the output block (window 2, 1 × 3000, f32): `1 / (32768 · accumulator)`. At every other point the output
window's buffer is left as found. -/

/-! ## The windows' blocks -/

/-- Window `w`'s block at grid point `t`: the slice its index map selects there, read off the window's array as
    the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The matrix window's current staging buffer holds the point's own block when the body starts, whatever it held
    before: the window is fetched at every point, its blocks tile the array and it is never idle, and the body
    only reads it. Stated for ANY proof data whose array 0 is `V`'s (`hA`) and whose body leaves block 0 in place
    (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same for the row-scaling window. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## Which points are first and last -/

/-- The body zeroes the accumulator exactly at the grid's first point — decided over the grid. -/
theorem hcondA5 : ∀ t : Fin cfg5.N, condA5 (grid5.coords t) ↔ t.val = 0 :=
  (by decide +kernel : ∀ t : Fin grid5.N, condA5 (grid5.coords t) ↔ t.val = 0)

/-- The body stores the output block exactly at the grid's last point — decided over the grid. -/
theorem hcondL5 : ∀ t : Fin cfg5.N, k5_cond2 (grid5.coords t) = 1#1 ↔ t.val = 63 :=
  (by decide +kernel : ∀ t : Fin grid5.N, k5_cond2 (grid5.coords t) = 1#1 ↔ t.val = 63)

/-! ## The accumulator, point by point -/

/-- THE ACCUMULATION. What the scratch buffer holds after the body at position `n`: at the first point the
    block's contribution added to the zero vector; at each later point the block's contribution added to what
    the point before left. -/
def acc5 (c : Dev nD) : (n : ℕ) → n < cfg5.N → Vec F S1x3000 .f32
  | 0, h => k5_pay2 (iblk5 V c 0 ⟨0, h⟩) (iblk5 V c 1 ⟨0, h⟩) (k5_pay1 (F := F))
  | n + 1, h => k5_pay2 (iblk5 V c 0 ⟨n + 1, h⟩) (iblk5 V c 1 ⟨n + 1, h⟩) (acc5 c n (Nat.lt_of_succ_lt h))

theorem acc5_zero (c : Dev nD) (h : 0 < cfg5.N) :
    acc5 V c 0 h = k5_pay2 (iblk5 V c 0 ⟨0, h⟩) (iblk5 V c 1 ⟨0, h⟩) (k5_pay1 (F := F)) := rfl

theorem acc5_succ (c : Dev nD) (n : ℕ) (h : n + 1 < cfg5.N) :
    acc5 V c (n + 1) h = k5_pay2 (iblk5 V c 0 ⟨n + 1, h⟩) (iblk5 V c 1 ⟨n + 1, h⟩) (acc5 V c n (Nat.lt_of_succ_lt h)) := rfl

/-- The accumulator after the first point, stated at a point known to be the first. -/
theorem acc5_first (c : Dev nD) (t : Fin cfg5.N) (h0 : t.val = 0) :
    acc5 V c t.val t.isLt = k5_pay2 (iblk5 V c 0 t) (iblk5 V c 1 t) (k5_pay1 (F := F)) := by
  obtain ⟨n, hn⟩ := t
  cases n with
  | zero => exact rfl
  | succ n => exact absurd h0 (Nat.succ_ne_zero n)

/-- The accumulator after a later point: this block's contribution over what the point before left. -/
theorem acc5_later (c : Dev nD) (t : Fin cfg5.N) (h0 : t.val ≠ 0) :
    acc5 V c t.val t.isLt
      = k5_pay2 (iblk5 V c 0 t) (iblk5 V c 1 t) (acc5 V c (t.val - 1) (Nat.lt_of_le_of_lt (Nat.sub_le _ _) t.isLt)) := by
  obtain ⟨n, hn⟩ := t
  cases n with
  | zero => exact absurd rfl h0
  | succ n => exact rfl

/-! ## The invariant between points -/

/-- The scratch buffer, as a whole-buffer memref (what the pipeline passes the body as its last operand). -/
abbrev scratch5 : Memref sig .tc .vmem S1x3000 .f32 := Memref.whole cc5_scratch0

/-- The accumulator's part of the invariant at position `n` (before point `n`): before the first point the
    scratch buffer is held at SOME contents (the body overwrites them); before point `n + 1` it holds what
    point `n` left, `acc5 … n`. -/
def scr5 (c : Dev nD) : (n : ℕ) → n < cfg5.N + 1 → sProp 𝕄
  | 0, _ => iprop(∃ s : Vec F S1x3000 .f32, owns (c : Thread nD τ) scratch5 fullShare s)
  | n + 1, h => owns (c : Thread nD τ) scratch5 fullShare (acc5 V c n (Nat.lt_of_succ_lt_succ h))

/-- The invariant before point `t`: the accumulator's part, every other scoped buffer that is no staging buffer of
    this call at some contents, and the generator register at some state. The body touches neither of the last
    two. -/
def Phi5 (c : Dev nD) (t : Fin (cfg5.N + 1)) : sProp 𝕄 :=
  iprop(scr5 V c t.val t.isLt
    ∗ Pipeline.scopedRestBut (Ix := Unit) (Name := ℕ) (U := UR sig nD τ) (Lvl := ℕ) (Val := Elt F) spec5 c [cc5_scratch0]
    ∗ ∃ r, prngReg c r)

/-- Whatever the position, the accumulator's part holds the scratch buffer's points-to at some contents. -/
theorem scr5_forget (c : Dev nD) (n : ℕ) (h : n < cfg5.N + 1) :
    scr5 V c n h ⊢ (iprop(∃ f : Buf (Elt F) ((c : Thread nD τ).loc cc5_scratch0), ((c : Thread nD τ).loc cc5_scratch0) ↦{fullShare} f) : sProp 𝕄) := by
  cases n with
  | zero =>
    show iprop(∃ s : Vec F S1x3000 .f32, owns (c : Thread nD τ) (Memref.whole cc5_scratch0) fullShare s) ⊢ _
    simp only [owns_whole]
    iintro ⟨%s, Hs⟩
    iexists s; iexact Hs
  | succ n =>
    show owns (c : Thread nD τ) (Memref.whole cc5_scratch0) fullShare (acc5 V c n (Nat.lt_of_succ_lt_succ h)) ⊢ _
    rw [owns_whole]
    iintro Hs
    iexists _; iexact Hs

/-! ## The pipeline's proof data -/

/-- The proof data of pipeline 5 on core `c`. The arrays are as the region finds them (`V`). After the body at
    point `t` the two input windows' buffers still hold the point's blocks; the output window's holds, at the last
    point, the reciprocal `k5_pay3` of the accumulator there (at the other points, idle for that window, the entry
    is not consulted). The invariant carries the accumulator. Nothing is owed between cores; every share is full. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay3 (acc5 V c t.val t.isLt)
  Φ t := Phi5 V c t
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves in each window's buffer: the matrix block untouched, -/
theorem after5_0 (c : Dev nD) (t : Fin cfg5.N) : (dat5 V c).after 0 t = iblk5 V c 0 t := by dsimp only [dat5]
/-- the row-scaling block untouched, -/
theorem after5_1 (c : Dev nD) (t : Fin cfg5.N) : (dat5 V c).after 1 t = iblk5 V c 1 t := by dsimp only [dat5]
/-- and (where the output is stored) the reciprocal of the accumulator. -/
theorem after5_2 (c : Dev nD) (t : Fin cfg5.N) : (dat5 V c).after 2 t = k5_pay3 (acc5 V c t.val t.isLt) := by dsimp only [dat5]

/-- Each input's current staging buffer holds the point's block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- The invariant after point `t`: the accumulator at `acc5 … t`. -/
theorem Phi5_succ (c : Dev nD) (t : Fin cfg5.N) :
    (dat5 V c).Φ t.succ = iprop(owns (c : Thread nD τ) scratch5 fullShare (acc5 V c t.val t.isLt)
      ∗ Pipeline.scopedRestBut (Ix := Unit) (Name := ℕ) (U := UR sig nD τ) (Lvl := ℕ) (Val := Elt F) spec5 c [cc5_scratch0]
      ∗ ∃ r, prngReg c r) := rfl

/-- The invariant before the first point: the scratch buffer at some contents. -/
theorem Phi5_first (c : Dev nD) (t : Fin cfg5.N) (h0 : t.val = 0) :
    (dat5 V c).Φ t.castSucc = iprop((∃ s : Vec F S1x3000 .f32, owns (c : Thread nD τ) scratch5 fullShare s)
      ∗ Pipeline.scopedRestBut (Ix := Unit) (Name := ℕ) (U := UR sig nD τ) (Lvl := ℕ) (Val := Elt F) spec5 c [cc5_scratch0]
      ∗ ∃ r, prngReg c r) := by
  obtain ⟨n, hn⟩ := t
  cases n with
  | zero => exact rfl
  | succ n => exact absurd h0 (Nat.succ_ne_zero n)

/-- The invariant before a later point: the accumulator at what the point before left. -/
theorem Phi5_later (c : Dev nD) (t : Fin cfg5.N) (h0 : t.val ≠ 0) :
    (dat5 V c).Φ t.castSucc = iprop(owns (c : Thread nD τ) scratch5 fullShare (acc5 V c (t.val - 1) (Nat.lt_of_le_of_lt (Nat.sub_le _ _) t.isLt))
      ∗ Pipeline.scopedRestBut (Ix := Unit) (Name := ℕ) (U := UR sig nD τ) (Lvl := ℕ) (Val := Elt F) spec5 c [cc5_scratch0]
      ∗ ∃ r, prngReg c r) := by
  obtain ⟨n, hn⟩ := t
  cases n with
  | zero => exact absurd rfl h0
  | succ n => exact rfl

/-! ## The output window: idle but at the last point -/

/-- At a point that is not the last the output window is idle and its block is not written back, so the body
    hands its buffer back at what it found there; -/
theorem leaves5_idle (c : Dev nD) (t : Fin cfg5.N) (hl : t.val ≠ 63) :
    (dat5 V c).leavesExact 2 t = iprop(∃ d, owns (c : Thread nD τ) (st5_2 t) fullShare ((dat5 V c).before 2 t d)) := by
  have hL : ¬ k5_cond2 (grid5.coords t) = 1#1 := fun h => hl ((hcondL5 t).mp h)
  have hN : t.val < 64 := lt_of_lt_of_eq t.isLt (show cfg5.N = 64 from N_5)
  refine Dat.leavesExact_idle _ 2 t ?_ ?_
  · show (!(k5_cond2 (grid5.coords t) == 1#1)) = true
    simp only [beq_iff_eq, hL, Bool.not_eq_true', decide_eq_false_iff_not, not_false_eq_true, Bool.not_eq_eq_eq_not, Bool.not_true, beq_eq_false_iff_ne, ne_eq]
  · exact Bool.eq_false_iff.mpr fun h => by have := (flush5_2 t).mp h; omega

/-- at the last point it is live: the body leaves the reciprocal of the accumulator there. -/
theorem leaves5_last (c : Dev nD) (t : Fin cfg5.N) (hl : t.val = 63) :
    (dat5 V c).leavesExact 2 t = owns (c : Thread nD τ) (st5_2 t) fullShare (k5_pay3 (acc5 V c t.val t.isLt)) := by
  have hL : k5_cond2 (grid5.coords t) = 1#1 := (hcondL5 t).mpr hl
  have hi : cfg5.idle 2 (cfg5.grid.coords t) = false := by
    show (!(k5_cond2 (grid5.coords t) == 1#1)) = false
    rw [hL]; rfl
  unfold Dat.leavesExact; rw [hi, after5_2]

/-! ## The body obligation, at a generic point -/

/-- What the body is called with at point `t`: the invariant, the core's debts, and each window's current staging
    buffer at what the pipeline left in it, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns: the invariant at the next position, the debts, the inputs' buffers at their blocks and
    the output's buffer at what the body leaves there (as found, or at the last point the stored reciprocal). -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ (dat5 V c).leavesExact 2 t)

set_option maxHeartbeats 1000000 in
/-- The body at any point. The inputs' memrefs hold their blocks (`before5_0`, `before5_1`). Three cases on the
    point's position: at the first the scratch buffer holds anything and ends at the block's contribution over
    zero; at a middle point it holds what the point before left and gains the block's contribution; at the last
    likewise, and the output's buffer receives the reciprocal of the new accumulator. In each the new scratch
    contents are `acc5` at the point by its recursion equation. The rest of the invariant and the debts pass
    through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl,
    after5_0, after5_1, Phi5_succ]
  have hN : t.val < 64 := lt_of_lt_of_eq t.isLt (show cfg5.N = 64 from N_5)
  by_cases h0 : t.val = 0
  · -- the first point
    have hl : t.val ≠ 63 := by omega
    rw [Phi5_first V c t h0, leaves5_idle V c t hl, acc5_first V c t h0]
    iintro ⟨⟨Hs, Hr, Hp⟩, Ho, ⟨%dx, Hx⟩, ⟨%dy, Hy⟩, ⟨%dz, Hz⟩⟩
    iapply (run5_first c Set.univ (grid5.coords t) _ _ _ _ _ _ _ _ ((hcondA5 t).mpr h0) (fun h => hl ((hcondL5 t).mp h))
      (iblk5 V c 0 t) (iblk5 V c 1 t) ((dat5 V c).before 2 t dz) _)
    isplitl [Hx]; · iexact Hx
    isplitl [Hy]; · iexact Hy
    isplitl [Hz]; · iexact Hz
    isplitl [Hs]; · iexact Hs
    iintro ⟨Hx, Hy, Hz, Hs⟩
    isplitl [Hs Hr Hp]
    · isplitl [Hs]; · iexact Hs
      isplitl [Hr]; · iexact Hr
      iexact Hp
    isplitl [Ho]; · iexact Ho
    isplitl [Hx]; · iexact Hx
    isplitl [Hy]; · iexact Hy
    iexists dz; iexact Hz
  · by_cases hl : t.val = 63
    · -- the last point
      rw [Phi5_later V c t h0, leaves5_last V c t hl, acc5_later V c t h0]
      iintro ⟨⟨Hs, Hr, Hp⟩, Ho, ⟨%dx, Hx⟩, ⟨%dy, Hy⟩, ⟨%dz, Hz⟩⟩
      iapply (run5_last c Set.univ (grid5.coords t) _ _ _ _ _ _ _ _ (fun h => h0 ((hcondA5 t).mp h)) ((hcondL5 t).mpr hl)
        (iblk5 V c 0 t) (iblk5 V c 1 t) _ _)
      isplitl [Hx]; · iexact Hx
      isplitl [Hy]; · iexact Hy
      isplitl [Hz]; · iexists _; iexact Hz
      isplitl [Hs]; · iexact Hs
      iintro ⟨Hx, Hy, Hz, Hs⟩
      isplitl [Hs Hr Hp]
      · isplitl [Hs]; · iexact Hs
        isplitl [Hr]; · iexact Hr
        iexact Hp
      isplitl [Ho]; · iexact Ho
      isplitl [Hx]; · iexact Hx
      isplitl [Hy]; · iexact Hy
      iexact Hz
    · -- a middle point
      rw [Phi5_later V c t h0, leaves5_idle V c t hl, acc5_later V c t h0]
      iintro ⟨⟨Hs, Hr, Hp⟩, Ho, ⟨%dx, Hx⟩, ⟨%dy, Hy⟩, ⟨%dz, Hz⟩⟩
      iapply (run5_mid c Set.univ (grid5.coords t) _ _ _ _ _ _ _ _ (fun h => h0 ((hcondA5 t).mp h)) (fun h => hl ((hcondL5 t).mp h))
        (iblk5 V c 0 t) (iblk5 V c 1 t) ((dat5 V c).before 2 t dz) _ _)
      isplitl [Hx]; · iexact Hx
      isplitl [Hy]; · iexact Hy
      isplitl [Hz]; · iexact Hz
      isplitl [Hs]; · iexact Hs
      iintro ⟨Hx, Hy, Hz, Hs⟩
      isplitl [Hs Hr Hp]
      · isplitl [Hs]; · iexact Hs
        isplitl [Hr]; · iexact Hr
        iexact Hp
      isplitl [Ho]; · iexact Ho
      isplitl [Hx]; · iexact Hx
      isplitl [Hy]; · iexact Hy
      iexists dz; iexact Hz

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## Into the invariant and out of it -/

/-- The invariant at position 0 from the generator register and the scoped rest: the scratch buffer is split out
    of the rest, at the contents it happens to hold. -/
theorem Phi5_in (c : Dev nD) :
    iprop((∃ r, prngReg c r) ∗ Pipeline.scopedRest (Ix := Unit) (Name := ℕ) (U := UR sig nD τ) (Lvl := ℕ) (Val := Elt F) spec5 c)
      ⊢ ((dat5 V c).Φ 0 : sProp 𝕄) := by
  rw [scopedRest5_split, show (dat5 V c).Φ 0 = iprop((∃ s : Vec F S1x3000 .f32, owns (c : Thread nD τ) scratch5 fullShare s)
      ∗ Pipeline.scopedRestBut (Ix := Unit) (Name := ℕ) (U := UR sig nD τ) (Lvl := ℕ) (Val := Elt F) spec5 c [cc5_scratch0]
      ∗ ∃ r, prngReg c r) from rfl]
  iintro ⟨Hp, ⟨%f, Hs⟩, Hr⟩
  isplitl [Hs]
  · iexists f; unfold scratch5; rw [owns_whole]; iexact Hs
  isplitl [Hr]; · iexact Hr
  iexact Hp

/-- After the last point the invariant gives both back: the scratch buffer, its contents forgotten, rejoins the
    scoped rest. -/
theorem Phi5_out (c : Dev nD) :
    ((dat5 V c).Φ (Fin.last cfg5.N) : sProp 𝕄)
      ⊢ iprop((∃ r, prngReg c r) ∗ Pipeline.scopedRest (Ix := Unit) (Name := ℕ) (U := UR sig nD τ) (Lvl := ℕ) (Val := Elt F) spec5 c) := by
  rw [scopedRest5_split, show (dat5 V c).Φ (Fin.last cfg5.N) = Phi5 V c (Fin.last cfg5.N) from rfl]
  unfold Phi5
  iintro ⟨Hs, Hr, Hp⟩
  isplitl [Hp]; · iexact Hp
  isplitl [Hs]; · iapply (scr5_forget V c _ _); iexact Hs
  iexact Hr

end Cert.Kernel.Hand

end
-- ==== Proof.K.Region6.lean ====
import proofs.«177643_j32452772888869_1_alg».proof.Proof.Gen.Kernel.Launch
import proofs.«177643_j32452772888869_1_alg».proof.Proof.Gen.Kernel.Skeleton
import proofs.«177643_j32452772888869_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The column-scaling update `cc6__update_c_kernel` (pipeline 6), at the entry contents `V`

Per block of 512 rows the body reads the block of the exponentiated matrix and the whole row vector of column
scalings, and overwrites the block of 512 row scalings with the reciprocal of 3000 times the row sums of their
product. Nothing is carried from one grid point to the next. -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The matrix window (input 0, fetched at every point): its current staging buffer holds its block at every point,
    for ANY proof data whose array is `V`'s (`hA`) and whose body leaves the block in place (`hafter`). The window
    is uncut and never idle, so what a fetch would put there is the block itself. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The column-scaling window (input 1, block index constant, so fetched at the first point only): its staging
    buffer holds its block at every point all the same. Where it is not fetched the block index has not moved, and
    the body left the buffer as it found it, so it still holds the first point's block, which is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S512x3000 := Rect.unit (s := S512x3000) ![0, 0] S512x3000.size inb_S512x3000_S512x3000_0_0
abbrev r6_1 : Rect S1x3000 := Rect.unit (s := S1x3000) ![0, 0] S1x3000.size inb_S1x3000_S1x3000_0_0
abbrev r6_2 : Rect S512x1 := Rect.unit (s := S512x1) ![0, 0] S512x1.size inb_S512x1_S512x1_0_0

/-! ## What the body leaves in the output window's buffer -/

/-- The row-scaling block's staging buffer after the body, from the two input blocks: its one store, of the whole
    buffer, of the payload at the two whole-block loads. -/
def out6_2 (x0 : Vec F S512x3000 .bf16) (x1 : Vec F S1x3000 .f32) : Vec F S512x1 .f32 :=
  View.canon [⟨r6_2, k6_pay1 (View.ld x0 r6_0) (View.ld x1 r6_1)⟩]

/-- The one store is of the whole buffer (checked by evaluation), so it covers it. -/
theorem cover6_2 (p0 : Vec F S512x1 .f32) (y : S512x1.Idx) :
    ∃ pc ∈ ([⟨r6_2, p0⟩] : List (View.Piece (Elt F) S512x1 .f32)), y ∈ pc.1.set :=
  View.cover_of_tiled [⟨r6_2, p0⟩] S512x1.size (by rfl) y

/-! ## The body's triple -/

set_option maxHeartbeats 1000000 in
/-- The kernel body on whole staging memrefs, the two inputs' at read contents `x0`, `x1` and the output's at anything,
    runs to the continuation holding the inputs' as they were and the output's at `out6_2` of the inputs': the printed
    function is its skeleton of three loads and one store, run operation by operation; the grid coordinate is not read. -/
theorem sound_kernel6 (c : Dev nD) (E : Set ℕ) (i : grid6.Coords) (argE : Memref sig .tc .vmem S512x3000 .bf16) (hargE : argE.IsWhole)
    (argR : Memref sig .tc .vmem S1x3000 .f32) (hargR : argR.IsWhole) (argC : Memref sig .tc .vmem S512x1 .f32) (hargC : argC.IsWhole)
    (x0 : Vec F S512x3000 .bf16) (x1 : Vec F S1x3000 .f32) (K : PUnit → sProp 𝕄) :
    iprop(owns (c : Thread nD τ) argE fullShare x0 ∗ owns (c : Thread nD τ) argR fullShare x1 ∗ (∃ d, owns (c : Thread nD τ) argC fullShare d)
        ∗ (iprop(owns (c : Thread nD τ) argE fullShare x0 ∗ owns (c : Thread nD τ) argR fullShare x1
            ∗ owns (c : Thread nD τ) argC fullShare (out6_2 x0 x1)) -∗ K ⟨⟩))
      ⊢ wp frame (wpE (defs₀ (F := F)) Variants.none c none) E (cc6__update_c_kernel i argE hargE argR hargR argC hargC) K := by
  simp only [cc6__update_c_kernel_eq_skeleton]; unfold cc6__update_c_kernel_skel
  unfold owns
  iintro ⟨⟨%fE, %hfE, HE⟩, ⟨%fR, %hfR, HR⟩, ⟨%dC, %fC, -, HC⟩, Hk⟩
  subst hfE
  subst hfR
  sl_exec
  sl_step
  iapply Hk
  isplitl [HE]
  · iexists fE; isplitr; · ipureintro; rfl
    iexact HE
  isplitl [HR]
  · iexists fR; isplitr; · ipureintro; rfl
    iexact HR
  iexists _; isplitr
  swap; · iexact HC
  ipureintro
  exact View.read_writes_eq_canon _ _ _ (cover6_2 _)

/-! ## The pipeline's proof data -/

/-- The proof data of pipeline 6 on core `c`: the arrays as the region finds them (`V`); after the body at
    point `t` each input's buffer at its block and the output's at `out6_2` of the input blocks; the invariant the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks (`before6_0`, `before6_1`), so `sound_kernel6` applies;
    the invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%dE, HE⟩, ⟨%dR, HR⟩, ⟨%dC, HC⟩⟩
  iapply (sound_kernel6 c Set.univ _ _ _ _ _ _ _ (iblk6 V c 0 t) (iblk6 V c 1 t) _)
  isplitl [HE]; · iexact HE
  isplitl [HR]; · iexact HR
  isplitl [HC]; · iexists _; iexact HC
  iintro ⟨HE, HR, HC⟩
  isplitl [HΦ]; · iexact HΦ
  isplitl [Ho]; · iexact Ho
  isplitl [HE]; · iexact HE
  isplitl [HR]; · iexact HR
  iexact HC

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's two ends -/

/-- Entering: the generator register and the scoped rest make up the invariant at the first point. -/
theorem Phi6_in (c : Dev nD) :
    iprop((∃ r, prngReg c r) ∗ Pipeline.scopedRest (Ix := Unit) (Name := ℕ) (U := UR sig nD τ) (Lvl := ℕ) (Val := Elt F) spec6 c)
      ⊢ ((dat6 V c).Φ 0 : sProp 𝕄) := by
  rw [show (dat6 V c).Φ 0 = Pipeline.ΦA spec6 c from rfl]; unfold Pipeline.ΦA
  iintro ⟨Hp, Hr⟩
  isplitl [Hr]; · iexact Hr
  iexact Hp

/-- Leaving: the invariant at the last point gives both back. -/
theorem Phi6_out (c : Dev nD) :
    ((dat6 V c).Φ (Fin.last cfg6.N) : sProp 𝕄)
      ⊢ iprop((∃ r, prngReg c r) ∗ Pipeline.scopedRest (Ix := Unit) (Name := ℕ) (U := UR sig nD τ) (Lvl := ℕ) (Val := Elt F) spec6 c) := by
  rw [show (dat6 V c).Φ (Fin.last _) = Pipeline.ΦA spec6 c from rfl]; unfold Pipeline.ΦA
  iintro ⟨Hr, Hp⟩
  isplitl [Hp]; · iexact Hp
  iexact Hr

end Cert.Kernel.Hand

end
-- ==== Proof.K.Region7.lean ====
import proofs.«177643_j32452772888869_1_alg».proof.Proof.Gen.Kernel.Launch
import proofs.«177643_j32452772888869_1_alg».proof.Proof.Gen.Kernel.Skeleton
import proofs.«177643_j32452772888869_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The last region of @main: the final scaling, `cc7__final_kernel` (pipeline 7), at the entry contents `V`

Each of the 64 grid points takes a block of 512 rows of the exponentials `E` (window 0, 16-bit), the whole row of
column factors `r` (window 1: one block, the same at every point), the 512 row factors `c` of those rows (window 2),
and stores `3000 · E · r · c` over the matching block of the result (window 3). -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The block of `E` (window 0): its staging buffer holds the point's 512 rows at every point, for ANY proof data
    whose array is `V`'s (`hA`) and whose body leaves the block in place (`hafter`). The window is fetched at every
    point, is never cut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The row `r` (window 1): its block index is the constant (0, 0), so the pipeline fetches it at the first point
    only; at a later point the buffer still holds what the body left at the point before, which is the same block
    (the index has not moved, and the body leaves it in place). So the buffer holds the row at every point. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The block of `c` (window 2): the point's 512 row factors, fetched at every point. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_0 : Rect S512x3000 := Rect.unit (s := S512x3000) ![0, 0] S512x3000.size inb_S512x3000_S512x3000_0_0
abbrev r7_1 : Rect S1x3000 := Rect.unit (s := S1x3000) ![0, 0] S1x3000.size inb_S1x3000_S1x3000_0_0
abbrev r7_2 : Rect S512x1 := Rect.unit (s := S512x1) ![0, 0] S512x1.size inb_S512x1_S512x1_0_0

/-! ## What the body leaves in the output window's buffer -/

/-- The result block after the body, from the three input blocks: one store of the whole block, whose payload is
    `3000 · E · r · c` with `r` spread down the rows and `c` across the columns (`k7_pay1`). -/
def out7_3 (x0 : Vec F S512x3000 .bf16) (x1 : Vec F S1x3000 .f32) (x2 : Vec F S512x1 .f32) : Vec F S512x3000 .f32 :=
  View.canon [⟨r7_0, k7_pay1 (View.ld x0 r7_0) (View.ld x1 r7_1) (View.ld x2 r7_2)⟩]

/-- The one store is the whole block, so it covers it (one tile of the block's own size). -/
theorem cover7_3 (p0 : Vec F S512x3000 .f32) (y : S512x3000.Idx) :
    ∃ pc ∈ ([⟨r7_0, p0⟩] : List (View.Piece (Elt F) S512x3000 .f32)), y ∈ pc.1.set :=
  View.cover_of_tiled [⟨r7_0, p0⟩] S512x3000.size (by rfl) y

/-! ## The body's triple -/

set_option maxHeartbeats 1000000 in
/-- The kernel body on whole staging memrefs — the three inputs' at read contents `x0`, `x1`, `x2`, the output's at
    anything — runs to the continuation holding the inputs' as they were and the output's at `out7_3` of them: three
    whole-block loads, a load of the output buffer whose value is not used, and the one covering store. -/
theorem sound_kernel7 (c : Dev nD) (E : Set ℕ) (i : grid7.Coords)
    (arg1 : Memref sig .tc .vmem S512x3000 .bf16) (harg1 : arg1.IsWhole) (arg2 : Memref sig .tc .vmem S1x3000 .f32) (harg2 : arg2.IsWhole)
    (arg3 : Memref sig .tc .vmem S512x1 .f32) (harg3 : arg3.IsWhole) (arg4 : Memref sig .tc .vmem S512x3000 .f32) (harg4 : arg4.IsWhole)
    (x0 : Vec F S512x3000 .bf16) (x1 : Vec F S1x3000 .f32) (x2 : Vec F S512x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__final_kernel i arg1 harg1 arg2 harg2 arg3 harg3 arg4 harg4) K := by
  simp only [cc7__final_kernel_eq_skeleton]; unfold cc7__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them (`V`); after the body at point `t`
    each input's buffer at its block and the output's at `out7_3` of the three input blocks; the invariant the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's two ends -/

/-- Entering: the generator register at some state and the scoped rest make the invariant at point 0 (the two
    conjuncts in the other order). -/
theorem Phi7_in (c : Dev nD) :
    iprop((∃ r, prngReg c r) ∗ Pipeline.scopedRest (Ix := Unit) (Name := ℕ) (U := UR sig nD τ) (Lvl := ℕ) (Val := Elt F) spec7 c)
      ⊢ ((dat7 V c).Φ 0 : sProp 𝕄) := by
  rw [show (dat7 V c).Φ 0 = Pipeline.ΦA spec7 c from rfl]; unfold Pipeline.ΦA
  iintro ⟨Hp, Hr⟩
  isplitl [Hr]; · iexact Hr
  iexact Hp

/-- Leaving: the invariant at the last point gives them back. -/
theorem Phi7_out (c : Dev nD) :
    ((dat7 V c).Φ (Fin.last cfg7.N) : sProp 𝕄)
      ⊢ iprop((∃ r, prngReg c r) ∗ Pipeline.scopedRest (Ix := Unit) (Name := ℕ) (U := UR sig nD τ) (Lvl := ℕ) (Val := Elt F) spec7 c) := by
  rw [show (dat7 V c).Φ (Fin.last _) = Pipeline.ΦA spec7 c from rfl]; unfold Pipeline.ΦA
  iintro ⟨Hr, Hp⟩
  isplitl [Hp]; · iexact Hp
  iexact Hr

end Cert.Kernel.Hand

end
-- ==== Proof.K.Fold.lean ====
/-
  The run of the eight regions, boundary by boundary: what the TensorCore's unscoped buffers hold between two items of the
  program. `W0` is the launch memory; a kernel region replaces its windows' arrays by what its write-backs leave
  (the proof data's `arrAt … N`: an input array unchanged, an output array the flushed blocks in point order) and keeps
  every other buffer; the one host stretch (the all-ones column the first column scaling starts from) is `StableHlo.after`.
  Each region's proof data is taken at the contents the region is entered from.
-/
import proofs.«177643_j32452772888869_1_alg».proof.Proof.K.Region0
import proofs.«177643_j32452772888869_1_alg».proof.Proof.K.Region1
import proofs.«177643_j32452772888869_1_alg».proof.Proof.K.Region2
import proofs.«177643_j32452772888869_1_alg».proof.Proof.K.Region3
import proofs.«177643_j32452772888869_1_alg».proof.Proof.K.Region4
import proofs.«177643_j32452772888869_1_alg».proof.Proof.K.Region5
import proofs.«177643_j32452772888869_1_alg».proof.Proof.K.Region6
import proofs.«177643_j32452772888869_1_alg».proof.Proof.K.Region7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b

/-- At region 0's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host stretch (the constant 1 and its broadcast to a column): region 1's entry contents. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- At region 3's exit: its arrays at what the pipeline leaves, every other buffer as entered. -/
def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
abbrev V5 : (c : Dev nD) → (b : Ref sig .tc) → Buf (Elt F) ((c : Thread nD τ).loc b) := fun c b => W5 m c b
theorem hF3 (c : Dev nD) (w : Fin cfg3.W) : (dat3 (V4 m) c).arrAt w cfg3.N = V5 m c (Pipeline.arrRef spec3 w) :=
  (W5_arr m c w).symm
theorem hrest3 (c : Dev nD) : ∀ b, b ∉ Finset.univ.image (Pipeline.arrRef spec3) → V5 m c b = V4 m c b :=
  fun b hb => W5_of_ne m c b fun w e => hb (Finset.mem_image.mpr ⟨w, Finset.mem_univ _, e⟩)

/-- At region 4's exit: its arrays at what the pipeline leaves, every other buffer as entered. -/
def W6 (c : Dev nD) : Valuation τ sig (Elt F) :=
  Pipeline.withArrays spec4 c (W5 m c) fun w => (dat4 (V5 m) c).arrAt w cfg4.N
theorem W6_arr (c : Dev nD) (w : Fin cfg4.W) :
    W6 m c (Proc.devRef .tc (Pipeline.arrRef spec4 w)) = (dat4 (V5 m) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m c (Proc.devRef .tc b) = W5 m c (Proc.devRef .tc b) := by
  unfold W6; exact Pipeline.withArrays_of_ne spec4 c _ _ b hb
abbrev V6 : (c : Dev nD) → (b : Ref sig .tc) → Buf (Elt F) ((c : Thread nD τ).loc b) := fun c b => W6 m c b
theorem hF4 (c : Dev nD) (w : Fin cfg4.W) : (dat4 (V5 m) c).arrAt w cfg4.N = V6 m c (Pipeline.arrRef spec4 w) :=
  (W6_arr m c w).symm
theorem hrest4 (c : Dev nD) : ∀ b, b ∉ Finset.univ.image (Pipeline.arrRef spec4) → V6 m c b = V5 m c b :=
  fun b hb => W6_of_ne m c b fun w e => hb (Finset.mem_image.mpr ⟨w, Finset.mem_univ _, e⟩)

/-- At region 5's exit: its arrays at what the pipeline leaves, every other buffer as entered. -/
def W7 (c : Dev nD) : Valuation τ sig (Elt F) :=
  Pipeline.withArrays spec5 c (W6 m c) fun w => (dat5 (V6 m) c).arrAt w cfg5.N
theorem W7_arr (c : Dev nD) (w : Fin cfg5.W) :
    W7 m c (Proc.devRef .tc (Pipeline.arrRef spec5 w)) = (dat5 (V6 m) c).arrAt w cfg5.N := by
  unfold W7; exact Pipeline.withArrays_arr spec5 launch5.win.arr_inj c _ _ w
theorem W7_of_ne (c : Dev nD) (b : Ref sig .tc) (hb : ∀ w, Pipeline.arrRef spec5 w ≠ b) :
    W7 m c (Proc.devRef .tc b) = W6 m c (Proc.devRef .tc b) := by
  unfold W7; exact Pipeline.withArrays_of_ne spec5 c _ _ b hb
abbrev V7 : (c : Dev nD) → (b : Ref sig .tc) → Buf (Elt F) ((c : Thread nD τ).loc b) := fun c b => W7 m c b
theorem hF5 (c : Dev nD) (w : Fin cfg5.W) : (dat5 (V6 m) c).arrAt w cfg5.N = V7 m c (Pipeline.arrRef spec5 w) :=
  (W7_arr m c w).symm
theorem hrest5 (c : Dev nD) : ∀ b, b ∉ Finset.univ.image (Pipeline.arrRef spec5) → V7 m c b = V6 m c b :=
  fun b hb => W7_of_ne m c b fun w e => hb (Finset.mem_image.mpr ⟨w, Finset.mem_univ _, e⟩)

/-- At region 6's exit: its arrays at what the pipeline leaves, every other buffer as entered. -/
def W8 (c : Dev nD) : Valuation τ sig (Elt F) :=
  Pipeline.withArrays spec6 c (W7 m c) fun w => (dat6 (V7 m) c).arrAt w cfg6.N
theorem W8_arr (c : Dev nD) (w : Fin cfg6.W) :
    W8 m c (Proc.devRef .tc (Pipeline.arrRef spec6 w)) = (dat6 (V7 m) c).arrAt w cfg6.N := by
  unfold W8; exact Pipeline.withArrays_arr spec6 launch6.win.arr_inj c _ _ w
theorem W8_of_ne (c : Dev nD) (b : Ref sig .tc) (hb : ∀ w, Pipeline.arrRef spec6 w ≠ b) :
    W8 m c (Proc.devRef .tc b) = W7 m c (Proc.devRef .tc b) := by
  unfold W8; exact Pipeline.withArrays_of_ne spec6 c _ _ b hb
abbrev V8 : (c : Dev nD) → (b : Ref sig .tc) → Buf (Elt F) ((c : Thread nD τ).loc b) := fun c b => W8 m c b
theorem hF6 (c : Dev nD) (w : Fin cfg6.W) : (dat6 (V7 m) c).arrAt w cfg6.N = V8 m c (Pipeline.arrRef spec6 w) :=
  (W8_arr m c w).symm
theorem hrest6 (c : Dev nD) : ∀ b, b ∉ Finset.univ.image (Pipeline.arrRef spec6) → V8 m c b = V7 m c b :=
  fun b hb => W8_of_ne m c b fun w e => hb (Finset.mem_image.mpr ⟨w, Finset.mem_univ _, e⟩)

/-- At region 7's exit: its arrays at what the pipeline leaves, every other buffer as entered. -/
def W9 (c : Dev nD) : Valuation τ sig (Elt F) :=
  Pipeline.withArrays spec7 c (W8 m c) fun w => (dat7 (V8 m) c).arrAt w cfg7.N
theorem W9_arr (c : Dev nD) (w : Fin cfg7.W) :
    W9 m c (Proc.devRef .tc (Pipeline.arrRef spec7 w)) = (dat7 (V8 m) c).arrAt w cfg7.N := by
  unfold W9; exact Pipeline.withArrays_arr spec7 launch7.win.arr_inj c _ _ w
theorem W9_of_ne (c : Dev nD) (b : Ref sig .tc) (hb : ∀ w, Pipeline.arrRef spec7 w ≠ b) :
    W9 m c (Proc.devRef .tc b) = W8 m c (Proc.devRef .tc b) := by
  unfold W9; exact Pipeline.withArrays_of_ne spec7 c _ _ b hb
abbrev V9 : (c : Dev nD) → (b : Ref sig .tc) → Buf (Elt F) ((c : Thread nD τ).loc b) := fun c b => W9 m c b
theorem hF7 (c : Dev nD) (w : Fin cfg7.W) : (dat7 (V8 m) c).arrAt w cfg7.N = V9 m c (Pipeline.arrRef spec7 w) :=
  (W9_arr m c w).symm
theorem hrest7 (c : Dev nD) : ∀ b, b ∉ Finset.univ.image (Pipeline.arrRef spec7) → V9 m c b = V8 m c b :=
  fun b hb => W9_of_ne m c b fun w e => hb (Finset.mem_image.mpr ⟨w, Finset.mem_univ _, e⟩)

/-! ## The proof data family and what rides beside the buffers -/

/-- No pipeline has a prefetched table. -/
abbrev adm : (p : Fin 8) → (pcfgs (F := F) p).Adm := fun p => (cfgs p).toPCfg_adm
/-- Every pipeline's proof data, each at its region's entry contents (a literal match on the pipeline). -/
def pdats : (p : Fin 8) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V3 m) c
  | ⟨3, _⟩ => fun c => dat3 (V4 m) c
  | ⟨4, _⟩ => fun c => dat4 (V5 m) c
  | ⟨5, _⟩ => fun c => dat5 (V6 m) c
  | ⟨6, _⟩ => fun c => dat6 (V7 m) c
  | ⟨7, _⟩ => fun c => dat7 (V8 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- No operation of the host stretch allocates a buffer. -/
theorem hostOps1_fresh : (hostOps1 : List (HloOp τ sig (Elt F))).Forall fun op => op.fresh = ∅ := by
  simp only [List.Forall]; repeat' constructor

end Cert.Kernel.Hand

end
-- ==== Proof.K.Reg0.lean ====
/-
  Region 0 of the program as a segment of the run: the kernel region's record over the thread state
  "every unscoped buffer at the boundary's contents, the generator register at some state, nothing owed".
-/
import proofs.«177643_j32452772888869_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 0 over the thread state "every unscoped buffer at the boundary's contents, the generator register at some
    state, nothing owed": entered at `W0`, left at `W1`. Its arrays are split out of the unscoped buffers and put
    back at the exit contents; the generator register and the scoped buffers no window stages go into the proof data's
    invariant and come back out; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    iintro ⟨Hp, -, Hr⟩
    iapply (Phi0_in (V0 m) c)
    isplitl [Hp]; · iexact Hp
    iexact Hr
  hout c := by
    rw [Pipeline.ownSems0_none, show (pdats m 0 c).Φ (Fin.last _) = (dat0 (V0 m) c).Φ (Fin.last cfg0.N) from rfl]
    iintro H
    ihave H' := (Phi0_out (V0 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/-
  Region 1 of the program as a segment of the run: the kernel region's record over the thread state
  "every unscoped buffer at the boundary's contents, the generator register at some state, nothing owed".
-/
import proofs.«177643_j32452772888869_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 1 over the thread state "every unscoped buffer at the boundary's contents, the generator register at some
    state, nothing owed": entered at `W2`, left at `W3`. Its arrays are split out of the unscoped buffers and put
    back at the exit contents; the generator register and the scoped buffers no window stages go into the proof data's
    invariant and come back out; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    iintro ⟨Hp, -, Hr⟩
    iapply (Phi1_in (V2 m) c)
    isplitl [Hp]; · iexact Hp
    iexact Hr
  hout c := by
    rw [Pipeline.ownSems0_none, show (pdats m 1 c).Φ (Fin.last _) = (dat1 (V2 m) c).Φ (Fin.last cfg1.N) from rfl]
    iintro H
    ihave H' := (Phi1_out (V2 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/-
  Region 2 of the program as a segment of the run: the kernel region's record over the thread state
  "every unscoped buffer at the boundary's contents, the generator register at some state, nothing owed".
-/
import proofs.«177643_j32452772888869_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 2 over the thread state "every unscoped buffer at the boundary's contents, the generator register at some
    state, nothing owed": entered at `W3`, left at `W4`. Its arrays are split out of the unscoped buffers and put
    back at the exit contents; the generator register and the scoped buffers no window stages go into the proof data's
    invariant and come back out; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V3 m) c).Φ 0 from rfl]
    iintro ⟨Hp, -, Hr⟩
    iapply (Phi2_in (V3 m) c)
    isplitl [Hp]; · iexact Hp
    iexact Hr
  hout c := by
    rw [Pipeline.ownSems0_none, show (pdats m 2 c).Φ (Fin.last _) = (dat2 (V3 m) c).Φ (Fin.last cfg2.N) from rfl]
    iintro H
    ihave H' := (Phi2_out (V3 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
/-
  Region 3 of the program as a segment of the run: the kernel region's record over the thread state
  "every unscoped buffer at the boundary's contents, the generator register at some state, nothing owed".
-/
import proofs.«177643_j32452772888869_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 3 over the thread state "every unscoped buffer at the boundary's contents, the generator register at some
    state, nothing owed": entered at `W4`, left at `W5`. Its arrays are split out of the unscoped buffers and put
    back at the exit contents; the generator register and the scoped buffers no window stages go into the proof data's
    invariant and come back out; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V4 m) c).Φ 0 from rfl]
    iintro ⟨Hp, -, Hr⟩
    iapply (Phi3_in (V4 m) c)
    isplitl [Hp]; · iexact Hp
    iexact Hr
  hout c := by
    rw [Pipeline.ownSems0_none, show (pdats m 3 c).Φ (Fin.last _) = (dat3 (V4 m) c).Φ (Fin.last cfg3.N) from rfl]
    iintro H
    ihave H' := (Phi3_out (V4 m) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V4 m c) (V5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg4.lean ====
/-
  Region 4 of the program as a segment of the run: the kernel region's record over the thread state
  "every unscoped buffer at the boundary's contents, the generator register at some state, nothing owed".
-/
import proofs.«177643_j32452772888869_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 4 over the thread state "every unscoped buffer at the boundary's contents, the generator register at some
    state, nothing owed": entered at `W5`, left at `W6`. Its arrays are split out of the unscoped buffers and put
    back at the exit contents; the generator register and the scoped buffers no window stages go into the proof data's
    invariant and come back out; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m) c).loose
  hwaits := Pipeline.hwaits_of_owed_zero _ _ _ _ L lv 4 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec4 c (V5 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (V5 m) c).Φ 0 from rfl]
    iintro ⟨Hp, -, Hr⟩
    iapply (Phi4_in (V5 m) c)
    isplitl [Hp]; · iexact Hp
    iexact Hr
  hout c := by
    rw [Pipeline.ownSems0_none, show (pdats m 4 c).Φ (Fin.last _) = (dat4 (V5 m) c).Φ (Fin.last cfg4.N) from rfl]
    iintro H
    ihave H' := (Phi4_out (V5 m) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V5 m c) (V6 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg5.lean ====
/-
  Region 5 of the program as a segment of the run: the kernel region's record over the thread state
  "every unscoped buffer at the boundary's contents, the generator register at some state, nothing owed".
-/
import proofs.«177643_j32452772888869_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 5 over the thread state "every unscoped buffer at the boundary's contents, the generator register at some
    state, nothing owed": entered at `W6`, left at `W7`. Its arrays are split out of the unscoped buffers and put
    back at the exit contents; the generator register and the scoped buffers no window stages go into the proof data's
    invariant and come back out; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V6 m) c).loose
  hwaits := Pipeline.hwaits_of_owed_zero _ _ _ _ L lv 5 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec5 c (V6 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (V6 m) c).Φ 0 from rfl]
    iintro ⟨Hp, -, Hr⟩
    iapply (Phi5_in (V6 m) c)
    isplitl [Hp]; · iexact Hp
    iexact Hr
  hout c := by
    rw [Pipeline.ownSems0_none, show (pdats m 5 c).Φ (Fin.last _) = (dat5 (V6 m) c).Φ (Fin.last cfg5.N) from rfl]
    iintro H
    ihave H' := (Phi5_out (V6 m) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V6 m c) (V7 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg6.lean ====
/-
  Region 6 of the program as a segment of the run: the kernel region's record over the thread state
  "every unscoped buffer at the boundary's contents, the generator register at some state, nothing owed".
-/
import proofs.«177643_j32452772888869_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 6 over the thread state "every unscoped buffer at the boundary's contents, the generator register at some
    state, nothing owed": entered at `W7`, left at `W8`. Its arrays are split out of the unscoped buffers and put
    back at the exit contents; the generator register and the scoped buffers no window stages go into the proof data's
    invariant and come back out; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V7 m) c).loose
  hwaits := Pipeline.hwaits_of_owed_zero _ _ _ _ L lv 6 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec6 c (V7 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (V7 m) c).Φ 0 from rfl]
    iintro ⟨Hp, -, Hr⟩
    iapply (Phi6_in (V7 m) c)
    isplitl [Hp]; · iexact Hp
    iexact Hr
  hout c := by
    rw [Pipeline.ownSems0_none, show (pdats m 6 c).Φ (Fin.last _) = (dat6 (V7 m) c).Φ (Fin.last cfg6.N) from rfl]
    iintro H
    ihave H' := (Phi6_out (V7 m) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V7 m c) (V8 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg7.lean ====
/-
  Region 7 of the program as a segment of the run: the kernel region's record over the thread state
  "every unscoped buffer at the boundary's contents, the generator register at some state, nothing owed".
-/
import proofs.«177643_j32452772888869_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 7 over the thread state "every unscoped buffer at the boundary's contents, the generator register at some
    state, nothing owed": entered at `W8`, left at `W9`. Its arrays are split out of the unscoped buffers and put
    back at the exit contents; the generator register and the scoped buffers no window stages go into the proof data's
    invariant and come back out; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V8 m) c).loose
  hwaits := Pipeline.hwaits_of_owed_zero _ _ _ _ L lv 7 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec7 c (V8 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (V8 m) c).Φ 0 from rfl]
    iintro ⟨Hp, -, Hr⟩
    iapply (Phi7_in (V8 m) c)
    isplitl [Hp]; · iexact Hp
    iexact Hr
  hout c := by
    rw [Pipeline.ownSems0_none, show (pdats m 7 c).Φ (Fin.last _) = (dat7 (V8 m) c).Φ (Fin.last cfg7.N) from rfl]
    iintro H
    ihave H' := (Phi7_out (V8 m) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (V8 m c) (V9 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The whole program's run: the eight kernel regions and the one host stretch between the first two, as segments chained
  from the launch memory to the last boundary's contents `W9`. Every weakly fair execution terminates, nothing faults,
  and the final memory holds every unscoped buffer at `W9`: in particular the result array at what the last region's
  write-backs leave, and the argument array as launched (no item writes it).
-/
import proofs.«177643_j32452772888869_1_alg».proof.Proof.K.Reg0
import proofs.«177643_j32452772888869_1_alg».proof.Proof.K.Reg1
import proofs.«177643_j32452772888869_1_alg».proof.Proof.K.Reg2
import proofs.«177643_j32452772888869_1_alg».proof.Proof.K.Reg3
import proofs.«177643_j32452772888869_1_alg».proof.Proof.K.Reg4
import proofs.«177643_j32452772888869_1_alg».proof.Proof.K.Reg5
import proofs.«177643_j32452772888869_1_alg».proof.Proof.K.Reg6
import proofs.«177643_j32452772888869_1_alg».proof.Proof.K.Reg7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host stretch as a segment over the unscoped references, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The program's nine items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m), .region (reg2 m), .region (reg3 m), .region (reg4 m), .region (reg5 m), .region (reg6 m), .region (reg7 m) ]

/-- The program is the run of its items. -/
theorem main_run (c : Dev nD) : main (F := F) c = Pipeline.Seg.run (segs m) := (main_chain c).trans (by chain_rfl)

/-- The last thread state without the `owes`: every unscoped buffer at `W9`, the generator register at some state. -/
abbrev Tₙ (c : Dev nD) : sProp 𝕄 := iprop(StableHlo.held (c : Thread nD τ) (Pipeline.ucRefs τ sig) (W9 m c) ∗ ∃ r, prngReg c r)

-- the launch theorem's implicit arguments are found by unifying its conclusion with this one, which takes unfolding
-- plain definitions in a metavariable's type
set_option backward.isDefEq.respectTransparency.types false in
/-- From any memory with zero counters every weakly fair execution of the program terminates, nothing faulting, and the
    final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-! ## The argument array ends as launched -/

/-- No region writes the argument array and the host stretch does not either: the fold at its buffer walks back to the
    launch memory (region 0 reads it through an input window, which the pipeline leaves as it found it). -/
theorem W9_main_arg0 (c : Dev nD) : W9 m c (Proc.devRef .tc main_arg0) = m ((c : Thread nD τ).loc main_arg0) :=
  calc W9 m c (Proc.devRef .tc main_arg0)
    _ = W8 m c (Proc.devRef .tc main_arg0) := W9_of_ne m c main_arg0 (by decide)
    _ = W7 m c (Proc.devRef .tc main_arg0) := W8_of_ne m c main_arg0 (by decide)
    _ = W6 m c (Proc.devRef .tc main_arg0) := W7_of_ne m c main_arg0 (by decide)
    _ = W5 m c (Proc.devRef .tc main_arg0) := W6_of_ne m c main_arg0 (by decide)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.Forall, StableHlo.nullary_writes, StableHlo.unary_writes, Finset.mem_singleton]
          repeat' apply And.intro
          all_goals exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl

/-- THE RUN, read at the two buffers the claims speak of: the result array at the last boundary's contents, the argument
    array as launched. -/
theorem run_main : θ_run defs (onTc (τ := τ) (main (F := F))) ⟨m, fun _ => 0, ρ⟩ (fun r => ∀ c : Dev nD,
      r.2.mem ((c.tc : Thread nD τ).loc main_v8) = W9 m c (Proc.devRef .tc main_v8)
      ∧ r.2.mem ((c.tc : Thread nD τ).loc main_arg0) = m ((c.tc : Thread nD τ).loc main_arg0)) :=
  (θ_run defs _ _).mono (fun _ h c => ⟨h c _ (mem_uc main_v8 (by decide)), (h c _ (mem_uc main_arg0 (by decide))).trans (W9_main_arg0 m c)⟩)
    (run_all m ρ)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Hand

end
-- ==== Proof.KI.Region0.lean ====
import proofs.«177643_j32452772888869_1_alg».proof.Proof.Gen.KernelIdeal.Launch
import proofs.«177643_j32452772888869_1_alg».proof.Proof.Gen.KernelIdeal.Skeleton
import proofs.«177643_j32452772888869_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the exponential kernel `cc0__exp_kernel` (pipeline 0), at the entry contents `V`

At each of the 64 grid points the kernel reads one block of 512 rows of the logits (window 0, f32), takes the
exponential of every entry, rounds it to bf16 and writes the whole block of the result (window 1). No value is
carried from one point to the next, and each point's output block depends on that point's input block only. -/

/-! ## The windows' blocks -/

/-- Window `w`'s block at grid point `t`: the 512 × 3000 slice its index map selects there, read off the window's
    array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits window's current staging buffer holds the point's own block when the body starts, whatever it held
    before: the window is fetched at every point, its blocks tile the array (none is cut at the array's end) and it
    is never idle, and the body only reads it. Stated for ANY proof data whose array 0 is `V`'s (`hA`) and whose
    body leaves block 0 in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body touches, in either staging buffer: all of the 512 × 3000 block. -/
abbrev r0_0 : Rect S512x3000 := Rect.unit (s := S512x3000) ![0, 0] S512x3000.size inb_S512x3000_S512x3000_0_0

/-! ## What the body leaves in the output window's buffer -/

/-- The result window's staging buffer after the body, as a function of the logits block `x0`: a single store, of
    the payload `k0_pay1` (entrywise `exp`, then rounding f32 → bf16) of the whole block loaded from `x0`, over
    the whole block. -/
def out0_1 (x0 : Vec F S512x3000 .f32) : Vec F S512x3000 .bf16 :=
  View.canon [⟨r0_0, k0_pay1 (View.ld x0 r0_0)⟩]

/-- That single store's rectangle is the whole block, so every index of the buffer lies in it. -/
theorem cover0_1 (p0 : Vec F S512x3000 .bf16) (y : S512x3000.Idx) :
    ∃ pc ∈ ([⟨r0_0, p0⟩] : List (View.Piece (Elt F) S512x3000 .bf16)), y ∈ pc.1.set :=
  View.cover_of_tiled [⟨r0_0, p0⟩] S512x3000.size (by rfl) y

/-! ## The body's triple -/

set_option maxHeartbeats 1000000 in
/-- The kernel on whole staging memrefs — the logits' at contents `x0`, the result's at anything — runs to a
    continuation that holds the logits' buffer unchanged and the result's at `out0_1 x0`. The body is its skeleton:
    a load of the logits block, a load of the result buffer (whose value is not used), and the covering store. The
    grid coordinate `i` is not read. -/
theorem sound_kernel0 (c : Dev nD) (E : Set ℕ) (i : grid0.Coords) (arg1 : Memref sig .tc .vmem S512x3000 .f32) (harg1 : arg1.IsWhole)
    (arg2 : Memref sig .tc .vmem S512x3000 .bf16) (harg2 : arg2.IsWhole)
    (x0 : Vec F S512x3000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__exp_kernel i arg1 harg1 arg2 harg2) K := by
  simp only [cc0__exp_kernel_eq_skeleton]; unfold cc0__exp_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`. The arrays are as the region finds them (`V`). After the body at
    point `t` the logits' buffer still holds the point's block and the result's holds `out0_1` of that block.
    The invariant is the plain one (the scoped buffers that are no staging buffer of this call, at some contents,
    and the generator register at some state: the body touches neither), the same at every point. Nothing is owed
    between cores; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves in each window's buffer: the logits block untouched, -/
theorem after0_0 (c : Dev nD) (t : Fin cfg0.N) : (dat0 V c).after 0 t = iblk0 V c 0 t := by dsimp only [dat0]
/-- and the rounded exponentials of that block. -/
theorem after0_1 (c : Dev nD) (t : Fin cfg0.N) : (dat0 V c).after 1 t = out0_1 (iblk0 V c 0 t) := by dsimp only [dat0]

/-- The logits' current staging buffer holds the point's block at every point (`before0_0_of` at `dat0`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`: the invariant, the core's debts, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns: the same, each buffer now at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the logits' memref holds the point's block (`before0_0`) and the result's holds something,
    so `sound_kernel0` applies; the invariant and the debts are constant in the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the invariant and out of it -/

/-- The invariant at point 0 is the generator register and the scoped rest, in the other order. -/
theorem Phi0_in (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  rw [show (dat0 V c).Φ 0 = Pipeline.ΦA spec0 c from rfl]; unfold Pipeline.ΦA
  iintro ⟨Hp, Hr⟩
  isplitl [Hr]; · iexact Hr
  iexact Hp

/-- After the last point the invariant gives both back. -/
theorem Phi0_out (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  rw [show (dat0 V c).Φ (Fin.last _) = Pipeline.ΦA spec0 c from rfl]; unfold Pipeline.ΦA
  iintro ⟨Hr, Hp⟩
  isplitl [Hp]; · iexact Hp
  iexact Hr

end Cert.KernelIdeal.Hand

end
-- ==== Proof.KI.Region1Runs.lean ====
import proofs.«177643_j32452772888869_1_alg».proof.Proof.Gen.KernelIdeal.Launch
import proofs.«177643_j32452772888869_1_alg».proof.Proof.Gen.KernelIdeal.Skeleton
import proofs.«177643_j32452772888869_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the column-scaling kernel's body, case by case

The body adds the block's contribution `Σ_rows E·c` to an accumulator kept in a scratch buffer across the grid:
at the FIRST point it zeroes the accumulator first; at the LAST point it also writes `1 / (32768 · acc)` to the
output block. Three cases cover the 64 points: first (not last), middle, last (not first). -/

/-- The condition of the body's first `scf.if` (zero the accumulator), from the grid coordinate. -/
abbrev condA1 (i : grid1.Coords) : Prop :=
  (Scalar.cmpi .ne (Scalar.extui (Scalar.cmpi .eq (BitVec.ofNat 32 (i 0).val) 0#32)) 0#32) = 1#1

/-- The zero origin of a whole-block rectangle of rank 2, as the constant function. -/
theorem run1_hz : (![0, 0] : Fin 2 → Nat) = fun _ => 0 := funext fun a => by fin_cases a <;> rfl

/-- A store through the whole-block rectangle of the accumulator's shape, last in a list of stores, covers every
    index of the shape (what reading the stores back asks). -/
theorem run1_cover (w : S1x3000.Idx → Elt F .f32) (L : List (View.Piece (Elt F) S1x3000 .f32)) (y : S1x3000.Idx) :
    ∃ p ∈ (⟨Rect.unit (s := S1x3000) ![0, 0] S1x3000.size inb_S1x3000_S1x3000_0_0, w⟩ : View.Piece (Elt F) S1x3000 .f32) :: L,
      y ∈ p.1.set :=
  ⟨_, List.mem_cons_self .., View.mem_set_unit_zero (S := S1x3000) run1_hz inb_S1x3000_S1x3000_0_0 y⟩

set_option maxHeartbeats 1000000 in
/-- FIRST point: the accumulator is zeroed, then holds this block's contribution; the output block is not touched. -/
theorem run1_first (c : Dev nD) (E : Set ℕ) (i : grid1.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : condA1 i) (hL : ¬ k1_cond2 i = 1#1)
    (x0 : Vec F S512x3000 .bf16) (x1 : Vec F S512x1 .f32) (d3 : Vec F S1x3000 .f32) (K : PUnit → sProp 𝕄) :
    iprop(owns (c : Thread nD τ) arg1 fullShare x0 ∗ owns (c : Thread nD τ) arg2 fullShare x1 ∗ owns (c : Thread nD τ) arg3 fullShare d3
        ∗ (∃ s, owns (c : Thread nD τ) arg4 fullShare s)
        ∗ (iprop(owns (c : Thread nD τ) arg1 fullShare x0 ∗ owns (c : Thread nD τ) arg2 fullShare x1 ∗ owns (c : Thread nD τ) arg3 fullShare d3
            ∗ owns (c : Thread nD τ) arg4 fullShare (k1_pay2 x0 x1 (k1_pay1 (F := F)))) -∗ K ⟨⟩))
      ⊢ wp frame (wpE (defs₀ (F := F)) Variants.none c none) E (cc1__reduce_r_kernel i arg1 harg1 arg2 harg2 arg3 harg3 arg4 harg4) K := by
  simp only [cc1__reduce_r_kernel_eq_skeleton]; unfold cc1__reduce_r_kernel_skel
  unfold owns
  iintro ⟨⟨%f1, %hf1, H1⟩, ⟨%f2, %hf2, H2⟩, ⟨%f3, %hf3, H3⟩, ⟨%s4, %f4, -, H4⟩, Hk⟩
  obtain rfl := harg1.eq_unread hf1; obtain rfl := harg2.eq_unread hf2; obtain rfl := harg3.eq_unread hf3
  -- the first branch is taken (the accumulator is zeroed), the second is not
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  -- the accumulator: two whole-block stores, the later (the update) covering; it read back the earlier (the zero block)
  iexists _; isplitr; swap; · iexact H4
  ipureintro
  sl_unfold_words
  rw [View.read_writes_eq_canon _ _ _ (run1_cover _ _)]
  rw [View.canon_cons_unit_zero (S := S1x3000) run1_hz, View.readCov_unit_zero (S := S1x3000) _ run1_hz]
  simp only [View.readAt_eq_ld, harg1.read_unread, harg2.read_unread,
    View.ld_unit_zero (S := S512x3000) run1_hz, View.ld_unit_zero (S := S512x1) run1_hz]

set_option maxHeartbeats 1000000 in
/-- A MIDDLE point: the accumulator gains this block's contribution; the output block is not touched. -/
theorem run1_mid (c : Dev nD) (E : Set ℕ) (i : grid1.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : ¬ condA1 i) (hL : ¬ k1_cond2 i = 1#1)
    (x0 : Vec F S512x3000 .bf16) (x1 : Vec F S512x1 .f32) (d3 : Vec F S1x3000 .f32) (a : Vec F S1x3000 .f32) (K : PUnit → sProp 𝕄) :
    iprop(owns (c : Thread nD τ) arg1 fullShare x0 ∗ owns (c : Thread nD τ) arg2 fullShare x1 ∗ owns (c : Thread nD τ) arg3 fullShare d3
        ∗ owns (c : Thread nD τ) arg4 fullShare a
        ∗ (iprop(owns (c : Thread nD τ) arg1 fullShare x0 ∗ owns (c : Thread nD τ) arg2 fullShare x1 ∗ owns (c : Thread nD τ) arg3 fullShare d3
            ∗ owns (c : Thread nD τ) arg4 fullShare (k1_pay2 x0 x1 a)) -∗ K ⟨⟩))
      ⊢ wp frame (wpE (defs₀ (F := F)) Variants.none c none) E (cc1__reduce_r_kernel i arg1 harg1 arg2 harg2 arg3 harg3 arg4 harg4) K := by
  simp only [cc1__reduce_r_kernel_eq_skeleton]; unfold cc1__reduce_r_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  -- neither branch is taken
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  -- the accumulator: one whole-block store, whose payload's loads each read a whole block's contents
  iexists _; isplitr; swap; · iexact H4
  ipureintro
  rw [View.read_writes_eq_canon _ _ _ (run1_cover _ _)]
  rw [View.canon_unit_zero run1_hz]
  simp only [View.readAt_eq_ld, harg1.read_unread, harg2.read_unread, harg4.read_unread,
    View.ld_unit_zero (S := S512x3000) run1_hz, View.ld_unit_zero (S := S512x1) run1_hz, View.ld_unit_zero (S := S1x3000) run1_hz]

set_option maxHeartbeats 1000000 in
/-- The LAST point: the accumulator gains this block's contribution, and the output block is written from it. -/
theorem run1_last (c : Dev nD) (E : Set ℕ) (i : grid1.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : ¬ condA1 i) (hL : k1_cond2 i = 1#1)
    (x0 : Vec F S512x3000 .bf16) (x1 : Vec F S512x1 .f32) (a : Vec F S1x3000 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare a
        ∗ (iprop(owns (c : Thread nD τ) arg1 fullShare x0 ∗ owns (c : Thread nD τ) arg2 fullShare x1
            ∗ owns (c : Thread nD τ) arg3 fullShare (k1_pay3 (k1_pay2 x0 x1 a))
            ∗ owns (c : Thread nD τ) arg4 fullShare (k1_pay2 x0 x1 a)) -∗ K ⟨⟩))
      ⊢ wp frame (wpE (defs₀ (F := F)) Variants.none c none) E (cc1__reduce_r_kernel i arg1 harg1 arg2 harg2 arg3 harg3 arg4 harg4) K := by
  simp only [cc1__reduce_r_kernel_eq_skeleton]; unfold cc1__reduce_r_kernel_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  -- the first branch is not taken, the second is (the output block is written)
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  -- the output block: one whole-block store of the reciprocal payload at the accumulator read back after its update
  · iexists _; isplitr; swap; · iexact H3
    ipureintro
    sl_unfold_words
    rw [View.read_writes_eq_canon _ _ _ (run1_cover _ _)]
    rw [View.canon_unit_zero run1_hz, View.readCov_unit_zero (S := S1x3000) _ run1_hz]
    simp only [View.readAt_eq_ld, harg1.read_unread, harg2.read_unread, harg4.read_unread,
      View.ld_unit_zero (S := S512x3000) run1_hz, View.ld_unit_zero (S := S512x1) run1_hz, View.ld_unit_zero (S := S1x3000) run1_hz]
  -- the accumulator: one whole-block store, whose payload's loads each read a whole block's contents
  iexists _; isplitr; swap; · iexact H4
  ipureintro
  sl_unfold_words
  rw [View.read_writes_eq_canon _ _ _ (run1_cover _ _)]
  rw [View.canon_unit_zero run1_hz]
  simp only [View.readAt_eq_ld, harg1.read_unread, harg2.read_unread, harg4.read_unread,
    View.ld_unit_zero (S := S512x3000) run1_hz, View.ld_unit_zero (S := S512x1) run1_hz, View.ld_unit_zero (S := S1x3000) run1_hz]

end Cert.KernelIdeal.Hand

end
-- ==== Proof.KI.Region1.lean ====
import proofs.«177643_j32452772888869_1_alg».proof.Proof.Gen.KernelIdeal.Launch
import proofs.«177643_j32452772888869_1_alg».proof.Proof.Gen.KernelIdeal.Skeleton
import proofs.«177643_j32452772888869_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«177643_j32452772888869_1_alg».proof.Proof.KI.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the column-scaling kernel `cc1__reduce_r_kernel` (pipeline 1), at the entry contents `V`

The grid has 64 points, one per block of 512 rows. At each point the kernel reads a block of the matrix `E`
(window 0, 512 × 3000, bf16) and the matching block of the row scaling `c` (window 1, 512 × 1, f32), and adds the
block's column sums `Σ_rows E·c` to an accumulator of 3000 columns that lives in a scratch buffer and is carried
from point to point: zeroed at the first point, read and rewritten at every point. Only at the last point does
it store the output block (window 2, 1 × 3000, f32): `1 / (32768 · accumulator)`. At every other point the output
window's buffer is left as found. -/

/-! ## The windows' blocks -/

/-- Window `w`'s block at grid point `t`: the slice its index map selects there, read off the window's array as
    the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The matrix window's current staging buffer holds the point's own block when the body starts, whatever it held
    before: the window is fetched at every point, its blocks tile the array and it is never idle, and the body
    only reads it. Stated for ANY proof data whose array 0 is `V`'s (`hA`) and whose body leaves block 0 in place
    (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the row-scaling window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Which points are first and last -/

/-- The body zeroes the accumulator exactly at the grid's first point — decided over the grid. -/
theorem hcondA1 : ∀ t : Fin cfg1.N, condA1 (grid1.coords t) ↔ t.val = 0 :=
  (by decide +kernel : ∀ t : Fin grid1.N, condA1 (grid1.coords t) ↔ t.val = 0)

/-- The body stores the output block exactly at the grid's last point — decided over the grid. -/
theorem hcondL1 : ∀ t : Fin cfg1.N, k1_cond2 (grid1.coords t) = 1#1 ↔ t.val = 63 :=
  (by decide +kernel : ∀ t : Fin grid1.N, k1_cond2 (grid1.coords t) = 1#1 ↔ t.val = 63)

/-! ## The accumulator, point by point -/

/-- THE ACCUMULATION. What the scratch buffer holds after the body at position `n`: at the first point the
    block's contribution added to the zero vector; at each later point the block's contribution added to what
    the point before left. -/
def acc1 (c : Dev nD) : (n : ℕ) → n < cfg1.N → Vec F S1x3000 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (acc1 c n (Nat.lt_of_succ_lt h))

theorem acc1_zero (c : Dev nD) (h : 0 < cfg1.N) :
    acc1 V c 0 h = k1_pay2 (iblk1 V c 0 ⟨0, h⟩) (iblk1 V c 1 ⟨0, h⟩) (k1_pay1 (F := F)) := rfl

theorem acc1_succ (c : Dev nD) (n : ℕ) (h : n + 1 < cfg1.N) :
    acc1 V c (n + 1) h = k1_pay2 (iblk1 V c 0 ⟨n + 1, h⟩) (iblk1 V c 1 ⟨n + 1, h⟩) (acc1 V c n (Nat.lt_of_succ_lt h)) := rfl

/-- The accumulator after the first point, stated at a point known to be the first. -/
theorem acc1_first (c : Dev nD) (t : Fin cfg1.N) (h0 : t.val = 0) :
    acc1 V c t.val t.isLt = k1_pay2 (iblk1 V c 0 t) (iblk1 V c 1 t) (k1_pay1 (F := F)) := by
  obtain ⟨n, hn⟩ := t
  cases n with
  | zero => exact rfl
  | succ n => exact absurd h0 (Nat.succ_ne_zero n)

/-- The accumulator after a later point: this block's contribution over what the point before left. -/
theorem acc1_later (c : Dev nD) (t : Fin cfg1.N) (h0 : t.val ≠ 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd rfl h0
  | succ n => exact rfl

/-! ## The invariant between points -/

/-- The scratch buffer, as a whole-buffer memref (what the pipeline passes the body as its last operand). -/
abbrev scratch1 : Memref sig .tc .vmem S1x3000 .f32 := Memref.whole cc1_scratch0

/-- The accumulator's part of the invariant at position `n` (before point `n`): before the first point the
    scratch buffer is held at SOME contents (the body overwrites them); before point `n + 1` it holds what
    point `n` left, `acc1 … n`. -/
def scr1 (c : Dev nD) : (n : ℕ) → n < cfg1.N + 1 → sProp 𝕄
  | 0, _ => iprop(∃ s : Vec F S1x3000 .f32, owns (c : Thread nD τ) scratch1 fullShare s)
  | n + 1, h => owns (c : Thread nD τ) scratch1 fullShare (acc1 V c n (Nat.lt_of_succ_lt_succ h))

/-- The invariant before point `t`: the accumulator's part, every other scoped buffer that is no staging buffer of
    this call at some contents, and the generator register at some state. The body touches neither of the last
    two. -/
def Phi1 (c : Dev nD) (t : Fin (cfg1.N + 1)) : sProp 𝕄 :=
  iprop(scr1 V c t.val t.isLt
    ∗ Pipeline.scopedRestBut (Ix := Unit) (Name := ℕ) (U := UR sig nD τ) (Lvl := ℕ) (Val := Elt F) spec1 c [cc1_scratch0]
    ∗ ∃ r, prngReg c r)

/-- Whatever the position, the accumulator's part holds the scratch buffer's points-to at some contents. -/
theorem scr1_forget (c : Dev nD) (n : ℕ) (h : n < cfg1.N + 1) :
    scr1 V c n h ⊢ (iprop(∃ f : Buf (Elt F) ((c : Thread nD τ).loc cc1_scratch0), ((c : Thread nD τ).loc cc1_scratch0) ↦{fullShare} f) : sProp 𝕄) := by
  cases n with
  | zero =>
    show iprop(∃ s : Vec F S1x3000 .f32, owns (c : Thread nD τ) (Memref.whole cc1_scratch0) fullShare s) ⊢ _
    simp only [owns_whole]
    iintro ⟨%s, Hs⟩
    iexists s; iexact Hs
  | succ n =>
    show owns (c : Thread nD τ) (Memref.whole cc1_scratch0) fullShare (acc1 V c n (Nat.lt_of_succ_lt_succ h)) ⊢ _
    rw [owns_whole]
    iintro Hs
    iexists _; iexact Hs

/-! ## The pipeline's proof data -/

/-- The proof data of pipeline 1 on core `c`. The arrays are as the region finds them (`V`). After the body at
    point `t` the two input windows' buffers still hold the point's blocks; the output window's holds, at the last
    point, the reciprocal `k1_pay3` of the accumulator there (at the other points, idle for that window, the entry
    is not consulted). The invariant carries the accumulator. Nothing is owed between cores; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves in each window's buffer: the matrix block untouched, -/
theorem after1_0 (c : Dev nD) (t : Fin cfg1.N) : (dat1 V c).after 0 t = iblk1 V c 0 t := by dsimp only [dat1]
/-- the row-scaling block untouched, -/
theorem after1_1 (c : Dev nD) (t : Fin cfg1.N) : (dat1 V c).after 1 t = iblk1 V c 1 t := by dsimp only [dat1]
/-- and (where the output is stored) the reciprocal of the accumulator. -/
theorem after1_2 (c : Dev nD) (t : Fin cfg1.N) : (dat1 V c).after 2 t = k1_pay3 (acc1 V c t.val t.isLt) := by dsimp only [dat1]

/-- Each input's current staging buffer holds the point's block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant after point `t`: the accumulator at `acc1 … t`. -/
theorem Phi1_succ (c : Dev nD) (t : Fin cfg1.N) :
    (dat1 V c).Φ t.succ = iprop(owns (c : Thread nD τ) scratch1 fullShare (acc1 V c t.val t.isLt)
      ∗ Pipeline.scopedRestBut (Ix := Unit) (Name := ℕ) (U := UR sig nD τ) (Lvl := ℕ) (Val := Elt F) spec1 c [cc1_scratch0]
      ∗ ∃ r, prngReg c r) := rfl

/-- The invariant before the first point: the scratch buffer at some contents. -/
theorem Phi1_first (c : Dev nD) (t : Fin cfg1.N) (h0 : t.val = 0) :
    (dat1 V c).Φ t.castSucc = iprop((∃ s : Vec F S1x3000 .f32, owns (c : Thread nD τ) scratch1 fullShare s)
      ∗ Pipeline.scopedRestBut (Ix := Unit) (Name := ℕ) (U := UR sig nD τ) (Lvl := ℕ) (Val := Elt F) spec1 c [cc1_scratch0]
      ∗ ∃ r, prngReg c r) := by
  obtain ⟨n, hn⟩ := t
  cases n with
  | zero => exact rfl
  | succ n => exact absurd h0 (Nat.succ_ne_zero n)

/-- The invariant before a later point: the accumulator at what the point before left. -/
theorem Phi1_later (c : Dev nD) (t : Fin cfg1.N) (h0 : t.val ≠ 0) :
    (dat1 V c).Φ t.castSucc = iprop(owns (c : Thread nD τ) scratch1 fullShare (acc1 V c (t.val - 1) (Nat.lt_of_le_of_lt (Nat.sub_le _ _) t.isLt))
      ∗ Pipeline.scopedRestBut (Ix := Unit) (Name := ℕ) (U := UR sig nD τ) (Lvl := ℕ) (Val := Elt F) spec1 c [cc1_scratch0]
      ∗ ∃ r, prngReg c r) := by
  obtain ⟨n, hn⟩ := t
  cases n with
  | zero => exact absurd rfl h0
  | succ n => exact rfl

/-! ## The output window: idle but at the last point -/

/-- At a point that is not the last the output window is idle and its block is not written back, so the body
    hands its buffer back at what it found there; -/
theorem leaves1_idle (c : Dev nD) (t : Fin cfg1.N) (hl : t.val ≠ 63) :
    (dat1 V c).leavesExact 2 t = iprop(∃ d, owns (c : Thread nD τ) (st1_2 t) fullShare ((dat1 V c).before 2 t d)) := by
  have hL : ¬ k1_cond2 (grid1.coords t) = 1#1 := fun h => hl ((hcondL1 t).mp h)
  have hN : t.val < 64 := lt_of_lt_of_eq t.isLt (show cfg1.N = 64 from N_1)
  refine Dat.leavesExact_idle _ 2 t ?_ ?_
  · show (!(k1_cond2 (grid1.coords t) == 1#1)) = true
    simp only [beq_iff_eq, hL, Bool.not_eq_true', decide_eq_false_iff_not, not_false_eq_true, Bool.not_eq_eq_eq_not, Bool.not_true, beq_eq_false_iff_ne, ne_eq]
  · exact Bool.eq_false_iff.mpr fun h => by have := (flush1_2 t).mp h; omega

/-- at the last point it is live: the body leaves the reciprocal of the accumulator there. -/
theorem leaves1_last (c : Dev nD) (t : Fin cfg1.N) (hl : t.val = 63) :
    (dat1 V c).leavesExact 2 t = owns (c : Thread nD τ) (st1_2 t) fullShare (k1_pay3 (acc1 V c t.val t.isLt)) := by
  have hL : k1_cond2 (grid1.coords t) = 1#1 := (hcondL1 t).mpr hl
  have hi : cfg1.idle 2 (cfg1.grid.coords t) = false := by
    show (!(k1_cond2 (grid1.coords t) == 1#1)) = false
    rw [hL]; rfl
  unfold Dat.leavesExact; rw [hi, after1_2]

/-! ## The body obligation, at a generic point -/

/-- What the body is called with at point `t`: the invariant, the core's debts, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the invariant at the next position, the debts, the inputs' buffers at their blocks and
    the output's buffer at what the body leaves there (as found, or at the last point the stored reciprocal). -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (dat1 V c).leavesExact 2 t)

set_option maxHeartbeats 1000000 in
/-- The body at any point. The inputs' memrefs hold their blocks (`before1_0`, `before1_1`). Three cases on the
    point's position: at the first the scratch buffer holds anything and ends at the block's contribution over
    zero; at a middle point it holds what the point before left and gains the block's contribution; at the last
    likewise, and the output's buffer receives the reciprocal of the new accumulator. In each the new scratch
    contents are `acc1` at the point by its recursion equation. The rest of the invariant and the debts pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    after1_0, after1_1, Phi1_succ]
  have hN : t.val < 64 := lt_of_lt_of_eq t.isLt (show cfg1.N = 64 from N_1)
  by_cases h0 : t.val = 0
  · -- the first point
    have hl : t.val ≠ 63 := by omega
    rw [Phi1_first V c t h0, leaves1_idle V c t hl, acc1_first V c t h0]
    iintro ⟨⟨Hs, Hr, Hp⟩, Ho, ⟨%dx, Hx⟩, ⟨%dy, Hy⟩, ⟨%dz, Hz⟩⟩
    iapply (run1_first c Set.univ (grid1.coords t) _ _ _ _ _ _ _ _ ((hcondA1 t).mpr h0) (fun h => hl ((hcondL1 t).mp h))
      (iblk1 V c 0 t) (iblk1 V c 1 t) ((dat1 V c).before 2 t dz) _)
    isplitl [Hx]; · iexact Hx
    isplitl [Hy]; · iexact Hy
    isplitl [Hz]; · iexact Hz
    isplitl [Hs]; · iexact Hs
    iintro ⟨Hx, Hy, Hz, Hs⟩
    isplitl [Hs Hr Hp]
    · isplitl [Hs]; · iexact Hs
      isplitl [Hr]; · iexact Hr
      iexact Hp
    isplitl [Ho]; · iexact Ho
    isplitl [Hx]; · iexact Hx
    isplitl [Hy]; · iexact Hy
    iexists dz; iexact Hz
  · by_cases hl : t.val = 63
    · -- the last point
      rw [Phi1_later V c t h0, leaves1_last V c t hl, acc1_later V c t h0]
      iintro ⟨⟨Hs, Hr, Hp⟩, Ho, ⟨%dx, Hx⟩, ⟨%dy, Hy⟩, ⟨%dz, Hz⟩⟩
      iapply (run1_last c Set.univ (grid1.coords t) _ _ _ _ _ _ _ _ (fun h => h0 ((hcondA1 t).mp h)) ((hcondL1 t).mpr hl)
        (iblk1 V c 0 t) (iblk1 V c 1 t) _ _)
      isplitl [Hx]; · iexact Hx
      isplitl [Hy]; · iexact Hy
      isplitl [Hz]; · iexists _; iexact Hz
      isplitl [Hs]; · iexact Hs
      iintro ⟨Hx, Hy, Hz, Hs⟩
      isplitl [Hs Hr Hp]
      · isplitl [Hs]; · iexact Hs
        isplitl [Hr]; · iexact Hr
        iexact Hp
      isplitl [Ho]; · iexact Ho
      isplitl [Hx]; · iexact Hx
      isplitl [Hy]; · iexact Hy
      iexact Hz
    · -- a middle point
      rw [Phi1_later V c t h0, leaves1_idle V c t hl, acc1_later V c t h0]
      iintro ⟨⟨Hs, Hr, Hp⟩, Ho, ⟨%dx, Hx⟩, ⟨%dy, Hy⟩, ⟨%dz, Hz⟩⟩
      iapply (run1_mid c Set.univ (grid1.coords t) _ _ _ _ _ _ _ _ (fun h => h0 ((hcondA1 t).mp h)) (fun h => hl ((hcondL1 t).mp h))
        (iblk1 V c 0 t) (iblk1 V c 1 t) ((dat1 V c).before 2 t dz) _ _)
      isplitl [Hx]; · iexact Hx
      isplitl [Hy]; · iexact Hy
      isplitl [Hz]; · iexact Hz
      isplitl [Hs]; · iexact Hs
      iintro ⟨Hx, Hy, Hz, Hs⟩
      isplitl [Hs Hr Hp]
      · isplitl [Hs]; · iexact Hs
        isplitl [Hr]; · iexact Hr
        iexact Hp
      isplitl [Ho]; · iexact Ho
      isplitl [Hx]; · iexact Hx
      isplitl [Hy]; · iexact Hy
      iexists dz; iexact Hz

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- The invariant at position 0 from the generator register and the scoped rest: the scratch buffer is split out
    of the rest, at the contents it happens to hold. -/
theorem Phi1_in (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [scopedRest1_split, show (dat1 V c).Φ 0 = iprop((∃ s : Vec F S1x3000 .f32, owns (c : Thread nD τ) scratch1 fullShare s)
      ∗ Pipeline.scopedRestBut (Ix := Unit) (Name := ℕ) (U := UR sig nD τ) (Lvl := ℕ) (Val := Elt F) spec1 c [cc1_scratch0]
      ∗ ∃ r, prngReg c r) from rfl]
  iintro ⟨Hp, ⟨%f, Hs⟩, Hr⟩
  isplitl [Hs]
  · iexists f; unfold scratch1; rw [owns_whole]; iexact Hs
  isplitl [Hr]; · iexact Hr
  iexact Hp

/-- After the last point the invariant gives both back: the scratch buffer, its contents forgotten, rejoins the
    scoped rest. -/
theorem Phi1_out (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [scopedRest1_split, show (dat1 V c).Φ (Fin.last cfg1.N) = Phi1 V c (Fin.last cfg1.N) from rfl]
  unfold Phi1
  iintro ⟨Hs, Hr, Hp⟩
  isplitl [Hp]; · iexact Hp
  isplitl [Hs]; · iapply (scr1_forget V c _ _); iexact Hs
  iexact Hr

end Cert.KernelIdeal.Hand

end
-- ==== Proof.KI.Region2.lean ====
import proofs.«177643_j32452772888869_1_alg».proof.Proof.Gen.KernelIdeal.Launch
import proofs.«177643_j32452772888869_1_alg».proof.Proof.Gen.KernelIdeal.Skeleton
import proofs.«177643_j32452772888869_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The column-scaling update `cc2__update_c_kernel` (pipeline 2), at the entry contents `V`

Per block of 512 rows the body reads the block of the exponentiated matrix and the whole row vector of column
scalings, and overwrites the block of 512 row scalings with the reciprocal of 3000 times the row sums of their
product. Nothing is carried from one grid point to the next. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The matrix window (input 0, fetched at every point): its current staging buffer holds its block at every point,
    for ANY proof data whose array is `V`'s (`hA`) and whose body leaves the block in place (`hafter`). The window
    is uncut and never idle, so what a fetch would put there is the block itself. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The column-scaling window (input 1, block index constant, so fetched at the first point only): its staging
    buffer holds its block at every point all the same. Where it is not fetched the block index has not moved, and
    the body left the buffer as it found it, so it still holds the first point's block, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x3000 := Rect.unit (s := S512x3000) ![0, 0] S512x3000.size inb_S512x3000_S512x3000_0_0
abbrev r2_1 : Rect S1x3000 := Rect.unit (s := S1x3000) ![0, 0] S1x3000.size inb_S1x3000_S1x3000_0_0
abbrev r2_2 : Rect S512x1 := Rect.unit (s := S512x1) ![0, 0] S512x1.size inb_S512x1_S512x1_0_0

/-! ## What the body leaves in the output window's buffer -/

/-- The row-scaling block's staging buffer after the body, from the two input blocks: its one store, of the whole
    buffer, of the payload at the two whole-block loads. -/
def out2_2 (x0 : Vec F S512x3000 .bf16) (x1 : Vec F S1x3000 .f32) : Vec F S512x1 .f32 :=
  View.canon [⟨r2_2, k2_pay1 (View.ld x0 r2_0) (View.ld x1 r2_1)⟩]

/-- The one store is of the whole buffer (checked by evaluation), so it covers it. -/
theorem cover2_2 (p0 : Vec F S512x1 .f32) (y : S512x1.Idx) :
    ∃ pc ∈ ([⟨r2_2, p0⟩] : List (View.Piece (Elt F) S512x1 .f32)), y ∈ pc.1.set :=
  View.cover_of_tiled [⟨r2_2, p0⟩] S512x1.size (by rfl) y

/-! ## The body's triple -/

set_option maxHeartbeats 1000000 in
/-- The kernel body on whole staging memrefs, the two inputs' at read contents `x0`, `x1` and the output's at anything,
    runs to the continuation holding the inputs' as they were and the output's at `out2_2` of the inputs': the printed
    function is its skeleton of three loads and one store, run operation by operation; the grid coordinate is not read. -/
theorem sound_kernel2 (c : Dev nD) (E : Set ℕ) (i : grid2.Coords) (argE : Memref sig .tc .vmem S512x3000 .bf16) (hargE : argE.IsWhole)
    (argR : Memref sig .tc .vmem S1x3000 .f32) (hargR : argR.IsWhole) (argC : Memref sig .tc .vmem S512x1 .f32) (hargC : argC.IsWhole)
    (x0 : Vec F S512x3000 .bf16) (x1 : Vec F S1x3000 .f32) (K : PUnit → sProp 𝕄) :
    iprop(owns (c : Thread nD τ) argE fullShare x0 ∗ owns (c : Thread nD τ) argR fullShare x1 ∗ (∃ d, owns (c : Thread nD τ) argC fullShare d)
        ∗ (iprop(owns (c : Thread nD τ) argE fullShare x0 ∗ owns (c : Thread nD τ) argR fullShare x1
            ∗ owns (c : Thread nD τ) argC fullShare (out2_2 x0 x1)) -∗ K ⟨⟩))
      ⊢ wp frame (wpE (defs₀ (F := F)) Variants.none c none) E (cc2__update_c_kernel i argE hargE argR hargR argC hargC) K := by
  simp only [cc2__update_c_kernel_eq_skeleton]; unfold cc2__update_c_kernel_skel
  unfold owns
  iintro ⟨⟨%fE, %hfE, HE⟩, ⟨%fR, %hfR, HR⟩, ⟨%dC, %fC, -, HC⟩, Hk⟩
  subst hfE
  subst hfR
  sl_exec
  sl_step
  iapply Hk
  isplitl [HE]
  · iexists fE; isplitr; · ipureintro; rfl
    iexact HE
  isplitl [HR]
  · iexists fR; isplitr; · ipureintro; rfl
    iexact HR
  iexists _; isplitr
  swap; · iexact HC
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2` applies;
    the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%dE, HE⟩, ⟨%dR, HR⟩, ⟨%dC, HC⟩⟩
  iapply (sound_kernel2 c Set.univ _ _ _ _ _ _ _ (iblk2 V c 0 t) (iblk2 V c 1 t) _)
  isplitl [HE]; · iexact HE
  isplitl [HR]; · iexact HR
  isplitl [HC]; · iexists _; iexact HC
  iintro ⟨HE, HR, HC⟩
  isplitl [HΦ]; · iexact HΦ
  isplitl [Ho]; · iexact Ho
  isplitl [HE]; · iexact HE
  isplitl [HR]; · iexact HR
  iexact HC

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- Entering: the generator register and the scoped rest make up the invariant at the first point. -/
theorem Phi2_in (c : Dev nD) :
    iprop((∃ r, prngReg c r) ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Pipeline.ΦA spec2 c from rfl]; unfold Pipeline.ΦA
  iintro ⟨Hp, Hr⟩
  isplitl [Hr]; · iexact Hr
  iexact Hp

/-- Leaving: the invariant at the last point gives both back. -/
theorem Phi2_out (c : Dev nD) :
    ((dat2 V c).Φ (Fin.last cfg2.N) : sProp 𝕄)
      ⊢ iprop((∃ r, prngReg c r) ∗ Pipeline.scopedRest (Ix := Unit) (Name := ℕ) (U := UR sig nD τ) (Lvl := ℕ) (Val := Elt F) spec2 c) := by
  rw [show (dat2 V c).Φ (Fin.last _) = Pipeline.ΦA spec2 c from rfl]; unfold Pipeline.ΦA
  iintro ⟨Hr, Hp⟩
  isplitl [Hp]; · iexact Hp
  iexact Hr

end Cert.KernelIdeal.Hand

end
-- ==== Proof.KI.Region3Runs.lean ====
import proofs.«177643_j32452772888869_1_alg».proof.Proof.Gen.KernelIdeal.Launch
import proofs.«177643_j32452772888869_1_alg».proof.Proof.Gen.KernelIdeal.Skeleton
import proofs.«177643_j32452772888869_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the column-scaling kernel's body, case by case

The body adds the block's contribution `Σ_rows E·c` to an accumulator kept in a scratch buffer across the grid:
at the FIRST point it zeroes the accumulator first; at the LAST point it also writes `1 / (32768 · acc)` to the
output block. Three cases cover the 64 points: first (not last), middle, last (not first). -/

/-- The condition of the body's first `scf.if` (zero the accumulator), from the grid coordinate. -/
abbrev condA3 (i : grid3.Coords) : Prop :=
  (Scalar.cmpi .ne (Scalar.extui (Scalar.cmpi .eq (BitVec.ofNat 32 (i 0).val) 0#32)) 0#32) = 1#1

/-- The zero origin of a whole-block rectangle of rank 2, as the constant function. -/
theorem run3_hz : (![0, 0] : Fin 2 → Nat) = fun _ => 0 := funext fun a => by fin_cases a <;> rfl

/-- A store through the whole-block rectangle of the accumulator's shape, last in a list of stores, covers every
    index of the shape (what reading the stores back asks). -/
theorem run3_cover (w : S1x3000.Idx → Elt F .f32) (L : List (View.Piece (Elt F) S1x3000 .f32)) (y : S1x3000.Idx) :
    ∃ p ∈ (⟨Rect.unit (s := S1x3000) ![0, 0] S1x3000.size inb_S1x3000_S1x3000_0_0, w⟩ : View.Piece (Elt F) S1x3000 .f32) :: L,
      y ∈ p.1.set :=
  ⟨_, List.mem_cons_self .., View.mem_set_unit_zero (S := S1x3000) run3_hz inb_S1x3000_S1x3000_0_0 y⟩

set_option maxHeartbeats 1000000 in
/-- FIRST point: the accumulator is zeroed, then holds this block's contribution; the output block is not touched. -/
theorem run3_first (c : Dev nD) (E : Set ℕ) (i : grid3.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : condA3 i) (hL : ¬ k3_cond2 i = 1#1)
    (x0 : Vec F S512x3000 .bf16) (x1 : Vec F S512x1 .f32) (d3 : Vec F S1x3000 .f32) (K : PUnit → sProp 𝕄) :
    iprop(owns (c : Thread nD τ) arg1 fullShare x0 ∗ owns (c : Thread nD τ) arg2 fullShare x1 ∗ owns (c : Thread nD τ) arg3 fullShare d3
        ∗ (∃ s, owns (c : Thread nD τ) arg4 fullShare s)
        ∗ (iprop(owns (c : Thread nD τ) arg1 fullShare x0 ∗ owns (c : Thread nD τ) arg2 fullShare x1 ∗ owns (c : Thread nD τ) arg3 fullShare d3
            ∗ owns (c : Thread nD τ) arg4 fullShare (k3_pay2 x0 x1 (k3_pay1 (F := F)))) -∗ K ⟨⟩))
      ⊢ wp frame (wpE (defs₀ (F := F)) Variants.none c none) E (cc3__reduce_r_kernel i arg1 harg1 arg2 harg2 arg3 harg3 arg4 harg4) K := by
  simp only [cc3__reduce_r_kernel_eq_skeleton]; unfold cc3__reduce_r_kernel_skel
  unfold owns
  iintro ⟨⟨%f1, %hf1, H1⟩, ⟨%f2, %hf2, H2⟩, ⟨%f3, %hf3, H3⟩, ⟨%s4, %f4, -, H4⟩, Hk⟩
  obtain rfl := harg1.eq_unread hf1; obtain rfl := harg2.eq_unread hf2; obtain rfl := harg3.eq_unread hf3
  -- the first branch is taken (the accumulator is zeroed), the second is not
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  -- the accumulator: two whole-block stores, the later (the update) covering; it read back the earlier (the zero block)
  iexists _; isplitr; swap; · iexact H4
  ipureintro
  sl_unfold_words
  rw [View.read_writes_eq_canon _ _ _ (run3_cover _ _)]
  rw [View.canon_cons_unit_zero (S := S1x3000) run3_hz, View.readCov_unit_zero (S := S1x3000) _ run3_hz]
  simp only [View.readAt_eq_ld, harg1.read_unread, harg2.read_unread,
    View.ld_unit_zero (S := S512x3000) run3_hz, View.ld_unit_zero (S := S512x1) run3_hz]

set_option maxHeartbeats 1000000 in
/-- A MIDDLE point: the accumulator gains this block's contribution; the output block is not touched. -/
theorem run3_mid (c : Dev nD) (E : Set ℕ) (i : grid3.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : ¬ condA3 i) (hL : ¬ k3_cond2 i = 1#1)
    (x0 : Vec F S512x3000 .bf16) (x1 : Vec F S512x1 .f32) (d3 : Vec F S1x3000 .f32) (a : Vec F S1x3000 .f32) (K : PUnit → sProp 𝕄) :
    iprop(owns (c : Thread nD τ) arg1 fullShare x0 ∗ owns (c : Thread nD τ) arg2 fullShare x1 ∗ owns (c : Thread nD τ) arg3 fullShare d3
        ∗ owns (c : Thread nD τ) arg4 fullShare a
        ∗ (iprop(owns (c : Thread nD τ) arg1 fullShare x0 ∗ owns (c : Thread nD τ) arg2 fullShare x1 ∗ owns (c : Thread nD τ) arg3 fullShare d3
            ∗ owns (c : Thread nD τ) arg4 fullShare (k3_pay2 x0 x1 a)) -∗ K ⟨⟩))
      ⊢ wp frame (wpE (defs₀ (F := F)) Variants.none c none) E (cc3__reduce_r_kernel i arg1 harg1 arg2 harg2 arg3 harg3 arg4 harg4) K := by
  simp only [cc3__reduce_r_kernel_eq_skeleton]; unfold cc3__reduce_r_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  -- neither branch is taken
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  -- the accumulator: one whole-block store, whose payload's loads each read a whole block's contents
  iexists _; isplitr; swap; · iexact H4
  ipureintro
  rw [View.read_writes_eq_canon _ _ _ (run3_cover _ _)]
  rw [View.canon_unit_zero run3_hz]
  simp only [View.readAt_eq_ld, harg1.read_unread, harg2.read_unread, harg4.read_unread,
    View.ld_unit_zero (S := S512x3000) run3_hz, View.ld_unit_zero (S := S512x1) run3_hz, View.ld_unit_zero (S := S1x3000) run3_hz]

set_option maxHeartbeats 1000000 in
/-- The LAST point: the accumulator gains this block's contribution, and the output block is written from it. -/
theorem run3_last (c : Dev nD) (E : Set ℕ) (i : grid3.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : ¬ condA3 i) (hL : k3_cond2 i = 1#1)
    (x0 : Vec F S512x3000 .bf16) (x1 : Vec F S512x1 .f32) (a : Vec F S1x3000 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare a
        ∗ (iprop(owns (c : Thread nD τ) arg1 fullShare x0 ∗ owns (c : Thread nD τ) arg2 fullShare x1
            ∗ owns (c : Thread nD τ) arg3 fullShare (k3_pay3 (k3_pay2 x0 x1 a))
            ∗ owns (c : Thread nD τ) arg4 fullShare (k3_pay2 x0 x1 a)) -∗ K ⟨⟩))
      ⊢ wp frame (wpE (defs₀ (F := F)) Variants.none c none) E (cc3__reduce_r_kernel i arg1 harg1 arg2 harg2 arg3 harg3 arg4 harg4) K := by
  simp only [cc3__reduce_r_kernel_eq_skeleton]; unfold cc3__reduce_r_kernel_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  -- the first branch is not taken, the second is (the output block is written)
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  -- the output block: one whole-block store of the reciprocal payload at the accumulator read back after its update
  · iexists _; isplitr; swap; · iexact H3
    ipureintro
    sl_unfold_words
    rw [View.read_writes_eq_canon _ _ _ (run3_cover _ _)]
    rw [View.canon_unit_zero run3_hz, View.readCov_unit_zero (S := S1x3000) _ run3_hz]
    simp only [View.readAt_eq_ld, harg1.read_unread, harg2.read_unread, harg4.read_unread,
      View.ld_unit_zero (S := S512x3000) run3_hz, View.ld_unit_zero (S := S512x1) run3_hz, View.ld_unit_zero (S := S1x3000) run3_hz]
  -- the accumulator: one whole-block store, whose payload's loads each read a whole block's contents
  iexists _; isplitr; swap; · iexact H4
  ipureintro
  sl_unfold_words
  rw [View.read_writes_eq_canon _ _ _ (run3_cover _ _)]
  rw [View.canon_unit_zero run3_hz]
  simp only [View.readAt_eq_ld, harg1.read_unread, harg2.read_unread, harg4.read_unread,
    View.ld_unit_zero (S := S512x3000) run3_hz, View.ld_unit_zero (S := S512x1) run3_hz, View.ld_unit_zero (S := S1x3000) run3_hz]

end Cert.KernelIdeal.Hand

end
-- ==== Proof.KI.Region5Runs.lean ====
import proofs.«177643_j32452772888869_1_alg».proof.Proof.Gen.KernelIdeal.Launch
import proofs.«177643_j32452772888869_1_alg».proof.Proof.Gen.KernelIdeal.Skeleton
import proofs.«177643_j32452772888869_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: the column-scaling kernel's body, case by case

The body adds the block's contribution `Σ_rows E·c` to an accumulator kept in a scratch buffer across the grid:
at the FIRST point it zeroes the accumulator first; at the LAST point it also writes `1 / (32768 · acc)` to the
output block. Three cases cover the 64 points: first (not last), middle, last (not first). -/

/-- The condition of the body's first `scf.if` (zero the accumulator), from the grid coordinate. -/
abbrev condA5 (i : grid5.Coords) : Prop :=
  (Scalar.cmpi .ne (Scalar.extui (Scalar.cmpi .eq (BitVec.ofNat 32 (i 0).val) 0#32)) 0#32) = 1#1

/-- The zero origin of a whole-block rectangle of rank 2, as the constant function. -/
theorem run5_hz : (![0, 0] : Fin 2 → Nat) = fun _ => 0 := funext fun a => by fin_cases a <;> rfl

/-- A store through the whole-block rectangle of the accumulator's shape, last in a list of stores, covers every
    index of the shape (what reading the stores back asks). -/
theorem run5_cover (w : S1x3000.Idx → Elt F .f32) (L : List (View.Piece (Elt F) S1x3000 .f32)) (y : S1x3000.Idx) :
    ∃ p ∈ (⟨Rect.unit (s := S1x3000) ![0, 0] S1x3000.size inb_S1x3000_S1x3000_0_0, w⟩ : View.Piece (Elt F) S1x3000 .f32) :: L,
      y ∈ p.1.set :=
  ⟨_, List.mem_cons_self .., View.mem_set_unit_zero (S := S1x3000) run5_hz inb_S1x3000_S1x3000_0_0 y⟩

set_option maxHeartbeats 1000000 in
/-- FIRST point: the accumulator is zeroed, then holds this block's contribution; the output block is not touched. -/
theorem run5_first (c : Dev nD) (E : Set ℕ) (i : grid5.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : condA5 i) (hL : ¬ k5_cond2 i = 1#1)
    (x0 : Vec F S512x3000 .bf16) (x1 : Vec F S512x1 .f32) (d3 : Vec F S1x3000 .f32) (K : PUnit → sProp 𝕄) :
    iprop(owns (c : Thread nD τ) arg1 fullShare x0 ∗ owns (c : Thread nD τ) arg2 fullShare x1 ∗ owns (c : Thread nD τ) arg3 fullShare d3
        ∗ (∃ s, owns (c : Thread nD τ) arg4 fullShare s)
        ∗ (iprop(owns (c : Thread nD τ) arg1 fullShare x0 ∗ owns (c : Thread nD τ) arg2 fullShare x1 ∗ owns (c : Thread nD τ) arg3 fullShare d3
            ∗ owns (c : Thread nD τ) arg4 fullShare (k5_pay2 x0 x1 (k5_pay1 (F := F)))) -∗ K ⟨⟩))
      ⊢ wp frame (wpE (defs₀ (F := F)) Variants.none c none) E (cc5__reduce_r_kernel i arg1 harg1 arg2 harg2 arg3 harg3 arg4 harg4) K := by
  simp only [cc5__reduce_r_kernel_eq_skeleton]; unfold cc5__reduce_r_kernel_skel
  unfold owns
  iintro ⟨⟨%f1, %hf1, H1⟩, ⟨%f2, %hf2, H2⟩, ⟨%f3, %hf3, H3⟩, ⟨%s4, %f4, -, H4⟩, Hk⟩
  obtain rfl := harg1.eq_unread hf1; obtain rfl := harg2.eq_unread hf2; obtain rfl := harg3.eq_unread hf3
  -- the first branch is taken (the accumulator is zeroed), the second is not
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  -- the accumulator: two whole-block stores, the later (the update) covering; it read back the earlier (the zero block)
  iexists _; isplitr; swap; · iexact H4
  ipureintro
  sl_unfold_words
  rw [View.read_writes_eq_canon _ _ _ (run5_cover _ _)]
  rw [View.canon_cons_unit_zero (S := S1x3000) run5_hz, View.readCov_unit_zero (S := S1x3000) _ run5_hz]
  simp only [View.readAt_eq_ld, harg1.read_unread, harg2.read_unread,
    View.ld_unit_zero (S := S512x3000) run5_hz, View.ld_unit_zero (S := S512x1) run5_hz]

set_option maxHeartbeats 1000000 in
/-- A MIDDLE point: the accumulator gains this block's contribution; the output block is not touched. -/
theorem run5_mid (c : Dev nD) (E : Set ℕ) (i : grid5.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : ¬ condA5 i) (hL : ¬ k5_cond2 i = 1#1)
    (x0 : Vec F S512x3000 .bf16) (x1 : Vec F S512x1 .f32) (d3 : Vec F S1x3000 .f32) (a : Vec F S1x3000 .f32) (K : PUnit → sProp 𝕄) :
    iprop(owns (c : Thread nD τ) arg1 fullShare x0 ∗ owns (c : Thread nD τ) arg2 fullShare x1 ∗ owns (c : Thread nD τ) arg3 fullShare d3
        ∗ owns (c : Thread nD τ) arg4 fullShare a
        ∗ (iprop(owns (c : Thread nD τ) arg1 fullShare x0 ∗ owns (c : Thread nD τ) arg2 fullShare x1 ∗ owns (c : Thread nD τ) arg3 fullShare d3
            ∗ owns (c : Thread nD τ) arg4 fullShare (k5_pay2 x0 x1 a)) -∗ K ⟨⟩))
      ⊢ wp frame (wpE (defs₀ (F := F)) Variants.none c none) E (cc5__reduce_r_kernel i arg1 harg1 arg2 harg2 arg3 harg3 arg4 harg4) K := by
  simp only [cc5__reduce_r_kernel_eq_skeleton]; unfold cc5__reduce_r_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  -- neither branch is taken
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  -- the accumulator: one whole-block store, whose payload's loads each read a whole block's contents
  iexists _; isplitr; swap; · iexact H4
  ipureintro
  rw [View.read_writes_eq_canon _ _ _ (run5_cover _ _)]
  rw [View.canon_unit_zero run5_hz]
  simp only [View.readAt_eq_ld, harg1.read_unread, harg2.read_unread, harg4.read_unread,
    View.ld_unit_zero (S := S512x3000) run5_hz, View.ld_unit_zero (S := S512x1) run5_hz, View.ld_unit_zero (S := S1x3000) run5_hz]

set_option maxHeartbeats 1000000 in
/-- The LAST point: the accumulator gains this block's contribution, and the output block is written from it. -/
theorem run5_last (c : Dev nD) (E : Set ℕ) (i : grid5.Coords)
    (arg1 : Memref sig .tc .vmem S512x3000 .bf16) (harg1 : arg1.IsWhole) (arg2 : Memref sig .tc .vmem S512x1 .f32) (harg2 : arg2.IsWhole)
    (arg3 : Memref sig .tc .vmem S1x3000 .f32) (harg3 : arg3.IsWhole) (arg4 : Memref sig .tc .vmem S1x3000 .f32) (harg4 : arg4.IsWhole)
    (hA : ¬ condA5 i) (hL : k5_cond2 i = 1#1)
    (x0 : Vec F S512x3000 .bf16) (x1 : Vec F S512x1 .f32) (a : Vec F S1x3000 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare a
        ∗ (iprop(owns (c : Thread nD τ) arg1 fullShare x0 ∗ owns (c : Thread nD τ) arg2 fullShare x1
            ∗ owns (c : Thread nD τ) arg3 fullShare (k5_pay3 (k5_pay2 x0 x1 a))
            ∗ owns (c : Thread nD τ) arg4 fullShare (k5_pay2 x0 x1 a)) -∗ K ⟨⟩))
      ⊢ wp frame (wpE (defs₀ (F := F)) Variants.none c none) E (cc5__reduce_r_kernel i arg1 harg1 arg2 harg2 arg3 harg3 arg4 harg4) K := by
  simp only [cc5__reduce_r_kernel_eq_skeleton]; unfold cc5__reduce_r_kernel_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  -- the first branch is not taken, the second is (the output block is written)
  sl_exec (disch := first | exact hA | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  -- the output block: one whole-block store of the reciprocal payload at the accumulator read back after its update
  · iexists _; isplitr; swap; · iexact H3
    ipureintro
    sl_unfold_words
    rw [View.read_writes_eq_canon _ _ _ (run5_cover _ _)]
    rw [View.canon_unit_zero run5_hz, View.readCov_unit_zero (S := S1x3000) _ run5_hz]
    simp only [View.readAt_eq_ld, harg1.read_unread, harg2.read_unread, harg4.read_unread,
      View.ld_unit_zero (S := S512x3000) run5_hz, View.ld_unit_zero (S := S512x1) run5_hz, View.ld_unit_zero (S := S1x3000) run5_hz]
  -- the accumulator: one whole-block store, whose payload's loads each read a whole block's contents
  iexists _; isplitr; swap; · iexact H4
  ipureintro
  sl_unfold_words
  rw [View.read_writes_eq_canon _ _ _ (run5_cover _ _)]
  rw [View.canon_unit_zero run5_hz]
  simp only [View.readAt_eq_ld, harg1.read_unread, harg2.read_unread, harg4.read_unread,
    View.ld_unit_zero (S := S512x3000) run5_hz, View.ld_unit_zero (S := S512x1) run5_hz, View.ld_unit_zero (S := S1x3000) run5_hz]

end Cert.KernelIdeal.Hand

end
-- ==== Proof.KI.Region7.lean ====
import proofs.«177643_j32452772888869_1_alg».proof.Proof.Gen.KernelIdeal.Launch
import proofs.«177643_j32452772888869_1_alg».proof.Proof.Gen.KernelIdeal.Skeleton
import proofs.«177643_j32452772888869_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The last region of @main: the final scaling, `cc7__final_kernel` (pipeline 7), at the entry contents `V`

Each of the 64 grid points takes a block of 512 rows of the exponentials `E` (window 0, 16-bit), the whole row of
column factors `r` (window 1: one block, the same at every point), the 512 row factors `c` of those rows (window 2),
and stores `3000 · E · r · c` over the matching block of the result (window 3). -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The block of `E` (window 0): its staging buffer holds the point's 512 rows at every point, for ANY proof data
    whose array is `V`'s (`hA`) and whose body leaves the block in place (`hafter`). The window is fetched at every
    point, is never cut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The row `r` (window 1): its block index is the constant (0, 0), so the pipeline fetches it at the first point
    only; at a later point the buffer still holds what the body left at the point before, which is the same block
    (the index has not moved, and the body leaves it in place). So the buffer holds the row at every point. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The block of `c` (window 2): the point's 512 row factors, fetched at every point. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_0 : Rect S512x3000 := Rect.unit (s := S512x3000) ![0, 0] S512x3000.size inb_S512x3000_S512x3000_0_0
abbrev r7_1 : Rect S1x3000 := Rect.unit (s := S1x3000) ![0, 0] S1x3000.size inb_S1x3000_S1x3000_0_0
abbrev r7_2 : Rect S512x1 := Rect.unit (s := S512x1) ![0, 0] S512x1.size inb_S512x1_S512x1_0_0

/-! ## What the body leaves in the output window's buffer -/

/-- The result block after the body, from the three input blocks: one store of the whole block, whose payload is
    `3000 · E · r · c` with `r` spread down the rows and `c` across the columns (`k7_pay1`). -/
def out7_3 (x0 : Vec F S512x3000 .bf16) (x1 : Vec F S1x3000 .f32) (x2 : Vec F S512x1 .f32) : Vec F S512x3000 .f32 :=
  View.canon [⟨r7_0, k7_pay1 (View.ld x0 r7_0) (View.ld x1 r7_1) (View.ld x2 r7_2)⟩]

/-- The one store is the whole block, so it covers it (one tile of the block's own size). -/
theorem cover7_3 (p0 : Vec F S512x3000 .f32) (y : S512x3000.Idx) :
    ∃ pc ∈ ([⟨r7_0, p0⟩] : List (View.Piece (Elt F) S512x3000 .f32)), y ∈ pc.1.set :=
  View.cover_of_tiled [⟨r7_0, p0⟩] S512x3000.size (by rfl) y

/-! ## The body's triple -/

set_option maxHeartbeats 1000000 in
/-- The kernel body on whole staging memrefs — the three inputs' at read contents `x0`, `x1`, `x2`, the output's at
    anything — runs to the continuation holding the inputs' as they were and the output's at `out7_3` of them: three
    whole-block loads, a load of the output buffer whose value is not used, and the one covering store. -/
theorem sound_kernel7 (c : Dev nD) (E : Set ℕ) (i : grid7.Coords)
    (arg1 : Memref sig .tc .vmem S512x3000 .bf16) (harg1 : arg1.IsWhole) (arg2 : Memref sig .tc .vmem S1x3000 .f32) (harg2 : arg2.IsWhole)
    (arg3 : Memref sig .tc .vmem S512x1 .f32) (harg3 : arg3.IsWhole) (arg4 : Memref sig .tc .vmem S512x3000 .f32) (harg4 : arg4.IsWhole)
    (x0 : Vec F S512x3000 .bf16) (x1 : Vec F S1x3000 .f32) (x2 : Vec F S512x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__final_kernel i arg1 harg1 arg2 harg2 arg3 harg3 arg4 harg4) K := by
  simp only [cc7__final_kernel_eq_skeleton]; unfold cc7__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them (`V`); after the body at point `t`
    each input's buffer at its block and the output's at `out7_3` of the three input blocks; the invariant the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's two ends -/

/-- Entering: the generator register at some state and the scoped rest make the invariant at point 0 (the two
    conjuncts in the other order). -/
theorem Phi7_in (c : Dev nD) :
    iprop((∃ r, prngReg c r) ∗ Pipeline.scopedRest (Ix := Unit) (Name := ℕ) (U := UR sig nD τ) (Lvl := ℕ) (Val := Elt F) spec7 c)
      ⊢ ((dat7 V c).Φ 0 : sProp 𝕄) := by
  rw [show (dat7 V c).Φ 0 = Pipeline.ΦA spec7 c from rfl]; unfold Pipeline.ΦA
  iintro ⟨Hp, Hr⟩
  isplitl [Hr]; · iexact Hr
  iexact Hp

/-- Leaving: the invariant at the last point gives them back. -/
theorem Phi7_out (c : Dev nD) :
    ((dat7 V c).Φ (Fin.last cfg7.N) : sProp 𝕄)
      ⊢ iprop((∃ r, prngReg c r) ∗ Pipeline.scopedRest (Ix := Unit) (Name := ℕ) (U := UR sig nD τ) (Lvl := ℕ) (Val := Elt F) spec7 c) := by
  rw [show (dat7 V c).Φ (Fin.last _) = Pipeline.ΦA spec7 c from rfl]; unfold Pipeline.ΦA
  iintro ⟨Hr, Hp⟩
  isplitl [Hp]; · iexact Hp
  iexact Hr

end Cert.KernelIdeal.Hand

end
-- ==== Proof.KI.Fold.lean ====
/-
  The run of the eight regions, boundary by boundary: what the TensorCore's unscoped buffers hold between two items of the
  program. `W0` is the launch memory; a kernel region replaces its windows' arrays by what its write-backs leave
  (the proof data's `arrAt … N`: an input array unchanged, an output array the flushed blocks in point order) and keeps
  every other buffer; the one host stretch (the all-ones column the first column scaling starts from) is `StableHlo.after`.
  Each region's proof data is taken at the contents the region is entered from.
-/
import proofs.«177643_j32452772888869_1_alg».proof.Proof.KI.Region0
import proofs.«177643_j32452772888869_1_alg».proof.Proof.KI.Region1
import proofs.«177643_j32452772888869_1_alg».proof.Proof.KI.Region2
import proofs.«177643_j32452772888869_1_alg».proof.Proof.KI.Region3
import proofs.«177643_j32452772888869_1_alg».proof.Proof.KI.Region4
import proofs.«177643_j32452772888869_1_alg».proof.Proof.KI.Region5
import proofs.«177643_j32452772888869_1_alg».proof.Proof.KI.Region6
import proofs.«177643_j32452772888869_1_alg».proof.Proof.KI.Region7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b

/-- At region 0's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host stretch (the constant 1 and its broadcast to a column): region 1's entry contents. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- At region 3's exit: its arrays at what the pipeline leaves, every other buffer as entered. -/
def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
abbrev V5 : (c : Dev nD) → (b : Ref sig .tc) → Buf (Elt F) ((c : Thread nD τ).loc b) := fun c b => W5 m c b
theorem hF3 (c : Dev nD) (w : Fin cfg3.W) : (dat3 (V4 m) c).arrAt w cfg3.N = V5 m c (Pipeline.arrRef spec3 w) :=
  (W5_arr m c w).symm
theorem hrest3 (c : Dev nD) : ∀ b, b ∉ Finset.univ.image (Pipeline.arrRef spec3) → V5 m c b = V4 m c b :=
  fun b hb => W5_of_ne m c b fun w e => hb (Finset.mem_image.mpr ⟨w, Finset.mem_univ _, e⟩)

/-- At region 4's exit: its arrays at what the pipeline leaves, every other buffer as entered. -/
def W6 (c : Dev nD) : Valuation τ sig (Elt F) :=
  Pipeline.withArrays spec4 c (W5 m c) fun w => (dat4 (V5 m) c).arrAt w cfg4.N
theorem W6_arr (c : Dev nD) (w : Fin cfg4.W) :
    W6 m c (Proc.devRef .tc (Pipeline.arrRef spec4 w)) = (dat4 (V5 m) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m c (Proc.devRef .tc b) = W5 m c (Proc.devRef .tc b) := by
  unfold W6; exact Pipeline.withArrays_of_ne spec4 c _ _ b hb
abbrev V6 : (c : Dev nD) → (b : Ref sig .tc) → Buf (Elt F) ((c : Thread nD τ).loc b) := fun c b => W6 m c b
theorem hF4 (c : Dev nD) (w : Fin cfg4.W) : (dat4 (V5 m) c).arrAt w cfg4.N = V6 m c (Pipeline.arrRef spec4 w) :=
  (W6_arr m c w).symm
theorem hrest4 (c : Dev nD) : ∀ b, b ∉ Finset.univ.image (Pipeline.arrRef spec4) → V6 m c b = V5 m c b :=
  fun b hb => W6_of_ne m c b fun w e => hb (Finset.mem_image.mpr ⟨w, Finset.mem_univ _, e⟩)

/-- At region 5's exit: its arrays at what the pipeline leaves, every other buffer as entered. -/
def W7 (c : Dev nD) : Valuation τ sig (Elt F) :=
  Pipeline.withArrays spec5 c (W6 m c) fun w => (dat5 (V6 m) c).arrAt w cfg5.N
theorem W7_arr (c : Dev nD) (w : Fin cfg5.W) :
    W7 m c (Proc.devRef .tc (Pipeline.arrRef spec5 w)) = (dat5 (V6 m) c).arrAt w cfg5.N := by
  unfold W7; exact Pipeline.withArrays_arr spec5 launch5.win.arr_inj c _ _ w
theorem W7_of_ne (c : Dev nD) (b : Ref sig .tc) (hb : ∀ w, Pipeline.arrRef spec5 w ≠ b) :
    W7 m c (Proc.devRef .tc b) = W6 m c (Proc.devRef .tc b) := by
  unfold W7; exact Pipeline.withArrays_of_ne spec5 c _ _ b hb
abbrev V7 : (c : Dev nD) → (b : Ref sig .tc) → Buf (Elt F) ((c : Thread nD τ).loc b) := fun c b => W7 m c b
theorem hF5 (c : Dev nD) (w : Fin cfg5.W) : (dat5 (V6 m) c).arrAt w cfg5.N = V7 m c (Pipeline.arrRef spec5 w) :=
  (W7_arr m c w).symm
theorem hrest5 (c : Dev nD) : ∀ b, b ∉ Finset.univ.image (Pipeline.arrRef spec5) → V7 m c b = V6 m c b :=
  fun b hb => W7_of_ne m c b fun w e => hb (Finset.mem_image.mpr ⟨w, Finset.mem_univ _, e⟩)

/-- At region 6's exit: its arrays at what the pipeline leaves, every other buffer as entered. -/
def W8 (c : Dev nD) : Valuation τ sig (Elt F) :=
  Pipeline.withArrays spec6 c (W7 m c) fun w => (dat6 (V7 m) c).arrAt w cfg6.N
theorem W8_arr (c : Dev nD) (w : Fin cfg6.W) :
    W8 m c (Proc.devRef .tc (Pipeline.arrRef spec6 w)) = (dat6 (V7 m) c).arrAt w cfg6.N := by
  unfold W8; exact Pipeline.withArrays_arr spec6 launch6.win.arr_inj c _ _ w
theorem W8_of_ne (c : Dev nD) (b : Ref sig .tc) (hb : ∀ w, Pipeline.arrRef spec6 w ≠ b) :
    W8 m c (Proc.devRef .tc b) = W7 m c (Proc.devRef .tc b) := by
  unfold W8; exact Pipeline.withArrays_of_ne spec6 c _ _ b hb
abbrev V8 : (c : Dev nD) → (b : Ref sig .tc) → Buf (Elt F) ((c : Thread nD τ).loc b) := fun c b => W8 m c b
theorem hF6 (c : Dev nD) (w : Fin cfg6.W) : (dat6 (V7 m) c).arrAt w cfg6.N = V8 m c (Pipeline.arrRef spec6 w) :=
  (W8_arr m c w).symm
theorem hrest6 (c : Dev nD) : ∀ b, b ∉ Finset.univ.image (Pipeline.arrRef spec6) → V8 m c b = V7 m c b :=
  fun b hb => W8_of_ne m c b fun w e => hb (Finset.mem_image.mpr ⟨w, Finset.mem_univ _, e⟩)

/-- At region 7's exit: its arrays at what the pipeline leaves, every other buffer as entered. -/
def W9 (c : Dev nD) : Valuation τ sig (Elt F) :=
  Pipeline.withArrays spec7 c (W8 m c) fun w => (dat7 (V8 m) c).arrAt w cfg7.N
theorem W9_arr (c : Dev nD) (w : Fin cfg7.W) :
    W9 m c (Proc.devRef .tc (Pipeline.arrRef spec7 w)) = (dat7 (V8 m) c).arrAt w cfg7.N := by
  unfold W9; exact Pipeline.withArrays_arr spec7 launch7.win.arr_inj c _ _ w
theorem W9_of_ne (c : Dev nD) (b : Ref sig .tc) (hb : ∀ w, Pipeline.arrRef spec7 w ≠ b) :
    W9 m c (Proc.devRef .tc b) = W8 m c (Proc.devRef .tc b) := by
  unfold W9; exact Pipeline.withArrays_of_ne spec7 c _ _ b hb
abbrev V9 : (c : Dev nD) → (b : Ref sig .tc) → Buf (Elt F) ((c : Thread nD τ).loc b) := fun c b => W9 m c b
theorem hF7 (c : Dev nD) (w : Fin cfg7.W) : (dat7 (V8 m) c).arrAt w cfg7.N = V9 m c (Pipeline.arrRef spec7 w) :=
  (W9_arr m c w).symm
theorem hrest7 (c : Dev nD) : ∀ b, b ∉ Finset.univ.image (Pipeline.arrRef spec7) → V9 m c b = V8 m c b :=
  fun b hb => W9_of_ne m c b fun w e => hb (Finset.mem_image.mpr ⟨w, Finset.mem_univ _, e⟩)

/-! ## The proof data family and what rides beside the buffers -/

/-- No pipeline has a prefetched table. -/
abbrev adm : (p : Fin 8) → (pcfgs (F := F) p).Adm := fun p => (cfgs p).toPCfg_adm
/-- Every pipeline's proof data, each at its region's entry contents (a literal match on the pipeline). -/
def pdats : (p : Fin 8) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V3 m) c
  | ⟨3, _⟩ => fun c => dat3 (V4 m) c
  | ⟨4, _⟩ => fun c => dat4 (V5 m) c
  | ⟨5, _⟩ => fun c => dat5 (V6 m) c
  | ⟨6, _⟩ => fun c => dat6 (V7 m) c
  | ⟨7, _⟩ => fun c => dat7 (V8 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- No operation of the host stretch allocates a buffer. -/
theorem hostOps1_fresh : (hostOps1 : List (HloOp τ sig (Elt F))).Forall fun op => op.fresh = ∅ := by
  simp only [List.Forall]; repeat' constructor

end Cert.KernelIdeal.Hand

end
-- ==== Proof.KI.Reg0.lean ====
/-
  Region 0 of the program as a segment of the run: the kernel region's record over the thread state
  "every unscoped buffer at the boundary's contents, the generator register at some state, nothing owed".
-/
import proofs.«177643_j32452772888869_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 0 over the thread state "every unscoped buffer at the boundary's contents, the generator register at some
    state, nothing owed": entered at `W0`, left at `W1`. Its arrays are split out of the unscoped buffers and put
    back at the exit contents; the generator register and the scoped buffers no window stages go into the proof data's
    invariant and come back out; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    iintro ⟨Hp, -, Hr⟩
    iapply (Phi0_in (V0 m) c)
    isplitl [Hp]; · iexact Hp
    iexact Hr
  hout c := by
    rw [Pipeline.ownSems0_none, show (pdats m 0 c).Φ (Fin.last _) = (dat0 (V0 m) c).Φ (Fin.last cfg0.N) from rfl]
    iintro H
    ihave H' := (Phi0_out (V0 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/-
  Region 1 of the program as a segment of the run: the kernel region's record over the thread state
  "every unscoped buffer at the boundary's contents, the generator register at some state, nothing owed".
-/
import proofs.«177643_j32452772888869_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 1 over the thread state "every unscoped buffer at the boundary's contents, the generator register at some
    state, nothing owed": entered at `W2`, left at `W3`. Its arrays are split out of the unscoped buffers and put
    back at the exit contents; the generator register and the scoped buffers no window stages go into the proof data's
    invariant and come back out; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    iintro ⟨Hp, -, Hr⟩
    iapply (Phi1_in (V2 m) c)
    isplitl [Hp]; · iexact Hp
    iexact Hr
  hout c := by
    rw [Pipeline.ownSems0_none, show (pdats m 1 c).Φ (Fin.last _) = (dat1 (V2 m) c).Φ (Fin.last cfg1.N) from rfl]
    iintro H
    ihave H' := (Phi1_out (V2 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/-
  Region 2 of the program as a segment of the run: the kernel region's record over the thread state
  "every unscoped buffer at the boundary's contents, the generator register at some state, nothing owed".
-/
import proofs.«177643_j32452772888869_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 2 over the thread state "every unscoped buffer at the boundary's contents, the generator register at some
    state, nothing owed": entered at `W3`, left at `W4`. Its arrays are split out of the unscoped buffers and put
    back at the exit contents; the generator register and the scoped buffers no window stages go into the proof data's
    invariant and come back out; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V3 m) c).Φ 0 from rfl]
    iintro ⟨Hp, -, Hr⟩
    iapply (Phi2_in (V3 m) c)
    isplitl [Hp]; · iexact Hp
    iexact Hr
  hout c := by
    rw [Pipeline.ownSems0_none, show (pdats m 2 c).Φ (Fin.last _) = (dat2 (V3 m) c).Φ (Fin.last cfg2.N) from rfl]
    iintro H
    ihave H' := (Phi2_out (V3 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
/-
  Region 3 of the program as a segment of the run: the kernel region's record over the thread state
  "every unscoped buffer at the boundary's contents, the generator register at some state, nothing owed".
-/
import proofs.«177643_j32452772888869_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 3 over the thread state "every unscoped buffer at the boundary's contents, the generator register at some
    state, nothing owed": entered at `W4`, left at `W5`. Its arrays are split out of the unscoped buffers and put
    back at the exit contents; the generator register and the scoped buffers no window stages go into the proof data's
    invariant and come back out; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V4 m) c).Φ 0 from rfl]
    iintro ⟨Hp, -, Hr⟩
    iapply (Phi3_in (V4 m) c)
    isplitl [Hp]; · iexact Hp
    iexact Hr
  hout c := by
    rw [Pipeline.ownSems0_none, show (pdats m 3 c).Φ (Fin.last _) = (dat3 (V4 m) c).Φ (Fin.last cfg3.N) from rfl]
    iintro H
    ihave H' := (Phi3_out (V4 m) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V4 m c) (V5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4.lean ====
/-
  Region 4 of the program as a segment of the run: the kernel region's record over the thread state
  "every unscoped buffer at the boundary's contents, the generator register at some state, nothing owed".
-/
import proofs.«177643_j32452772888869_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 4 over the thread state "every unscoped buffer at the boundary's contents, the generator register at some
    state, nothing owed": entered at `W5`, left at `W6`. Its arrays are split out of the unscoped buffers and put
    back at the exit contents; the generator register and the scoped buffers no window stages go into the proof data's
    invariant and come back out; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m) c).loose
  hwaits := Pipeline.hwaits_of_owed_zero _ _ _ _ L lv 4 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec4 c (V5 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (V5 m) c).Φ 0 from rfl]
    iintro ⟨Hp, -, Hr⟩
    iapply (Phi4_in (V5 m) c)
    isplitl [Hp]; · iexact Hp
    iexact Hr
  hout c := by
    rw [Pipeline.ownSems0_none, show (pdats m 4 c).Φ (Fin.last _) = (dat4 (V5 m) c).Φ (Fin.last cfg4.N) from rfl]
    iintro H
    ihave H' := (Phi4_out (V5 m) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V5 m c) (V6 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg5.lean ====
/-
  Region 5 of the program as a segment of the run: the kernel region's record over the thread state
  "every unscoped buffer at the boundary's contents, the generator register at some state, nothing owed".
-/
import proofs.«177643_j32452772888869_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 5 over the thread state "every unscoped buffer at the boundary's contents, the generator register at some
    state, nothing owed": entered at `W6`, left at `W7`. Its arrays are split out of the unscoped buffers and put
    back at the exit contents; the generator register and the scoped buffers no window stages go into the proof data's
    invariant and come back out; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V6 m) c).loose
  hwaits := Pipeline.hwaits_of_owed_zero _ _ _ _ L lv 5 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec5 c (V6 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (V6 m) c).Φ 0 from rfl]
    iintro ⟨Hp, -, Hr⟩
    iapply (Phi5_in (V6 m) c)
    isplitl [Hp]; · iexact Hp
    iexact Hr
  hout c := by
    rw [Pipeline.ownSems0_none, show (pdats m 5 c).Φ (Fin.last _) = (dat5 (V6 m) c).Φ (Fin.last cfg5.N) from rfl]
    iintro H
    ihave H' := (Phi5_out (V6 m) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V6 m c) (V7 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg6.lean ====
/-
  Region 6 of the program as a segment of the run: the kernel region's record over the thread state
  "every unscoped buffer at the boundary's contents, the generator register at some state, nothing owed".
-/
import proofs.«177643_j32452772888869_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 6 over the thread state "every unscoped buffer at the boundary's contents, the generator register at some
    state, nothing owed": entered at `W7`, left at `W8`. Its arrays are split out of the unscoped buffers and put
    back at the exit contents; the generator register and the scoped buffers no window stages go into the proof data's
    invariant and come back out; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V7 m) c).loose
  hwaits := Pipeline.hwaits_of_owed_zero _ _ _ _ L lv 6 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec6 c (V7 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (V7 m) c).Φ 0 from rfl]
    iintro ⟨Hp, -, Hr⟩
    iapply (Phi6_in (V7 m) c)
    isplitl [Hp]; · iexact Hp
    iexact Hr
  hout c := by
    rw [Pipeline.ownSems0_none, show (pdats m 6 c).Φ (Fin.last _) = (dat6 (V7 m) c).Φ (Fin.last cfg6.N) from rfl]
    iintro H
    ihave H' := (Phi6_out (V7 m) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V7 m c) (V8 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg7.lean ====
/-
  Region 7 of the program as a segment of the run: the kernel region's record over the thread state
  "every unscoped buffer at the boundary's contents, the generator register at some state, nothing owed".
-/
import proofs.«177643_j32452772888869_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Region 7 over the thread state "every unscoped buffer at the boundary's contents, the generator register at some
    state, nothing owed": entered at `W8`, left at `W9`. Its arrays are split out of the unscoped buffers and put
    back at the exit contents; the generator register and the scoped buffers no window stages go into the proof data's
    invariant and come back out; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V8 m) c).loose
  hwaits := Pipeline.hwaits_of_owed_zero _ _ _ _ L lv 7 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec7 c (V8 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (V8 m) c).Φ 0 from rfl]
    iintro ⟨Hp, -, Hr⟩
    iapply (Phi7_in (V8 m) c)
    isplitl [Hp]; · iexact Hp
    iexact Hr
  hout c := by
    rw [Pipeline.ownSems0_none, show (pdats m 7 c).Φ (Fin.last _) = (dat7 (V8 m) c).Φ (Fin.last cfg7.N) from rfl]
    iintro H
    ihave H' := (Phi7_out (V8 m) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (V8 m c) (V9 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The whole program's run: the eight kernel regions and the one host stretch between the first two, as segments chained
  from the launch memory to the last boundary's contents `W9`. Every weakly fair execution terminates, nothing faults,
  and the final memory holds every unscoped buffer at `W9`: in particular the result array at what the last region's
  write-backs leave, and the argument array as launched (no item writes it).
-/
import proofs.«177643_j32452772888869_1_alg».proof.Proof.KI.Reg0
import proofs.«177643_j32452772888869_1_alg».proof.Proof.KI.Reg1
import proofs.«177643_j32452772888869_1_alg».proof.Proof.KI.Reg2
import proofs.«177643_j32452772888869_1_alg».proof.Proof.KI.Reg3
import proofs.«177643_j32452772888869_1_alg».proof.Proof.KI.Reg4
import proofs.«177643_j32452772888869_1_alg».proof.Proof.KI.Reg5
import proofs.«177643_j32452772888869_1_alg».proof.Proof.KI.Reg6
import proofs.«177643_j32452772888869_1_alg».proof.Proof.KI.Reg7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host stretch as a segment over the unscoped references, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The program's nine items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m), .region (reg2 m), .region (reg3 m), .region (reg4 m), .region (reg5 m), .region (reg6 m), .region (reg7 m) ]

/-- The program is the run of its items. -/
theorem main_run (c : Dev nD) : main (F := F) c = Pipeline.Seg.run (segs m) := (main_chain c).trans (by chain_rfl)

/-- The last thread state without the `owes`: every unscoped buffer at `W9`, the generator register at some state. -/
abbrev Tₙ (c : Dev nD) : sProp 𝕄 := iprop(StableHlo.held (c : Thread nD τ) (Pipeline.ucRefs τ sig) (W9 m c) ∗ ∃ r, prngReg c r)

-- the launch theorem's implicit arguments are found by unifying its conclusion with this one, which takes unfolding
-- plain definitions in a metavariable's type
set_option backward.isDefEq.respectTransparency.types false in
/-- From any memory with zero counters every weakly fair execution of the program terminates, nothing faulting, and the
    final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-! ## The argument array ends as launched -/

/-- No region writes the argument array and the host stretch does not either: the fold at its buffer walks back to the
    launch memory (region 0 reads it through an input window, which the pipeline leaves as it found it). -/
theorem W9_main_arg0 (c : Dev nD) : W9 m c (Proc.devRef .tc main_arg0) = m ((c : Thread nD τ).loc main_arg0) :=
  calc W9 m c (Proc.devRef .tc main_arg0)
    _ = W8 m c (Proc.devRef .tc main_arg0) := W9_of_ne m c main_arg0 (by decide)
    _ = W7 m c (Proc.devRef .tc main_arg0) := W8_of_ne m c main_arg0 (by decide)
    _ = W6 m c (Proc.devRef .tc main_arg0) := W7_of_ne m c main_arg0 (by decide)
    _ = W5 m c (Proc.devRef .tc main_arg0) := W6_of_ne m c main_arg0 (by decide)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.Forall, StableHlo.nullary_writes, StableHlo.unary_writes, Finset.mem_singleton]
          repeat' apply And.intro
          all_goals exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl

/-- THE RUN, read at the two buffers the claims speak of: the result array at the last boundary's contents, the argument
    array as launched. -/
theorem run_main : θ_run defs (onTc (τ := τ) (main (F := F))) ⟨m, fun _ => 0, ρ⟩ (fun r => ∀ c : Dev nD,
      r.2.mem ((c.tc : Thread nD τ).loc main_v8) = W9 m c (Proc.devRef .tc main_v8)
      ∧ r.2.mem ((c.tc : Thread nD τ).loc main_arg0) = m ((c.tc : Thread nD τ).loc main_arg0)) :=
  (θ_run defs _ _).mono (fun _ h c => ⟨h c _ (mem_uc main_v8 (by decide)), (h c _ (mem_uc main_arg0 (by decide))).trans (W9_main_arg0 m c)⟩)
    (run_all m ρ)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Hand

end
-- ==== Proof.KI.Value0.lean ====
import proofs.«177643_j32452772888869_1_alg».proof.Proof.KI.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the TensorCore's buffer contents when the region is entered, at the ideal instance (floats are extended reals)
variable (V : (c : Dev nD) → (b : Ref sig .tc) → Buf (Elt Ideal) ((c : Thread nD τ).loc b))

/-! # Region 0 at the ideal instance: the result array is the exponential of the logits, entry by entry

Point `t` of the grid writes rows `512·t … 512·t + 511` (all 3000 columns) of the result, and what it writes at a
position is `exp` of the logit at the same position: the rounding to bf16 is the identity on extended reals. The 64
blocks tile the 32768 rows, so after the run every entry of the result is `exp` of the logit at its index. -/

/-- The zero offsets of the body's one rectangle, as the constant function. -/
theorem zero_offsets0 : (![0, 0] : Fin 2 → Nat) = fun _ => 0 := funext fun a => by fin_cases a <;> rfl

/-- The whole result array the write-backs assemble: `exp` of the logits as the region finds them. -/
abbrev expArr0 (c : Dev nD) : S32768x3000.Idx → Elt Ideal .bf16 := fun i => Ideal.exp (V c main_arg0 i)

/-- The payload on extended reals: the entrywise exponential (the f32 → bf16 rounding changes nothing). -/
theorem pay0_apply (x : Vec Ideal S512x3000 .f32) (j : S512x3000.Idx) : k0_pay1 x j = Ideal.exp (x j) := rfl

/-- The two index maps, decided over the 64 points: both windows are at row block `t`, column block 0. -/
theorem index_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of `expArr0`: the stored payload is `exp` of the loaded logits block, and
    the logits window's block sits at the same rows and columns of its array as the result window's. -/
theorem flushed0_eq (c : Dev nD) (t : Fin cfg0.N) :
    (dat0 (F := Ideal) V c).flushed 1 t = ((cfg0.win 1).blk t).view.read (Elt Ideal) (expArr0 V c) := by
  show (cfg0.win 1).cut (grid0.coords t) ((dat0 (F := Ideal) V c).after 1 t) = _
  rw [after0_1]
  unfold out0_1
  rw [View.canon_unit_zero zero_offsets0]
  simp only [View.ld_unit_zero (S := S512x3000) zero_offsets0]
  obtain ⟨e0, e1, e2, e3⟩ := index_facts0 t
  funext j
  show Ideal.exp (V c main_arg0 (((cfg0.win 0).blk t).view.emb j)) = Ideal.exp (V c main_arg0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 3000 + 1 * (j 1).val = win0_1.index t (1 : Fin 2) * 3000 + 1 * (j 1).val; omega
  rw [h0]

/-- An index of the result array is in point `t`'s block iff each coordinate is in the block's range on its axis. -/
theorem mem_blk0 (t : Fin cfg0.N) (i : S32768x3000.Idx) :
    i ∈ ((cfg0.win 1).blk t).view.set ↔ ∀ a : Fin 2, win0_1.index t a * S512x3000.size a ≤ (i a).val ∧ (i a).val < win0_1.index t a * S512x3000.size a + S512x3000.size a := by
  show i ∈ ((View.whole main_v0).slice (win0_1.rect t)).set ↔ _
  rw [View.set_slice_whole, Rect.mem_set_unit]
  exact Iff.rfl

/-- Every index of the result array is in some point's block: row `r` is in the block of point `r / 512`. -/
theorem cover0 (i : S32768x3000.Idx) :
    ∃ t : Fin cfg0.N, (cfg0.win 1).flush t = true ∧ i ∈ ((cfg0.win 1).blk t).view.set := by
  have hi0 : (i 0).val < 32768 := (i 0).isLt
  have hi1 : (i 1).val < 3000 := (i 1).isLt
  have hN : cfg0.N = 64 := N_0
  refine ⟨⟨(i 0).val / 512, by rw [hN]; omega⟩, flush0_1 _, ?_⟩
  rw [mem_blk0]
  obtain ⟨-, -, e2, e3⟩ := index_facts0 ⟨(i 0).val / 512, by rw [hN]; omega⟩
  intro a
  match a with
  | ⟨0, _⟩ =>
    show win0_1.index _ (0 : Fin 2) * 512 ≤ (i 0).val ∧ (i 0).val < win0_1.index _ (0 : Fin 2) * 512 + 512
    rw [e2]; show (i 0).val / 512 * 512 ≤ (i 0).val ∧ (i 0).val < (i 0).val / 512 * 512 + 512; omega
  | ⟨1, _⟩ =>
    show win0_1.index _ (1 : Fin 2) * 3000 ≤ (i 1).val ∧ (i 1).val < win0_1.index _ (1 : Fin 2) * 3000 + 3000
    rw [e3]; omega

/-- The result array after the run is `exp` of the logits as the region finds them. -/
theorem arr0_eq (c : Dev nD) : (dat0 (F := Ideal) V c).arrAt 1 cfg0.N = expArr0 V c :=
  (dat0 (F := Ideal) V c).arrAt_eq_of_cover 1 (expArr0 V c) (fun t _ => flushed0_eq V c t) cover0

/-- Entry `(n, b)` of the result array after the run is the exponential of entry `(n, b)` of the logits array as
    the region finds it. -/
theorem arr0_apply (c : Dev nD) (n : Fin 32768) (b : Fin 3000) :
    (dat0 (F := Ideal) V c).arrAt 1 cfg0.N (ix2 n b) = Ideal.exp ((dat0 (F := Ideal) V c).A 0 (ix2 n b)) := by
  rw [arr0_eq, A_eq0]

end Cert.KernelIdeal.Hand

end
-- ==== Proof.Sinkhorn.lean ====
/-
  Sinkhorn–Knopp scaling of a positive matrix, as both programs compute it on the extended reals.

  `E : ι → κ → EReal` is the matrix of exponentials (rows `n : ι`, columns `b : κ`).  The kernel keeps two scaling
  vectors, `c : ι → EReal` (one entry per row) and `r : κ → EReal` (one per column), starts from `c = 1` and alternates
      r b = 1 / (N · Σₙ E n b · c n)        c n = 1 / (B · Σ_b E n b · r b)
  three times, and returns `B · E n b · r b · c n`.  The reference works on the transposed matrix `Q b n`: it first divides
  by the sum of all entries, then three times divides every row `b` by `(Σₙ Q b n) · N` and every column `n` by
  `(Σ_b Q b n) · B`, and returns `Q b n · B`.  Every quotient is the extended reals' `Ideal.div`.
-/
import Idealize.ShloMosaic.PureOps.Ideal

noncomputable section

open scoped BigOperators

namespace Cert.Sinkhorn

open Idealize.ShloMosaic

variable {ι κ : Type} [Fintype ι] [Fintype κ]

/-! ## The kernel's side: two scaling vectors -/

/-- The column scaling from a row scaling: `r b = 1 / (N · Σₙ E n b · c n)`. -/
def rowStep (N : EReal) (E : ι → κ → EReal) (c : ι → EReal) (b : κ) : EReal :=
  Ideal.div 1 (N * ∑ n, E n b * c n)

/-- The row scaling from a column scaling: `c n = 1 / (B · Σ_b E n b · r b)`. -/
def colStep (B : EReal) (E : ι → κ → EReal) (r : κ → EReal) (n : ι) : EReal :=
  Ideal.div 1 (B * ∑ b, E n b * r b)

/-- The matrix scaled on both sides, times `B`. -/
def scaled (B : EReal) (E : ι → κ → EReal) (r : κ → EReal) (c : ι → EReal) (n : ι) (b : κ) : EReal :=
  B * E n b * r b * c n

/-- Three rounds from the all-ones row scaling, then the scaled matrix. -/
def kernelOut (N B : EReal) (E : ι → κ → EReal) : ι → κ → EReal :=
  let r1 := rowStep N E (fun _ => 1)
  let c1 := colStep B E r1
  let r2 := rowStep N E c1
  let c2 := colStep B E r2
  let r3 := rowStep N E c2
  let c3 := colStep B E r3
  scaled B E r3 c3

/-! ## The reference's side: the matrix itself, transposed -/

/-- Every row `b` divided by its sum times `N`. -/
def rowNorm (N : EReal) (Q : κ → ι → EReal) (b : κ) (n : ι) : EReal :=
  Ideal.div (Q b n) ((∑ n', Q b n') * N)

/-- Every column `n` divided by its sum times `B`. -/
def colNorm (B : EReal) (Q : κ → ι → EReal) (b : κ) (n : ι) : EReal :=
  Ideal.div (Q b n) ((∑ b', Q b' n) * B)

/-- The transposed matrix over the sum of all its entries. -/
def normAll (E : ι → κ → EReal) (b : κ) (n : ι) : EReal :=
  Ideal.div (E n b) (∑ b', ∑ n', E n' b')

/-- Three rounds of row then column normalisation, times `B`, transposed back. -/
def refOut (N B : EReal) (E : ι → κ → EReal) (n : ι) (b : κ) : EReal :=
  colNorm B (rowNorm N (colNorm B (rowNorm N (colNorm B (rowNorm N (normAll E)))))) b n * B

end Cert.Sinkhorn

end
-- ==== Proof.Consts.lean ====
/-
  The float constants that both programs spell, as the extended reals their bit patterns denote at `Ideal`
  (`Ideal.ofBits`): `+0.0`, `1.0`, `32768.0` (the number of rows) and `3000.0` (the number of columns).
  One module states all four, so that every other module reads its constants here and unfolds neither
  `Ideal.ofBits` nor `Ideal.ieee`.
-/
import Idealize.ShloMosaic.PureOps.Ideal

noncomputable section

namespace Cert.Consts

open Idealize.ShloMosaic

/-- `+0.0`, the initial value of every sum, denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `32768.0 = 2 ^ 15`, the number of rows, denotes the real `32768`. -/
theorem ofBits_32768 : Ideal.ofBits .f32 0x47000000#32 = ((32768 : ℝ) : EReal) := by
  simp [Ideal.ofBits, Ideal.ieee, -EReal.coe_mul]; norm_num

/-- `3000.0 = 1.46484375 · 2 ^ 11`, the number of columns, denotes the real `3000`. -/
theorem ofBits_3000 : Ideal.ofBits .f32 0x453B8000#32 = ((3000 : ℝ) : EReal) := by
  simp [Ideal.ofBits, Ideal.ieee, -EReal.coe_mul]; norm_num

end Cert.Consts

end
-- ==== Proof.LibBlockSum.lean ====
/-
  A sum over a range of length J·K, cut into J consecutive blocks of length K, in any commutative additive monoid
  (so in particular on the extended reals, where only associativity and commutativity of + are available).
-/
import Mathlib.Algebra.BigOperators.Fin
import Mathlib.Algebra.BigOperators.Intervals

namespace Cert.Lib

open Finset

/-- The sum of `f` over `0 … J·K - 1` is the sum over the blocks `s < J` of the sums of `f (K·s + l)` over `l < K`. -/
theorem sum_range_blocks {β : Type*} [AddCommMonoid β] (f : ℕ → β) (K : ℕ) :
    ∀ J : ℕ, ∑ i ∈ range (J * K), f i = ∑ s ∈ range J, ∑ l ∈ range K, f (K * s + l)
  | 0 => by simp
  | J + 1 => by
    rw [Nat.succ_mul, sum_range_add, sum_range_blocks f K J, sum_range_succ, Nat.mul_comm J K]

/-- The same with the whole sum and the inner sums indexed by `Fin`. -/
theorem sum_fin_blocks {β : Type*} [AddCommMonoid β] (f : ℕ → β) (J K : ℕ) :
    ∑ i : Fin (J * K), f i.val = ∑ s ∈ range J, ∑ l : Fin K, f (K * s + l.val) := by
  rw [Fin.sum_univ_eq_sum_range (fun i => f i) (J * K), sum_range_blocks f K J]
  refine sum_congr rfl fun s _ => ?_
  exact (Fin.sum_univ_eq_sum_range (fun l => f (K * s + l)) K).symm

end Cert.Lib
-- ==== Proof.KI.Value1.lean ====
import proofs.«177643_j32452772888869_1_alg».proof.Proof.KI.Region1
import proofs.«177643_j32452772888869_1_alg».proof.Proof.Sinkhorn
import proofs.«177643_j32452772888869_1_alg».proof.Proof.Consts
import proofs.«177643_j32452772888869_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # Region 1 at the ideal instance: the column scaling from the row scaling

The kernel walks the 64 row blocks of the matrix `E` (32768 × 3000) and of the row scaling `c` (32768 × 1). It keeps a
`1 × 3000` accumulator: at each point it adds, for every column `b`, the sum over the block's 512 rows of
`E n b · c n`; at the last point it writes `1 / (32768 · accumulator)` to the `1 × 3000` result. On extended reals the
64 partial sums add up to the sum over all 32768 rows (only associativity and commutativity of `+` are used), so
the result is `r b = 1 / (32768 · Σₙ E n b · c n)`. -/

-- the TensorCore's buffer contents when the region is entered, at the ideal instance (floats are extended reals)
variable (V : (c : Dev nD) → (b : Ref sig .tc) → Buf (Elt Ideal) ((c : Thread nD τ).loc b))

/-- A column `[a, 1]` broadcast to `[a, b]` reads, at `(p, q)`, the column's entry in row `p`. -/
theorem colBroadcast1_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The accumulator's start: the zero row. -/
theorem zeroRow1_apply (j : S1x3000.Idx) : (k1_pay1 (F := Ideal)) j = Ideal.ofBits .f32 0x00000000#32 := by
  unfold k1_pay1
  simp only [shapeCast_self]
  rfl

/-- One point's update of the accumulator, at column `b`: what it held plus the sum over the block's 512 rows of the
    matrix entry in column `b` times the row's scaling. The bf16 → f32 widening is the identity on extended reals; the
    sum over the rows is the reduction along axis 0, whose initial word is the sum's neutral element. -/
theorem addBlock1_apply (x0 : Vec Ideal S512x3000 .bf16) (x1 : Vec Ideal S512x1 .f32) (a : Vec Ideal S1x3000 .f32) (b : Fin 3000) :
    k1_pay2 x0 x1 a (ix2 (0 : Fin 1) b) = a (ix2 (0 : Fin 1) b) + ∑ p : Fin 512, x0 (ix2 p b) * x1 (ix2 p (0 : Fin 1)) := by
  unfold k1_pay2
  simp only [shapeCast_self]
  refine (addf_apply _ _ _).trans ?_
  congr 1
  rw [shapeCast_a_1a_apply]
  refine (Ideal.multiReduction_add_single _ _ _ _ _ (ix1 b)).trans ?_
  refine Finset.sum_congr rfl fun (p : Fin 512) _ => ?_
  have e : reduces_S512x3000_S3000.lift (ix1 b) p = ix2 p b := by
    funext ax
    match ax with
    | ⟨0, _⟩ => rfl
    | ⟨1, _⟩ => rfl
  rw [e, mulf_apply, extf_apply, colBroadcast1_apply]

/-- The last point's result from the accumulator: `1 / (32768 · a)`, entry by entry. -/
theorem recip1_apply (a : Vec Ideal S1x3000 .f32) (j : S1x3000.Idx) :
    k1_pay3 a j = Ideal.div (Ideal.ofBits .f32 0x3F800000#32) (Ideal.ofBits .f32 0x47000000#32 * a j) := rfl

/-- The three index maps, decided over the 64 points: the matrix window and the row-scaling window are at row block
    `t`, the result window stays at block `(0, 0)`. -/
theorem index_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- The matrix window's block at point `t` is rows `512·t … 512·t + 511` of the matrix, all columns. -/
theorem iblk1_0_apply (c : Dev nD) (t : Fin cfg1.N) (p : Fin 512) (b : Fin 3000) (k : S32768x3000.Idx)
    (hk0 : (k 0).val = 512 * t.val + p.val) (hk1 : (k 1).val = b.val) :
    (iblk1 (F := Ideal) V c 0 t : Vec Ideal S512x3000 .bf16) (ix2 p b) = V c main_v0 k := by
  obtain ⟨e0, e1, -, -, -, -⟩ := index_facts1 t
  unfold iblk1
  rw [View.read_apply]
  show V c main_v0 _ = V c main_v0 k
  congr 1
  funext ax
  apply Fin.ext
  match ax with
  | ⟨0, _⟩ => show win1_0.index t (0 : Fin 2) * 512 + 1 * p.val = (k 0).val; rw [e0, hk0]; omega
  | ⟨1, _⟩ => show win1_0.index t (1 : Fin 2) * 3000 + 1 * b.val = (k 1).val; rw [e1, hk1]; omega

/-- The row-scaling window's block at point `t` is entries `512·t … 512·t + 511` of the scaling column. -/
theorem iblk1_1_apply (c : Dev nD) (t : Fin cfg1.N) (p : Fin 512) (k : S32768x1.Idx)
    (hk0 : (k 0).val = 512 * t.val + p.val) :
    (iblk1 (F := Ideal) V c 1 t : Vec Ideal S512x1 .f32) (ix2 p (0 : Fin 1)) = V c main_v1 k := by
  obtain ⟨-, -, e2, e3, -, -⟩ := index_facts1 t
  unfold iblk1
  rw [View.read_apply]
  show V c main_v1 _ = V c main_v1 k
  congr 1
  funext ax
  apply Fin.ext
  match ax with
  | ⟨0, _⟩ => show win1_1.index t (0 : Fin 2) * 512 + 1 * p.val = (k 0).val; rw [e2, hk0]; omega
  | ⟨1, _⟩ => show win1_1.index t (1 : Fin 2) * 1 + 1 * 0 = (k 1).val; rw [e3]; have h1 : (k 1).val < 1 := (k 1).isLt; omega

/-- The matrix and the row scaling as the region finds them, as arrays of extended reals. -/
abbrev mat1 (c : Dev nD) : S32768x3000.Idx → EReal := V c main_v0
abbrev rsc1 (c : Dev nD) : S32768x1.Idx → EReal := V c main_v1

/-- Row `i`'s term of column `b`'s sum: the matrix entry times the row's scaling (`0` past the last row, where no
    sum below reads it). -/
def term1 (c : Dev nD) (b : Fin 3000) (i : ℕ) : EReal :=
  if h : i < 32768 then mat1 V c (ix2 (⟨i, h⟩ : Fin 32768) b) * rsc1 V c (ix2 (⟨i, h⟩ : Fin 32768) (0 : Fin 1)) else 0

/-- One block's contribution at point `t`: the terms of rows `512·t … 512·t + 511`. Stated over the two blocks as
    variables of the literal block types, instantiated at the windows' blocks by `h0`, `h1`. -/
theorem blocksum1 (c : Dev nD) (b : Fin 3000) (t : Fin cfg1.N) (x0 : Vec Ideal S512x3000 .bf16) (x1 : Vec Ideal S512x1 .f32)
    (h0 : x0 = iblk1 (F := Ideal) V c 0 t) (h1 : x1 = iblk1 (F := Ideal) V c 1 t) :
    ∑ p : Fin 512, x0 (ix2 p b) * x1 (ix2 p (0 : Fin 1)) = ∑ l : Fin 512, term1 V c b (512 * t.val + l.val) := by
  have hN : cfg1.N = 64 := N_1
  have ht : t.val < 64 := hN ▸ t.isLt
  refine Finset.sum_congr rfl fun p _ => ?_
  have hp : p.val < 512 := p.isLt
  have hi : 512 * t.val + p.val < 32768 := by omega
  unfold term1
  rw [dif_pos hi, h0, h1, iblk1_0_apply V c t p b (ix2 (⟨512 * t.val + p.val, hi⟩ : Fin 32768) b) rfl rfl,
    iblk1_1_apply V c t p (ix2 (⟨512 * t.val + p.val, hi⟩ : Fin 32768) (0 : Fin 1)) rfl]

/-- The accumulator after point `n`, at column `b`: the terms of all rows of the blocks `0 … n`, block by block.
    By induction on the point; only `0 + x = x` and the shape of a sum over a range are used. -/
theorem acc1_apply (c : Dev nD) (b : Fin 3000) : ∀ (n : ℕ) (h : n < cfg1.N),
    acc1 (F := Ideal) V c n h (ix2 (0 : Fin 1) b) = ∑ s ∈ Finset.range (n + 1), ∑ l : Fin 512, term1 V c b (512 * s + l.val)
  | 0, h => by
    rw [acc1_zero, addBlock1_apply, zeroRow1_apply, Cert.Consts.ofBits_zero, zero_add, Finset.sum_range_one,
      blocksum1 V c b ⟨0, h⟩ _ _ rfl rfl]
  | n + 1, h => by
    rw [acc1_succ, addBlock1_apply, acc1_apply c b n, Finset.sum_range_succ _ (n + 1),
      blocksum1 V c b ⟨n + 1, h⟩ _ _ rfl rfl]

/-- The last point of the grid, the only one whose result block is written back. -/
abbrev last1 : Fin cfg1.N := ⟨63, by rw [show cfg1.N = 64 from N_1]; decide⟩

/-- The whole result array the one write-back leaves: the reciprocal step applied to the accumulator after the last point. -/
abbrev res1 (c : Dev nD) : S1x3000.Idx → EReal := k1_pay3 (acc1 (F := Ideal) V c 63 last1.isLt)

/-- The accumulator depends on the point's number only, not on the proof that it is a point. -/
theorem acc1_congr (c : Dev nD) {n n' : ℕ} (e : n = n') (h : n < cfg1.N) (h' : n' < cfg1.N) :
    acc1 (F := Ideal) V c n h = acc1 (F := Ideal) V c n' h' := by
  subst e; rfl

/-- The result window's block is at `(0, 0)` at every point and is the whole `1 × 3000` array: what a write-back moves
    of a staging buffer's contents `X` is `X`, and reading the array `X` through the window gives `X` again. -/
theorem cut_eq_read1 (t : Fin cfg1.N) (X : S1x3000.Idx → EReal) :
    (cfg1.win 2).cut (grid1.coords t) X = ((cfg1.win 2).blk t).view.read (Elt Ideal) X := by
  obtain ⟨-, -, -, -, e4, e5⟩ := index_facts1 t
  funext j
  rw [View.read_apply]
  show X j = X (((cfg1.win 2).blk t).view.emb j)
  refine congrArg X (funext fun ax => Fin.ext ?_)
  match ax with
  | ⟨0, _⟩ => show (j 0).val = win1_2.index t (0 : Fin 2) * 1 + 1 * (j 0).val; rw [e4]; omega
  | ⟨1, _⟩ => show (j 1).val = win1_2.index t (1 : Fin 2) * 3000 + 1 * (j 1).val; rw [e5]; omega

/-- The one write-back, at the last point, writes `res1`: the result window's block is at `(0, 0)` and is the whole
    `1 × 3000` array, so reading it through the window is reading the array. -/
theorem flushed1_eq (c : Dev nD) (t : Fin cfg1.N) (hf : (cfg1.win 2).flush t = true) :
    (dat1 (F := Ideal) V c).flushed 2 t = ((cfg1.win 2).blk t).view.read (Elt Ideal) (res1 V c) := by
  have hN : cfg1.N = 64 := N_1
  have h63 : t.val = 63 := by have := (flush1_2 t).mp hf; have := t.isLt; omega
  show (cfg1.win 2).cut (grid1.coords t) ((dat1 (F := Ideal) V c).after 2 t) = _
  rw [after1_2, acc1_congr V c h63 t.isLt last1.isLt]
  exact cut_eq_read1 t _

/-- Every index of the result array is in the last point's block. -/
theorem cover1 (i : S1x3000.Idx) :
    ∃ t : Fin cfg1.N, (cfg1.win 2).flush t = true ∧ i ∈ ((cfg1.win 2).blk t).view.set := by
  refine ⟨last1, (flush1_2 last1).mpr rfl, ?_⟩
  show i ∈ ((View.whole main_v2).slice (win1_2.rect last1)).set
  rw [View.set_slice_whole, Rect.mem_set_unit]
  obtain ⟨-, -, -, -, e4, e5⟩ := index_facts1 last1
  have h0 : (i 0).val < 1 := (i 0).isLt
  have h1 : (i 1).val < 3000 := (i 1).isLt
  intro a
  match a with
  | ⟨0, _⟩ =>
    show win1_2.index last1 (0 : Fin 2) * 1 ≤ (i 0).val ∧ (i 0).val < win1_2.index last1 (0 : Fin 2) * 1 + 1
    rw [e4]; omega
  | ⟨1, _⟩ =>
    show win1_2.index last1 (1 : Fin 2) * 3000 ≤ (i 1).val ∧ (i 1).val < win1_2.index last1 (1 : Fin 2) * 3000 + 3000
    rw [e5]; omega

/-- The result array after the run is `res1`. -/
theorem arr1_eq (c : Dev nD) : (dat1 (F := Ideal) V c).arrAt 2 cfg1.N = res1 V c :=
  (dat1 (F := Ideal) V c).arrAt_eq_of_cover 2 (res1 V c) (flushed1_eq V c) cover1

/-- Entry `b` of the result array after the run is the column scaling `1 / (32768 · Σₙ E n b · c n)` of the matrix and
    the row scaling as the region finds them: the 64 block sums the accumulator gathered are the sum over all 32768 rows. -/
theorem arr1_apply (c : Dev nD) (b : Fin 3000) :
    (dat1 (F := Ideal) V c).arrAt 2 cfg1.N (ix2 (0 : Fin 1) b)
      = Cert.Sinkhorn.rowStep (ι := Fin 32768) (κ := Fin 3000) ((32768 : ℝ) : EReal)
          (fun n b => (dat1 (F := Ideal) V c).A 0 (ix2 n b)) (fun n => (dat1 (F := Ideal) V c).A 1 (ix2 n (0 : Fin 1))) b := by
  rw [arr1_eq]
  show k1_pay3 (acc1 (F := Ideal) V c 63 last1.isLt) (ix2 (0 : Fin 1) b) = _
  rw [recip1_apply, acc1_apply, Cert.Consts.ofBits_one, Cert.Consts.ofBits_32768]
  unfold Cert.Sinkhorn.rowStep
  refine congrArg (fun x => Ideal.div 1 (((32768 : ℝ) : EReal) * x)) ?_
  refine (Cert.Lib.sum_fin_blocks (term1 V c b) 64 512).symm.trans ?_
  show ∑ i : Fin 32768, term1 V c b i.val = _
  refine Finset.sum_congr rfl fun n _ => ?_
  unfold term1
  rw [dif_pos n.isLt, A_eq1, A_eq1]

end Cert.KernelIdeal.Hand

end
-- ==== Proof.KI.Value2.lean ====
import proofs.«177643_j32452772888869_1_alg».proof.Proof.Gen.KernelIdeal.Launch
import proofs.«177643_j32452772888869_1_alg».proof.Proof.Gen.KernelIdeal.Skeleton
import proofs.«177643_j32452772888869_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«177643_j32452772888869_1_alg».proof.Proof.KI.Region2
import proofs.«177643_j32452772888869_1_alg».proof.Proof.Sinkhorn
import proofs.«177643_j32452772888869_1_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

-- the TensorCore's buffer contents when the region is entered
variable (V : (c : Dev nD) → (b : Ref sig .tc) → Buf (Elt Ideal) ((c : Thread nD τ).loc b))

/-! # What the column-scaling update leaves in its output array, at the ideal values

The region's output is the column vector of row scalings. Row `n` of it ends at
`1 / (3000 · Σ_b E[n, b] · r[b])`, where `E` is the matrix and `r` the row vector of column scalings the region finds:
the body's payload is that quotient entry by entry (the lane sum of the products, times the broadcast `3000`, under the
broadcast `1`), block `t` of the output is rows `512·t … 512·t + 511`, the matrix's block likewise, the column scalings
are read whole at every point, and the 64 blocks cover the 32768 rows. -/

/-! ## The payload at an index -/

/-- A vector of `a` entries cast to a column reads, at `(p, u)`, the operand at `p`: the two row-major positions agree. -/
theorem shapeCast_col2_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The index the sum over the columns inserts into row `p` at column `k` is `(p, k)`. -/
theorem lift2_eq (h : S512x3000.Reduces [1] S512) (p : Fin 512) (k : Fin 3000) :
    h.lift (ix1 p) k = ix2 p k := by
  funext a; apply Fin.ext
  match a with
  | ⟨0, _⟩ => rfl
  | ⟨1, _⟩ => rfl

/-- The payload at row `p` of a block: one over 3000 times the sum over the columns of the matrix block's entry times
    the column scaling. The casts to the same shape and the widening of the matrix entries are the identity at the ideal
    values; the broadcast of the row vector reads its one row; the sum over the lane axis is a plain sum over the 3000
    columns; the two float constants denote `3000` and `1`. -/
theorem pay2_apply (x0 : FVec Ideal S512x3000 .bf16) (x1 : FVec Ideal S1x3000 .f32) (p : Fin 512) :
    k2_pay1 (F := Ideal) x0 x1 (ix2 p (0 : Fin 1))
      = Ideal.div 1 (((3000 : ℝ) : EReal) * ∑ b : Fin 3000, x0 (ix2 p b) * x1 (ix2 (0 : Fin 1) b)) := by
  unfold k2_pay1
  rw [divf_apply, broadcast_apply, mulf_apply, broadcast_apply]
  refine congrArg₂ Ideal.div Cert.Consts.ofBits_one (congrArg₂ (· * ·) Cert.Consts.ofBits_3000 ?_)
  refine (shapeCast_col2_apply _ _ p 0).trans ?_
  refine (Ideal.multiReduction_add_single _ _ _ _ _ (ix1 p)).trans ?_
  refine Finset.sum_congr rfl fun (b : Fin 3000) _ => ?_
  rw [lift2_eq, mulf_apply, extf_apply, shapeCast_self, broadcastTo_1b_ab_apply, shapeCast_self]

/-! ## From blocks to the array -/

theorem hz2 : (![0, 0] : Fin 2 → Nat) = fun _ => 0 := funext fun a => by fin_cases a <;> rfl

/-- The row scalings as ONE function of the matrix and of the column scalings: row `n` is
    `1 / (3000 · Σ_b E[n, b] · r[b])`. -/
def rowScale2 (aE : S32768x3000.Idx → EReal) (aR : S1x3000.Idx → EReal) : S32768x1.Idx → EReal :=
  fun i => Cert.Sinkhorn.colStep (ι := Fin 32768) (κ := Fin 3000) ((3000 : ℝ) : EReal)
    (fun n b => aE (ix2 n b)) (fun b => aR (ix2 (0 : Fin 1) b)) (i 0)

/-- The printed index maps, decided once over the 64 grid points: the matrix's and the output's block index is
    `(t, 0)`, the column scalings' is `(0, 0)`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The matrix window's block at point `t` is rows `512·t … 512·t + 511` of the matrix: an element of a block sits, on
    each axis, at the block index times the block's size plus its own coordinate. -/
theorem iblk2_0_apply (c : Dev nD) (t : Fin cfg2.N) (p : Fin 512) (b : Fin 3000) (k : S32768x3000.Idx)
    (hk0 : (k 0).val = 512 * t.val + p.val) (hk1 : (k 1).val = b.val) :
    (iblk2 V c 0 t : Vec Ideal S512x3000 .bf16) (ix2 p b) = (V c (Pipeline.arrRef spec2 0) : S32768x3000.Idx → EReal) k := by
  obtain ⟨e0, e1, -⟩ := idx_facts2 t
  unfold iblk2
  rw [View.read_apply]
  refine congrArg (V c (Pipeline.arrRef spec2 0) : S32768x3000.Idx → EReal) (funext fun a => Fin.ext ?_)
  match a with
  | ⟨0, _⟩ => show win2_0.index t (0 : Fin 2) * 512 + 1 * p.val = (k 0).val; rw [e0, hk0]; omega
  | ⟨1, _⟩ => show win2_0.index t (1 : Fin 2) * 3000 + 1 * b.val = (k 1).val; rw [e1, hk1]; omega

/-- The column scalings' window is the whole row vector at every point. -/
theorem iblk2_1_apply (c : Dev nD) (t : Fin cfg2.N) (b : Fin 3000) :
    (iblk2 V c 1 t : Vec Ideal S1x3000 .f32) (ix2 (0 : Fin 1) b) = (V c (Pipeline.arrRef spec2 1) : S1x3000.Idx → EReal) (ix2 (0 : Fin 1) b) := by
  obtain ⟨-, -, e0, e1, -⟩ := idx_facts2 t
  unfold iblk2
  rw [View.read_apply]
  refine congrArg (V c (Pipeline.arrRef spec2 1) : S1x3000.Idx → EReal) (funext fun a => Fin.ext ?_)
  match a with
  | ⟨0, _⟩ => show win2_1.index t (0 : Fin 2) * 1 + 1 * 0 = 0; rw [e0]
  | ⟨1, _⟩ => show win2_1.index t (1 : Fin 2) * 3000 + 1 * b.val = b.val; rw [e1]; omega

/-- WHAT POINT `t` WRITES BACK is block `t` of `rowScale2` of the two arrays as the region finds them: the body's one
    store is of the whole buffer, its two loads are of the whole blocks, and row `p` of the block is row `512·t + p` of
    the array on both sides. -/
theorem flushed2_eq (c : Dev nD) (t : Fin cfg2.N) :
    (dat2 V c).flushed 2 t = ((cfg2.win 2).blk t).view.read (Elt Ideal)
      (rowScale2 (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S512x3000) hz2, View.ld_unit_zero (S := S1x3000) hz2]
  obtain ⟨-, -, -, -, e0, e1⟩ := idx_facts2 t
  funext j
  obtain ⟨p, u, rfl⟩ : ∃ (p : Fin 512) (u : Fin 1), j = ix2 p u := ⟨j 0, j 1, eq_ix2 j⟩
  obtain rfl : u = 0 := Subsingleton.elim _ _
  rw [View.read_apply]
  show k2_pay1 (F := Ideal) (iblk2 V c 0 t) (iblk2 V c 1 t) (ix2 p 0) = rowScale2 _ _ (((cfg2.win 2).blk t).view.emb (ix2 p 0))
  refine (pay2_apply _ _ p).trans ?_
  unfold rowScale2 Cert.Sinkhorn.colStep
  refine congrArg (fun s => Ideal.div 1 (((3000 : ℝ) : EReal) * s)) (Finset.sum_congr rfl fun b _ => ?_)
  refine congrArg₂ (· * ·) (iblk2_0_apply V c t p b _ ?_ rfl) (iblk2_1_apply V c t b)
  show win2_2.index t (0 : Fin 2) * 512 + 1 * p.val = 512 * t.val + p.val
  rw [e0]; omega

/-- An index of the output array is in point `t`'s block iff each coordinate is in the block's range on its axis. -/
theorem mem_blk2 (t : Fin cfg2.N) (i : S32768x1.Idx) :
    i ∈ ((cfg2.win 2).blk t).view.set ↔ ∀ a : Fin 2, win2_2.index t a * S512x1.size a ≤ (i a).val ∧ (i a).val < win2_2.index t a * S512x1.size a + S512x1.size a := by
  show i ∈ ((View.whole (Pipeline.arrRef spec2 2)).slice (win2_2.rect t)).set ↔ _
  rw [View.set_slice_whole, Rect.mem_set_unit]
  exact Iff.rfl

/-- The blocks cover the array: row `n` is in the block of point `n / 512`, which writes back like every point. -/
theorem cover2 (i : S32768x1.Idx) : ∃ t : Fin cfg2.N, (cfg2.win 2).flush t = true ∧ i ∈ ((cfg2.win 2).blk t).view.set := by
  have hi0 : (i 0).val < 32768 := (i 0).isLt
  have hi1 : (i 1).val < 1 := (i 1).isLt
  have hN : grid2.N = 64 := N_2
  obtain ⟨t, ht⟩ : ∃ t : Fin cfg2.N, t.val = (i 0).val / 512 :=
    ⟨⟨(i 0).val / 512, by show (i 0).val / 512 < grid2.N; rw [hN]; omega⟩, rfl⟩
  obtain ⟨-, -, -, -, e0, e1⟩ := idx_facts2 t
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; rw [e0, ht]; omega
  | ⟨1, _⟩ => show win2_2.index t (1 : Fin 2) * 1 ≤ (i 1).val ∧ (i 1).val < win2_2.index t (1 : Fin 2) * 1 + 1; rw [e1]; omega

/-- THE ARRAY after the run: `rowScale2` of the matrix and the column scalings the region finds. -/
theorem final2 (c : Dev nD) :
    (dat2 V c).arrAt 2 cfg2.N = rowScale2 (V c (Pipeline.arrRef spec2 0)) (V c (Pipeline.arrRef spec2 1)) :=
  (dat2 V c).arrAt_eq_of_cover 2 _ (fun t _ => flushed2_eq V c t) cover2

/-- Row `n` of the output array after the run, over the region's two input arrays. -/
theorem arr2_apply (c : Dev nD) (n : Fin 32768) :
    (dat2 (F := Ideal) V c).arrAt 2 cfg2.N (ix2 n (0 : Fin 1))
      = Cert.Sinkhorn.colStep (ι := Fin 32768) (κ := Fin 3000) ((3000 : ℝ) : EReal)
          (fun n b => (dat2 (F := Ideal) V c).A 0 (ix2 n b)) (fun b => (dat2 (F := Ideal) V c).A 1 (ix2 (0 : Fin 1) b)) n := by
  rw [final2]
  rfl

end Cert.KernelIdeal.Hand

end
-- ==== Proof.KI.Value7.lean ====
import proofs.«177643_j32452772888869_1_alg».proof.Proof.Gen.KernelIdeal.Launch
import proofs.«177643_j32452772888869_1_alg».proof.Proof.Gen.KernelIdeal.Skeleton
import proofs.«177643_j32452772888869_1_alg».proof.Proof.Gen.KernelIdeal.Points
import proofs.«177643_j32452772888869_1_alg».proof.Proof.KI.Region7
import proofs.«177643_j32452772888869_1_alg».proof.Proof.Sinkhorn
import proofs.«177643_j32452772888869_1_alg».proof.Proof.Consts
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the TensorCore's buffer contents when the region is entered
variable (V : (c : Dev nD) → (b : Ref sig .tc) → Buf (Elt Ideal) ((c : Thread nD τ).loc b))

/-! # The value of the last region: the result array is `3000 · E · r · c`, entry by entry

Rows `n` of the matrix run over 32768, columns `b` over 3000. Grid point `t` handles rows `512·t … 512·t + 511`: it
reads that block of `E`, the whole row vector `r`, that block of the column vector `c`, and stores the product over
that block of the result. The 64 blocks tile the result, so it ends as one function of the three input arrays. -/

/-! ## The body's payload at an entry -/

theorem hz7 : (![0, 0] : Fin 2 → Nat) = fun _ => 0 := funext fun a => by fin_cases a <;> rfl

/-- An `[a, 1]` column spread across `b` columns reads, at `(p, q)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The stored value at row `p`, column `q` of a block: `((3000 · E) · r) · c`, with `r` read at the column and
    `c` at the row (widening the 16-bit `E` changes nothing on the extended reals). -/
theorem pay7_apply (x0 : Vec Ideal S512x3000 .bf16) (x1 : Vec Ideal S1x3000 .f32) (x2 : Vec Ideal S512x1 .f32)
    (p : Fin 512) (q : Fin 3000) :
    k7_pay1 x0 x1 x2 (ix2 p q)
      = Ideal.ofBits .f32 0x453B8000#32 * (x0 (ix2 p q) : EReal) * (x1 (ix2 (0 : Fin 1) q) : EReal) * (x2 (ix2 p (0 : Fin 1)) : EReal) := by
  unfold k7_pay1
  simp only [mulf_apply, broadcast_apply, extf_apply, shapeCast_self]
  rw [broadcastTo_1b_ab_apply, broadcastTo_a1_ab_apply]
  rfl

/-! ## The blocks as parts of the arrays -/

/-- The printed index maps over the 64 points: the blocks of `E`, of `c` and of the result move down the rows with
    the point, the block of `r` stays. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

/-- The block of `E` at point `t`: rows `512·t + p` of the array. -/
theorem iblk7_0_apply (c : Dev nD) (t : Fin cfg7.N) (p : Fin 512) (q : Fin 3000) (n : Fin 32768)
    (hn : n.val = t.val * 512 + p.val) :
    (iblk7 V c 0 t : Vec Ideal S512x3000 .bf16) (ix2 p q) = (V c main_v0 : S32768x3000.Idx → EReal) (ix2 n q) := by
  obtain ⟨e0, e1, -⟩ := idx_facts7 t
  unfold iblk7
  rw [View.read_apply]
  show V c main_v0 _ = V c main_v0 _
  congr 1
  funext a
  apply Fin.ext
  match a with
  | ⟨0, _⟩ => show win7_0.index t (0 : Fin 2) * 512 + 1 * p.val = n.val; rw [e0, hn]; omega
  | ⟨1, _⟩ => show win7_0.index t (1 : Fin 2) * 3000 + 1 * q.val = q.val; rw [e1]; omega

/-- The block of `r` at any point: the whole row vector. -/
theorem iblk7_1_apply (c : Dev nD) (t : Fin cfg7.N) (q : Fin 3000) :
    (iblk7 V c 1 t : Vec Ideal S1x3000 .f32) (ix2 (0 : Fin 1) q) = (V c main_v6 : S1x3000.Idx → EReal) (ix2 (0 : Fin 1) q) := by
  obtain ⟨-, -, e0, e1, -⟩ := idx_facts7 t
  unfold iblk7
  rw [View.read_apply]
  show V c main_v6 _ = V c main_v6 _
  congr 1
  funext a
  apply Fin.ext
  match a with
  | ⟨0, _⟩ => show win7_1.index t (0 : Fin 2) * 1 + 1 * 0 = 0; rw [e0]
  | ⟨1, _⟩ => show win7_1.index t (1 : Fin 2) * 3000 + 1 * q.val = q.val; rw [e1]; omega

/-- The block of `c` at point `t`: entries `512·t + p` of the column vector. -/
theorem iblk7_2_apply (c : Dev nD) (t : Fin cfg7.N) (p : Fin 512) (n : Fin 32768)
    (hn : n.val = t.val * 512 + p.val) :
    (iblk7 V c 2 t : Vec Ideal S512x1 .f32) (ix2 p (0 : Fin 1)) = (V c main_v7 : S32768x1.Idx → EReal) (ix2 n (0 : Fin 1)) := by
  obtain ⟨-, -, -, -, e0, e1, -⟩ := idx_facts7 t
  unfold iblk7
  rw [View.read_apply]
  show V c main_v7 _ = V c main_v7 _
  congr 1
  funext a
  apply Fin.ext
  match a with
  | ⟨0, _⟩ => show win7_2.index t (0 : Fin 2) * 512 + 1 * p.val = n.val; rw [e0, hn]; omega
  | ⟨1, _⟩ => show win7_2.index t (1 : Fin 2) * 1 + 1 * 0 = 0; rw [e1]

/-! ## What a point writes back, and the array after the run -/

/-- The result array as ONE function of the three input arrays as the region finds them: `3000 · E n b · r b · c n`. -/
def G7 (c : Dev nD) : S32768x3000.Idx → EReal := fun i =>
  Cert.Sinkhorn.scaled (ι := Fin 32768) (κ := Fin 3000) ((3000 : ℝ) : EReal)
    (fun n b => (V c main_v0 : S32768x3000.Idx → EReal) (ix2 n b))
    (fun b => (V c main_v6 : S1x3000.Idx → EReal) (ix2 (0 : Fin 1) b))
    (fun n => (V c main_v7 : S32768x1.Idx → EReal) (ix2 n (0 : Fin 1))) (i 0) (i 1)

/-- Point `t` writes back block `t` of `G7`: the payload at `(p, q)` of the block reads `E` and `c` at row
    `512·t + p` and `r` at column `q`, and the result's block sits at the same rows. -/
theorem flushed7_eq (c : Dev nD) (t : Fin cfg7.N) :
    (dat7 V c).flushed 3 t = ((cfg7.win 3).blk t).view.read (Elt Ideal) (G7 V c) := by
  show (cfg7.win 3).cut (grid7.coords t) ((dat7 V c).after 3 t) = _
  rw [after7_3]
  unfold out7_3
  rw [View.canon_unit_zero hz7]
  simp only [View.ld_unit_zero (S := S512x3000) hz7, View.ld_unit_zero (S := S1x3000) hz7, View.ld_unit_zero (S := S512x1) hz7]
  funext j
  obtain ⟨p, q, rfl⟩ : ∃ (p : Fin 512) (q : Fin 3000), j = ix2 p q := ⟨j 0, j 1, eq_ix2 j⟩
  have ht : t.val < 64 := by have := t.isLt; have hN : cfg7.N = 64 := N_7; omega
  have hp : p.val < 512 := p.isLt
  obtain ⟨n, hn⟩ : ∃ n : Fin 32768, n.val = t.val * 512 + p.val := ⟨⟨t.val * 512 + p.val, by omega⟩, rfl⟩
  obtain ⟨-, -, -, -, -, -, e0, e1⟩ := idx_facts7 t
  have h3 : ((cfg7.win 3).blk t).view.emb (ix2 p q) = (ix2 n q : S32768x3000.Idx) := by
    funext a; apply Fin.ext
    match a with
    | ⟨0, _⟩ => show win7_3.index t (0 : Fin 2) * 512 + 1 * p.val = n.val; rw [e0, hn]; omega
    | ⟨1, _⟩ => show win7_3.index t (1 : Fin 2) * 3000 + 1 * q.val = q.val; rw [e1]; omega
  refine (pay7_apply _ _ _ p q).trans ?_
  rw [iblk7_0_apply V c t p q n hn, iblk7_1_apply V c t q, iblk7_2_apply V c t p n hn, Cert.Consts.ofBits_3000]
  rw [View.read_apply]
  show _ = G7 V c (((cfg7.win 3).blk t).view.emb (ix2 p q))
  rw [h3]
  rfl

/-- An index of the result is in point `t`'s block iff each coordinate is in the block's range on its axis. -/
theorem mem_blk7 (t : Fin cfg7.N) (i : S32768x3000.Idx) :
    i ∈ ((cfg7.win 3).blk t).view.set ↔ ∀ a : Fin 2, win7_3.index t a * S512x3000.size a ≤ (i a).val ∧ (i a).val < win7_3.index t a * S512x3000.size a + S512x3000.size a := by
  show i ∈ ((View.whole main_v8).slice (win7_3.rect t)).set ↔ _
  rw [View.set_slice_whole, Rect.mem_set_unit]
  exact Iff.rfl

/-- The 64 blocks of 512 rows tile the 32768 rows: row `n` is in the block of point `n / 512`. -/
theorem cover7 (i : S32768x3000.Idx) :
    ∃ t : Fin cfg7.N, (cfg7.win 3).flush t = true ∧ i ∈ ((cfg7.win 3).blk t).view.set := by
  have hi0 : (i 0).val < 32768 := (i 0).isLt
  have hi1 : (i 1).val < 3000 := (i 1).isLt
  have hN : cfg7.N = 64 := N_7
  obtain ⟨t, htv⟩ : ∃ t : Fin cfg7.N, t.val = (i 0).val / 512 := ⟨⟨(i 0).val / 512, by omega⟩, rfl⟩
  obtain ⟨-, -, -, -, -, -, e0, e1⟩ := idx_facts7 t
  refine ⟨t, flush7_3 t, ?_⟩
  rw [mem_blk7]
  intro a
  match a with
  | ⟨0, _⟩ => show win7_3.index t (0 : Fin 2) * 512 ≤ (i 0).val ∧ (i 0).val < win7_3.index t (0 : Fin 2) * 512 + 512; rw [e0, htv]; omega
  | ⟨1, _⟩ => show win7_3.index t (1 : Fin 2) * 3000 ≤ (i 1).val ∧ (i 1).val < win7_3.index t (1 : Fin 2) * 3000 + 3000; rw [e1]; omega

/-- So the result array ends holding `G7`. -/
theorem arr7_eq (c : Dev nD) : (dat7 (F := Ideal) V c).arrAt 3 cfg7.N = G7 V c :=
  (dat7 (F := Ideal) V c).arrAt_eq_of_cover 3 (G7 V c) (fun t _ => flushed7_eq V c t) (cover7)

/-- Entry `(n, b)` of the result after the run is `3000 · E n b · r b · c n` of the region's three input arrays. -/
theorem arr7_apply (c : Dev nD) (n : Fin 32768) (b : Fin 3000) :
    (dat7 (F := Ideal) V c).arrAt 3 cfg7.N (ix2 n b)
      = Cert.Sinkhorn.scaled (ι := Fin 32768) (κ := Fin 3000) ((3000 : ℝ) : EReal)
          (fun n b => (dat7 (F := Ideal) V c).A 0 (ix2 n b)) (fun b => (dat7 (F := Ideal) V c).A 1 (ix2 (0 : Fin 1) b)) (fun n => (dat7 (F := Ideal) V c).A 2 (ix2 n (0 : Fin 1))) n b := by
  rw [arr7_eq, A_eq7 V c 0, A_eq7 V c 1, A_eq7 V c 2]
  rfl

end Cert.KernelIdeal.Hand

end
-- ==== Proof.KI.KernelValue.lean ====
/-
  What the program leaves in its result array, at the ideal instance: the eight regions' values chained.

  Region 0 leaves the matrix of exponentials `E`, which every later item keeps (each later region only reads it). From the
  all-ones column the host stretch writes, the regions alternate the column scaling `r = 1 / (32768 · Σₙ E·c)` and the row
  scaling `c = 1 / (3000 · Σ_b E·r)` three times, and the last region multiplies `3000 · E · r · c`: the kernel's side of
  the Sinkhorn–Knopp computation.
-/
import proofs.«177643_j32452772888869_1_alg».proof.Proof.KI.Fold
import proofs.«177643_j32452772888869_1_alg».proof.Proof.KI.Value0
import proofs.«177643_j32452772888869_1_alg».proof.Proof.KI.Value1
import proofs.«177643_j32452772888869_1_alg».proof.Proof.KI.Value2
import proofs.«177643_j32452772888869_1_alg».proof.Proof.KI.Value3
import proofs.«177643_j32452772888869_1_alg».proof.Proof.KI.Value4
import proofs.«177643_j32452772888869_1_alg».proof.Proof.KI.Value5
import proofs.«177643_j32452772888869_1_alg».proof.Proof.KI.Value6
import proofs.«177643_j32452772888869_1_alg».proof.Proof.KI.Value7
import proofs.«177643_j32452772888869_1_alg».proof.Proof.Sinkhorn
import proofs.«177643_j32452772888869_1_alg».proof.Proof.Consts
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The matrix of exponentials of the argument array. -/
abbrev Emat (c : Dev nD) : Fin 32768 → Fin 3000 → EReal := fun n b => Ideal.exp (m ((c : Thread nD τ).loc main_arg0) (ix2 n b))
/-- The two extents as extended reals. -/
abbrev Nn : EReal := ((32768 : ℝ) : EReal)
abbrev Bb : EReal := ((3000 : ℝ) : EReal)

/-! ## The matrix of exponentials: written by region 0, kept by everything after -/

theorem W1_v0 (c : Dev nD) (n : Fin 32768) (b : Fin 3000) :
    W1 m c (Proc.devRef .tc main_v0) (ix2 n b) = Emat m c n b := by
  rw [show W1 m c (Proc.devRef .tc main_v0) = (dat0 (V0 m) c).arrAt 1 cfg0.N from W1_arr m c 1, arr0_apply, A_eq0]

theorem W2_v0 (c : Dev nD) : W2 m c (Proc.devRef .tc main_v0) = W1 m c (Proc.devRef .tc main_v0) := by
  show StableHlo.after hostOps1 (W1 m c) (Proc.devRef .tc main_v0) = _
  after_results
theorem W3_v0 (c : Dev nD) : W3 m c (Proc.devRef .tc main_v0) = W2 m c (Proc.devRef .tc main_v0) :=
  (W3_arr m c 0).trans (((dat1 (V2 m) c).arrAt_in 0 rfl _).trans (A_eq1 (V2 m) c 0))
theorem W4_v0 (c : Dev nD) : W4 m c (Proc.devRef .tc main_v0) = W3 m c (Proc.devRef .tc main_v0) :=
  (W4_arr m c 0).trans (((dat2 (V3 m) c).arrAt_in 0 rfl _).trans (A_eq2 (V3 m) c 0))
theorem W5_v0 (c : Dev nD) : W5 m c (Proc.devRef .tc main_v0) = W4 m c (Proc.devRef .tc main_v0) :=
  (W5_arr m c 0).trans (((dat3 (V4 m) c).arrAt_in 0 rfl _).trans (A_eq3 (V4 m) c 0))
theorem W6_v0 (c : Dev nD) : W6 m c (Proc.devRef .tc main_v0) = W5 m c (Proc.devRef .tc main_v0) :=
  (W6_arr m c 0).trans (((dat4 (V5 m) c).arrAt_in 0 rfl _).trans (A_eq4 (V5 m) c 0))
theorem W7_v0 (c : Dev nD) : W7 m c (Proc.devRef .tc main_v0) = W6 m c (Proc.devRef .tc main_v0) :=
  (W7_arr m c 0).trans (((dat5 (V6 m) c).arrAt_in 0 rfl _).trans (A_eq5 (V6 m) c 0))
theorem W8_v0 (c : Dev nD) : W8 m c (Proc.devRef .tc main_v0) = W7 m c (Proc.devRef .tc main_v0) :=
  (W8_arr m c 0).trans (((dat6 (V7 m) c).arrAt_in 0 rfl _).trans (A_eq6 (V7 m) c 0))

theorem E2 (c : Dev nD) (n : Fin 32768) (b : Fin 3000) : W2 m c (Proc.devRef .tc main_v0) (ix2 n b) = Emat m c n b := by
  rw [W2_v0, W1_v0]
theorem E3 (c : Dev nD) (n : Fin 32768) (b : Fin 3000) : W3 m c (Proc.devRef .tc main_v0) (ix2 n b) = Emat m c n b := by
  rw [W3_v0, E2]
theorem E4 (c : Dev nD) (n : Fin 32768) (b : Fin 3000) : W4 m c (Proc.devRef .tc main_v0) (ix2 n b) = Emat m c n b := by
  rw [W4_v0, E3]
theorem E5 (c : Dev nD) (n : Fin 32768) (b : Fin 3000) : W5 m c (Proc.devRef .tc main_v0) (ix2 n b) = Emat m c n b := by
  rw [W5_v0, E4]
theorem E6 (c : Dev nD) (n : Fin 32768) (b : Fin 3000) : W6 m c (Proc.devRef .tc main_v0) (ix2 n b) = Emat m c n b := by
  rw [W6_v0, E5]
theorem E7 (c : Dev nD) (n : Fin 32768) (b : Fin 3000) : W7 m c (Proc.devRef .tc main_v0) (ix2 n b) = Emat m c n b := by
  rw [W7_v0, E6]
theorem E8 (c : Dev nD) (n : Fin 32768) (b : Fin 3000) : W8 m c (Proc.devRef .tc main_v0) (ix2 n b) = Emat m c n b := by
  rw [W8_v0, E7]

/-! ## The all-ones column the host stretch writes -/

theorem W2_v1 (c : Dev nD) (i : S32768x1.Idx) : @Eq EReal (W2 m c (Proc.devRef .tc main_v1) i) 1 := by
  have e : W2 m c (Proc.devRef .tc main_v1) = broadcastInDim S32768x1 ![] bcast_S_S32768x1 (constant (F := Ideal) S_ .f32 0x3F800000#32) := by
    show StableHlo.after hostOps1 (W1 m c) (Proc.devRef .tc main_v1) = _
    after_results
  rw [e]
  simp only [broadcastInDim, constant]
  exact Cert.Consts.ofBits_one

/-! ## The scaling vectors, round by round -/

def r1 (c : Dev nD) : Fin 3000 → EReal := Cert.Sinkhorn.rowStep Nn (Emat m c) (fun _ => 1)
def c1 (c : Dev nD) : Fin 32768 → EReal := Cert.Sinkhorn.colStep Bb (Emat m c) (r1 m c)
def r2 (c : Dev nD) : Fin 3000 → EReal := Cert.Sinkhorn.rowStep Nn (Emat m c) (c1 m c)
def c2 (c : Dev nD) : Fin 32768 → EReal := Cert.Sinkhorn.colStep Bb (Emat m c) (r2 m c)
def r3 (c : Dev nD) : Fin 3000 → EReal := Cert.Sinkhorn.rowStep Nn (Emat m c) (c2 m c)
def c3 (c : Dev nD) : Fin 32768 → EReal := Cert.Sinkhorn.colStep Bb (Emat m c) (r3 m c)

/-- Region 1: the first column scaling, from the all-ones column. -/
theorem W3_v2 (c : Dev nD) (b : Fin 3000) : W3 m c (Proc.devRef .tc main_v2) (ix2 (0 : Fin 1) b) = r1 m c b := by
  rw [show W3 m c (Proc.devRef .tc main_v2) = (dat1 (V2 m) c).arrAt 2 cfg1.N from W3_arr m c 2, arr1_apply]
  have hE : (fun n b => (dat1 (F := Ideal) (V2 m) c).A 0 (ix2 n b)) = Emat m c := by
    funext n b; rw [A_eq1]; exact E2 m c n b
  have hc : (fun n => (dat1 (F := Ideal) (V2 m) c).A 1 (ix2 n (0 : Fin 1))) = fun _ => (1 : EReal) := by
    funext n; rw [A_eq1]; exact W2_v1 m c _
  rw [hE, hc]; rfl

/-- Region 2: the first row scaling. -/
theorem W4_v3 (c : Dev nD) (n : Fin 32768) : W4 m c (Proc.devRef .tc main_v3) (ix2 n (0 : Fin 1)) = c1 m c n := by
  rw [show W4 m c (Proc.devRef .tc main_v3) = (dat2 (V3 m) c).arrAt 2 cfg2.N from W4_arr m c 2, arr2_apply]
  have hE : (fun n b => (dat2 (F := Ideal) (V3 m) c).A 0 (ix2 n b)) = Emat m c := by
    funext n b; rw [A_eq2]; exact E3 m c n b
  have hr : (fun b => (dat2 (F := Ideal) (V3 m) c).A 1 (ix2 (0 : Fin 1) b)) = r1 m c := by
    funext b; rw [A_eq2]; exact W3_v2 m c b
  rw [hE, hr]; rfl

/-- Region 3: the second column scaling. -/
theorem W5_v4 (c : Dev nD) (b : Fin 3000) : W5 m c (Proc.devRef .tc main_v4) (ix2 (0 : Fin 1) b) = r2 m c b := by
  rw [show W5 m c (Proc.devRef .tc main_v4) = (dat3 (V4 m) c).arrAt 2 cfg3.N from W5_arr m c 2, arr3_apply]
  have hE : (fun n b => (dat3 (F := Ideal) (V4 m) c).A 0 (ix2 n b)) = Emat m c := by
    funext n b; rw [A_eq3]; exact E4 m c n b
  have hc : (fun n => (dat3 (F := Ideal) (V4 m) c).A 1 (ix2 n (0 : Fin 1))) = c1 m c := by
    funext n; rw [A_eq3]; exact W4_v3 m c n
  rw [hE, hc]; rfl

/-- Region 4: the second row scaling. -/
theorem W6_v5 (c : Dev nD) (n : Fin 32768) : W6 m c (Proc.devRef .tc main_v5) (ix2 n (0 : Fin 1)) = c2 m c n := by
  rw [show W6 m c (Proc.devRef .tc main_v5) = (dat4 (V5 m) c).arrAt 2 cfg4.N from W6_arr m c 2, arr4_apply]
  have hE : (fun n b => (dat4 (F := Ideal) (V5 m) c).A 0 (ix2 n b)) = Emat m c := by
    funext n b; rw [A_eq4]; exact E5 m c n b
  have hr : (fun b => (dat4 (F := Ideal) (V5 m) c).A 1 (ix2 (0 : Fin 1) b)) = r2 m c := by
    funext b; rw [A_eq4]; exact W5_v4 m c b
  rw [hE, hr]; rfl

/-- Region 5: the third column scaling. -/
theorem W7_v6 (c : Dev nD) (b : Fin 3000) : W7 m c (Proc.devRef .tc main_v6) (ix2 (0 : Fin 1) b) = r3 m c b := by
  rw [show W7 m c (Proc.devRef .tc main_v6) = (dat5 (V6 m) c).arrAt 2 cfg5.N from W7_arr m c 2, arr5_apply]
  have hE : (fun n b => (dat5 (F := Ideal) (V6 m) c).A 0 (ix2 n b)) = Emat m c := by
    funext n b; rw [A_eq5]; exact E6 m c n b
  have hc : (fun n => (dat5 (F := Ideal) (V6 m) c).A 1 (ix2 n (0 : Fin 1))) = c2 m c := by
    funext n; rw [A_eq5]; exact W6_v5 m c n
  rw [hE, hc]; rfl

/-- Region 6 only reads the third column scaling: it is still there for the last region. -/
theorem W8_v6 (c : Dev nD) : W8 m c (Proc.devRef .tc main_v6) = W7 m c (Proc.devRef .tc main_v6) :=
  (W8_arr m c 1).trans (((dat6 (V7 m) c).arrAt_in 1 rfl _).trans (A_eq6 (V7 m) c 1))

/-- Region 6: the third row scaling. -/
theorem W8_v7 (c : Dev nD) (n : Fin 32768) : W8 m c (Proc.devRef .tc main_v7) (ix2 n (0 : Fin 1)) = c3 m c n := by
  rw [show W8 m c (Proc.devRef .tc main_v7) = (dat6 (V7 m) c).arrAt 2 cfg6.N from W8_arr m c 2, arr6_apply]
  have hE : (fun n b => (dat6 (F := Ideal) (V7 m) c).A 0 (ix2 n b)) = Emat m c := by
    funext n b; rw [A_eq6]; exact E7 m c n b
  have hr : (fun b => (dat6 (F := Ideal) (V7 m) c).A 1 (ix2 (0 : Fin 1) b)) = r3 m c := by
    funext b; rw [A_eq6]; exact W7_v6 m c b
  rw [hE, hr]; rfl

/-- THE RESULT ARRAY: region 7 multiplies the matrix of exponentials by the last two scaling vectors and by 3000. -/
theorem result_apply (c : Dev nD) (n : Fin 32768) (b : Fin 3000) :
    W9 m c (Proc.devRef .tc main_v8) (ix2 n b) = Cert.Sinkhorn.kernelOut Nn Bb (Emat m c) n b := by
  rw [show W9 m c (Proc.devRef .tc main_v8) = (dat7 (V8 m) c).arrAt 3 cfg7.N from W9_arr m c 3, arr7_apply]
  have hE : (fun n b => (dat7 (F := Ideal) (V8 m) c).A 0 (ix2 n b)) = Emat m c := by
    funext n b; rw [A_eq7]; exact E8 m c n b
  have hr : (fun b => (dat7 (F := Ideal) (V8 m) c).A 1 (ix2 (0 : Fin 1) b)) = r3 m c := by
    funext b; rw [A_eq7]; exact (congrFun (W8_v6 m c) _).trans (W7_v6 m c b)
  have hc : (fun n => (dat7 (F := Ideal) (V8 m) c).A 2 (ix2 n (0 : Fin 1))) = c3 m c := by
    funext n; rw [A_eq7]; exact W8_v7 m c n
  rw [hE, hr, hc]; rfl

end Cert.KernelIdeal.Hand

end
-- ==== Proof.RefValue.lean ====
/-
  The reference program read at an index.

  The reference computes, on the transposed matrix of exponentials `Q b n = exp (x n b)` (`b` below 3000, `n` below
  32768): `Q` over the sum of all its entries; three times, every row over its sum times 32768 and then every
  column over its sum times 3000; the result times 3000, transposed back.  Each of those stages is read here at a
  pair of coordinates as the matching function of `Cert.Sinkhorn` of the stage before it, and the chain of them is
  `Cert.Sinkhorn.refOut`.
-/
import proofs.«177643_j32452772888869_1_alg».proof.Proof.Gen.ReferenceIdeal.Read
import proofs.«177643_j32452772888869_1_alg».proof.Proof.Sinkhorn
import proofs.«177643_j32452772888869_1_alg».proof.Proof.Consts
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The real `32768`, the number of rows of the input, as an extended real. -/
abbrev N : EReal := ((32768 : ℝ) : EReal)
/-- The real `3000`, the number of columns of the input, as an extended real. -/
abbrev B : EReal := ((3000 : ℝ) : EReal)

/-! ## The transposes swap the two coordinates -/

theorem idx_v1_ix2 (b : Fin 3000) (n : Fin 32768) : idx_main_v1 (ix2 b n) = ix2 n b :=
  funext fun a => Fin.ext (by match a with | ⟨0, _⟩ => rfl | ⟨1, _⟩ => rfl)

theorem idx_v43_ix2 (n : Fin 32768) (b : Fin 3000) : idx_main_v43 (ix2 n b) = ix2 b n :=
  funext fun a => Fin.ext (by match a with | ⟨0, _⟩ => rfl | ⟨1, _⟩ => rfl)

/-! ## The matrix over the sum of all its entries -/

/-- The transposed exponentials at `(b, n)`. -/
theorem v1_at (x0 : (⟨S32768x3000, .f32⟩ : BufTy).Contents (Elt Ideal)) (b : Fin 3000) (n : Fin 32768) :
    val_main_v1 (F := Ideal) x0 (ix2 b n) = Ideal.exp (x0 (ix2 n b)) := by
  rw [val_main_v1_apply, val_main_v0_apply, idx_v1_ix2]
  rfl

/-- The sum of all the entries: `0` plus the sum over every index, which is the double sum over the coordinates. -/
theorem v2_at (x0 : (⟨S32768x3000, .f32⟩ : BufTy).Contents (Elt Ideal)) (i : S_.Idx) :
    val_main_v2 (F := Ideal) x0 i = ∑ b : Fin 3000, ∑ n : Fin 32768, Ideal.exp (x0 (ix2 n b)) := by
  rw [val_main_v2_apply, val_main_cst_apply, Ideal.ofBits_def, Cert.Consts.ofBits_zero, zero_add, sum_idx2]
  exact Finset.sum_congr rfl fun b _ => Finset.sum_congr rfl fun n _ => v1_at x0 b n

/-- The first stage: every entry over the sum of all the entries. -/
theorem stage4 (x0 : (⟨S32768x3000, .f32⟩ : BufTy).Contents (Elt Ideal)) :
    (fun (b : Fin 3000) (n : Fin 32768) => val_main_v4 (F := Ideal) x0 (ix2 b n))
      = Cert.Sinkhorn.normAll (fun n b => Ideal.exp (x0 (ix2 n b))) := by
  funext b n
  rw [val_main_v4_apply, val_main_v3_apply, v2_at, v1_at, Ideal.hostDivf_def]
  rfl

/-! ## A row normalisation and a column normalisation, read at an index

Each is four operations after the previous stage `Q`: a sum over one axis from `0` (`s`), that sum with a unit axis
put back (`sb`), its product with the constant spread over the same shape (`cb`, `m`), that product spread over the
whole matrix (`mb`), and the quotient of `Q` by it (`Q'`).  The hypotheses are the readings of those operations at
an index, one per operation, so that the same statement serves the three rounds. -/

/-- Every row `b` over its sum times `32768`. -/
theorem rowNorm_at
    (Q Q' mb : S3000x32768.Idx → EReal) (z c : S_.Idx → EReal) (s : S3000.Idx → EReal) (sb cb m : S3000x1.Idx → EReal)
    {i0 : S_.Idx}
    (hz : ∀ i, z i = FloatOps.ofBits (F := Ideal) .f32 0x00000000#32)
    (hs : ∀ i, s i = z i0 + ∑ k : Fin 32768, Q (idx_main_v5 i k))
    (hsb : ∀ i, sb i = s (idx_main_v6 i))
    (hc : ∀ i, c i = FloatOps.ofBits (F := Ideal) .f32 0x47000000#32)
    (hcb : ∀ i, cb i = c (idx_main_v7 i))
    (hm : ∀ i, m i = FloatOps.mulf (F := Ideal) (φ := .f32) (sb i) (cb i))
    (hmb : ∀ i, mb i = m (idx_main_v9 i))
    (hQ' : ∀ i, Q' i = FloatOps.hostDivf (F := Ideal) (φ := .f32) (Q i) (mb i)) :
    (fun (b : Fin 3000) (n : Fin 32768) => Q' (ix2 b n))
      = Cert.Sinkhorn.rowNorm N (fun (b : Fin 3000) (n : Fin 32768) => Q (ix2 b n)) := by
  funext b n
  have hk : ∀ k : Fin 32768, idx_main_v5 (idx_main_v6 (idx_main_v9 (ix2 b n))) k = ix2 b k := fun k =>
    funext fun a => Fin.ext (by match a with | ⟨0, _⟩ => rfl | ⟨1, _⟩ => rfl)
  rw [hQ', hmb, hm, hcb, hc, hsb, hs, hz]
  simp only [hk, Ideal.ofBits_def, Cert.Consts.ofBits_zero, Cert.Consts.ofBits_32768, zero_add, Ideal.mulf_def,
    Ideal.hostDivf_def]
  rfl

/-- Every column `n` over its sum times `3000`. -/
theorem colNorm_at
    (Q Q' mb : S3000x32768.Idx → EReal) (z c : S_.Idx → EReal) (s : S32768.Idx → EReal) (sb cb m : S1x32768.Idx → EReal)
    {i0 : S_.Idx}
    (hz : ∀ i, z i = FloatOps.ofBits (F := Ideal) .f32 0x00000000#32)
    (hs : ∀ i, s i = z i0 + ∑ k : Fin 3000, Q (idx_main_v11 i k))
    (hsb : ∀ i, sb i = s (idx_main_v12 i))
    (hc : ∀ i, c i = FloatOps.ofBits (F := Ideal) .f32 0x453B8000#32)
    (hcb : ∀ i, cb i = c (idx_main_v13 i))
    (hm : ∀ i, m i = FloatOps.mulf (F := Ideal) (φ := .f32) (sb i) (cb i))
    (hmb : ∀ i, mb i = m (idx_main_v15 i))
    (hQ' : ∀ i, Q' i = FloatOps.hostDivf (F := Ideal) (φ := .f32) (Q i) (mb i)) :
    (fun (b : Fin 3000) (n : Fin 32768) => Q' (ix2 b n))
      = Cert.Sinkhorn.colNorm B (fun (b : Fin 3000) (n : Fin 32768) => Q (ix2 b n)) := by
  funext b n
  have hk : ∀ k : Fin 3000, idx_main_v11 (idx_main_v12 (idx_main_v15 (ix2 b n))) k = ix2 k n := fun k =>
    funext fun a => Fin.ext (by match a with | ⟨0, _⟩ => rfl | ⟨1, _⟩ => rfl)
  rw [hQ', hmb, hm, hcb, hc, hsb, hs, hz]
  simp only [hk, Ideal.ofBits_def, Cert.Consts.ofBits_zero, Cert.Consts.ofBits_3000, zero_add, Ideal.mulf_def,
    Ideal.hostDivf_def]
  rfl

/-! ## The three rounds -/

section Rounds
variable (x0 : (⟨S32768x3000, .f32⟩ : BufTy).Contents (Elt Ideal))

/-- Round one, the rows. -/
theorem stage10 :
    (fun (b : Fin 3000) (n : Fin 32768) => val_main_v10 (F := Ideal) x0 (ix2 b n))
      = Cert.Sinkhorn.rowNorm N (fun (b : Fin 3000) (n : Fin 32768) => val_main_v4 (F := Ideal) x0 (ix2 b n)) :=
  rowNorm_at (val_main_v4 (F := Ideal) x0) (val_main_v10 (F := Ideal) x0) (val_main_v9 (F := Ideal) x0)
    (val_main_cst_0 (F := Ideal)) (val_main_cst_1 (F := Ideal)) (val_main_v5 (F := Ideal) x0)
    (val_main_v6 (F := Ideal) x0) (val_main_v7 (F := Ideal)) (val_main_v8 (F := Ideal) x0)
    val_main_cst_0_apply (val_main_v5_apply x0) (val_main_v6_apply x0) val_main_cst_1_apply val_main_v7_apply
    (val_main_v8_apply x0) (val_main_v9_apply x0) (val_main_v10_apply x0)

/-- Round one, the columns. -/
theorem stage16 :
    (fun (b : Fin 3000) (n : Fin 32768) => val_main_v16 (F := Ideal) x0 (ix2 b n))
      = Cert.Sinkhorn.colNorm B (fun (b : Fin 3000) (n : Fin 32768) => val_main_v10 (F := Ideal) x0 (ix2 b n)) :=
  colNorm_at (val_main_v10 (F := Ideal) x0) (val_main_v16 (F := Ideal) x0) (val_main_v15 (F := Ideal) x0)
    (val_main_cst_2 (F := Ideal)) (val_main_cst_3 (F := Ideal)) (val_main_v11 (F := Ideal) x0)
    (val_main_v12 (F := Ideal) x0) (val_main_v13 (F := Ideal)) (val_main_v14 (F := Ideal) x0)
    val_main_cst_2_apply (val_main_v11_apply x0) (val_main_v12_apply x0) val_main_cst_3_apply val_main_v13_apply
    (val_main_v14_apply x0) (val_main_v15_apply x0) (val_main_v16_apply x0)

/-- Round two, the rows. -/
theorem stage22 :
    (fun (b : Fin 3000) (n : Fin 32768) => val_main_v22 (F := Ideal) x0 (ix2 b n))
      = Cert.Sinkhorn.rowNorm N (fun (b : Fin 3000) (n : Fin 32768) => val_main_v16 (F := Ideal) x0 (ix2 b n)) :=
  rowNorm_at (val_main_v16 (F := Ideal) x0) (val_main_v22 (F := Ideal) x0) (val_main_v21 (F := Ideal) x0)
    (val_main_cst_4 (F := Ideal)) (val_main_cst_5 (F := Ideal)) (val_main_v17 (F := Ideal) x0)
    (val_main_v18 (F := Ideal) x0) (val_main_v19 (F := Ideal)) (val_main_v20 (F := Ideal) x0)
    val_main_cst_4_apply (val_main_v17_apply x0) (val_main_v18_apply x0) val_main_cst_5_apply val_main_v19_apply
    (val_main_v20_apply x0) (val_main_v21_apply x0) (val_main_v22_apply x0)

/-- Round two, the columns. -/
theorem stage28 :
    (fun (b : Fin 3000) (n : Fin 32768) => val_main_v28 (F := Ideal) x0 (ix2 b n))
      = Cert.Sinkhorn.colNorm B (fun (b : Fin 3000) (n : Fin 32768) => val_main_v22 (F := Ideal) x0 (ix2 b n)) :=
  colNorm_at (val_main_v22 (F := Ideal) x0) (val_main_v28 (F := Ideal) x0) (val_main_v27 (F := Ideal) x0)
    (val_main_cst_6 (F := Ideal)) (val_main_cst_7 (F := Ideal)) (val_main_v23 (F := Ideal) x0)
    (val_main_v24 (F := Ideal) x0) (val_main_v25 (F := Ideal)) (val_main_v26 (F := Ideal) x0)
    val_main_cst_6_apply (val_main_v23_apply x0) (val_main_v24_apply x0) val_main_cst_7_apply val_main_v25_apply
    (val_main_v26_apply x0) (val_main_v27_apply x0) (val_main_v28_apply x0)

/-- Round three, the rows. -/
theorem stage34 :
    (fun (b : Fin 3000) (n : Fin 32768) => val_main_v34 (F := Ideal) x0 (ix2 b n))
      = Cert.Sinkhorn.rowNorm N (fun (b : Fin 3000) (n : Fin 32768) => val_main_v28 (F := Ideal) x0 (ix2 b n)) :=
  rowNorm_at (val_main_v28 (F := Ideal) x0) (val_main_v34 (F := Ideal) x0) (val_main_v33 (F := Ideal) x0)
    (val_main_cst_8 (F := Ideal)) (val_main_cst_9 (F := Ideal)) (val_main_v29 (F := Ideal) x0)
    (val_main_v30 (F := Ideal) x0) (val_main_v31 (F := Ideal)) (val_main_v32 (F := Ideal) x0)
    val_main_cst_8_apply (val_main_v29_apply x0) (val_main_v30_apply x0) val_main_cst_9_apply val_main_v31_apply
    (val_main_v32_apply x0) (val_main_v33_apply x0) (val_main_v34_apply x0)

/-- Round three, the columns. -/
theorem stage40 :
    (fun (b : Fin 3000) (n : Fin 32768) => val_main_v40 (F := Ideal) x0 (ix2 b n))
      = Cert.Sinkhorn.colNorm B (fun (b : Fin 3000) (n : Fin 32768) => val_main_v34 (F := Ideal) x0 (ix2 b n)) :=
  colNorm_at (val_main_v34 (F := Ideal) x0) (val_main_v40 (F := Ideal) x0) (val_main_v39 (F := Ideal) x0)
    (val_main_cst_10 (F := Ideal)) (val_main_cst_11 (F := Ideal)) (val_main_v35 (F := Ideal) x0)
    (val_main_v36 (F := Ideal) x0) (val_main_v37 (F := Ideal)) (val_main_v38 (F := Ideal) x0)
    val_main_cst_10_apply (val_main_v35_apply x0) (val_main_v36_apply x0) val_main_cst_11_apply val_main_v37_apply
    (val_main_v38_apply x0) (val_main_v39_apply x0) (val_main_v40_apply x0)

end Rounds

/-! ## The result -/

/-- The reference's result at row `n` and column `b` of the input's shape: the last transpose reads the matrix at
    `(b, n)`, the product before it is the third round's result there times `3000`, and the rounds chain down to the
    first stage. -/
theorem ref_apply (x0 : (⟨S32768x3000, .f32⟩ : BufTy).Contents (Elt Ideal)) (n : Fin 32768) (b : Fin 3000) :
    val_main_v43 (F := Ideal) x0 (ix2 n b)
      = Cert.Sinkhorn.refOut (ι := Fin 32768) (κ := Fin 3000) ((32768 : ℝ) : EReal) ((3000 : ℝ) : EReal)
          (fun n b => Ideal.exp (x0 (ix2 n b))) n b := by
  unfold Cert.Sinkhorn.refOut
  rw [← stage4 x0, ← stage10 x0, ← stage16 x0, ← stage22 x0, ← stage28 x0, ← stage34 x0, ← stage40 x0]
  rw [val_main_v43_apply, idx_v43_ix2, val_main_v42_apply, val_main_v41_apply, val_main_cst_12_apply, Ideal.ofBits_def,
    Cert.Consts.ofBits_3000, Ideal.mulf_def]

end Cert.ReferenceIdeal.RefValue

end
-- ==== Proof.SinkhornAlgebra.lean ====
/-
  The two Sinkhorn–Knopp computations agree on a positive real matrix.

  On positive reals the extended reals' sum, product and quotient are the reals' own, so every stage of both
  computations is the coercion of a positive real.  Over the reals the reference's matrix is always of the form
  `Q b n = E n b · u b · v n` with positive scaling vectors: dividing row `b` by `(Σₙ Q b n) · N` cancels `u b` and
  leaves `E n b · r b · v n` with `r b = 1 / (N · Σₙ E n b · v n)`, the kernel's column scaling; dividing column `n` by
  `(Σ_b Q b n) · B` cancels `v n` and leaves `E n b · r b · c n` with `c n = 1 / (B · Σ_b E n b · r b)`, the kernel's row
  scaling.  The first division by the total sum is a constant column factor, which the first row step cancels.
-/
import proofs.«177643_j32452772888869_1_alg».proof.Proof.Sinkhorn
import Idealize.ShloMosaic.PureOps.Ideal
import Mathlib.Data.EReal.Basic
import Mathlib.Data.EReal.Operations
import Mathlib.Algebra.BigOperators.Group.Finset.Basic
import Mathlib.Algebra.Order.BigOperators.Group.Finset
import Mathlib.Tactic.FieldSimp
import Mathlib.Tactic.Ring
import Mathlib.Tactic.Positivity

noncomputable section

open scoped BigOperators

namespace Cert.Sinkhorn

open Idealize.ShloMosaic

variable {ι κ : Type} [Fintype ι] [Fintype κ]

/-! ## Coercions: sums and quotients of reals inside the extended reals -/

/-- A finite sum of coerced reals is the coerced real sum. -/
theorem coe_sum {α : Type} (s : Finset α) (f : α → ℝ) :
    (∑ a ∈ s, ((f a : ℝ) : EReal)) = ((∑ a ∈ s, f a : ℝ) : EReal) := by
  classical
  refine Finset.induction_on s ?_ ?_
  · simp
  · intro a s ha ih
    rw [Finset.sum_insert ha, Finset.sum_insert ha, ih, EReal.coe_add]

/-- The quotient of two coerced reals, off zero, is the coerced real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-! ## The kernel's steps over the reals -/

/-- The column scaling over the reals. -/
def rowStepR (N : ℝ) (E : ι → κ → ℝ) (c : ι → ℝ) (b : κ) : ℝ :=
  1 / (N * ∑ n, E n b * c n)

/-- The row scaling over the reals. -/
def colStepR (B : ℝ) (E : ι → κ → ℝ) (r : κ → ℝ) (n : ι) : ℝ :=
  1 / (B * ∑ b, E n b * r b)

theorem rowSum_pos [Nonempty ι] {E : ι → κ → ℝ} (hE : ∀ n b, 0 < E n b) {c : ι → ℝ} (hc : ∀ n, 0 < c n)
    (b : κ) : 0 < ∑ n, E n b * c n :=
  Finset.sum_pos (fun n _ => mul_pos (hE n b) (hc n)) Finset.univ_nonempty

theorem colSum_pos [Nonempty κ] {E : ι → κ → ℝ} (hE : ∀ n b, 0 < E n b) {r : κ → ℝ} (hr : ∀ b, 0 < r b)
    (n : ι) : 0 < ∑ b, E n b * r b :=
  Finset.sum_pos (fun b _ => mul_pos (hE n b) (hr b)) Finset.univ_nonempty

theorem rowStepR_pos [Nonempty ι] {N : ℝ} (hN : 0 < N) {E : ι → κ → ℝ} (hE : ∀ n b, 0 < E n b)
    {c : ι → ℝ} (hc : ∀ n, 0 < c n) (b : κ) : 0 < rowStepR N E c b := by
  have hs := rowSum_pos hE hc b
  unfold rowStepR
  positivity

theorem colStepR_pos [Nonempty κ] {B : ℝ} (hB : 0 < B) {E : ι → κ → ℝ} (hE : ∀ n b, 0 < E n b)
    {r : κ → ℝ} (hr : ∀ b, 0 < r b) (n : ι) : 0 < colStepR B E r n := by
  have hs := colSum_pos hE hr n
  unfold colStepR
  positivity

/-- The kernel's column scaling of coerced positive reals is the coerced real column scaling. -/
theorem rowStep_coe [Nonempty ι] {N : ℝ} (hN : 0 < N) {E : ι → κ → ℝ} (hE : ∀ n b, 0 < E n b)
    {c : ι → ℝ} (hc : ∀ n, 0 < c n) :
    rowStep (N : EReal) (fun n b => ((E n b : ℝ) : EReal)) (fun n => ((c n : ℝ) : EReal))
      = fun b => ((rowStepR N E c b : ℝ) : EReal) := by
  funext b
  have hne : N * ∑ n, E n b * c n ≠ 0 := (mul_pos hN (rowSum_pos hE hc b)).ne'
  simp only [rowStep, rowStepR, ← EReal.coe_mul, coe_sum]
  rw [← EReal.coe_one, div_coe_coe 1 hne]

/-- The kernel's row scaling of coerced positive reals is the coerced real row scaling. -/
theorem colStep_coe [Nonempty κ] {B : ℝ} (hB : 0 < B) {E : ι → κ → ℝ} (hE : ∀ n b, 0 < E n b)
    {r : κ → ℝ} (hr : ∀ b, 0 < r b) :
    colStep (B : EReal) (fun n b => ((E n b : ℝ) : EReal)) (fun b => ((r b : ℝ) : EReal))
      = fun n => ((colStepR B E r n : ℝ) : EReal) := by
  funext n
  have hne : B * ∑ b, E n b * r b ≠ 0 := (mul_pos hB (colSum_pos hE hr n)).ne'
  simp only [colStep, colStepR, ← EReal.coe_mul, coe_sum]
  rw [← EReal.coe_one, div_coe_coe 1 hne]

/-! ## The reference's steps on a matrix `E n b · u b · v n` -/

/-- Dividing every row by its sum times `N` replaces the column factor by the kernel's column scaling from `v`. -/
theorem rowNorm_coe [Nonempty ι] {N : ℝ} (hN : 0 < N) {E : ι → κ → ℝ} (hE : ∀ n b, 0 < E n b)
    {u : κ → ℝ} (hu : ∀ b, 0 < u b) {v : ι → ℝ} (hv : ∀ n, 0 < v n) :
    rowNorm (N : EReal) (fun b n => ((E n b * u b * v n : ℝ) : EReal))
      = fun b n => ((E n b * rowStepR N E v b * v n : ℝ) : EReal) := by
  funext b n
  have hS : 0 < ∑ n', E n' b * v n' := rowSum_pos hE hv b
  have hsum : ∑ n', E n' b * u b * v n' = u b * ∑ n', E n' b * v n' := by
    rw [Finset.mul_sum]
    exact Finset.sum_congr rfl (fun _ _ => by ring)
  have hne : (∑ n', E n' b * u b * v n') * N ≠ 0 := by
    rw [hsum]
    exact (mul_pos (mul_pos (hu b) hS) hN).ne'
  simp only [rowNorm, coe_sum, ← EReal.coe_mul]
  rw [div_coe_coe _ hne, hsum]
  congr 1
  unfold rowStepR
  have hub := (hu b).ne'
  have hSne := hS.ne'
  have hNne := hN.ne'
  field_simp

/-- Dividing every column by its sum times `B` replaces the row factor by the kernel's row scaling from `r`. -/
theorem colNorm_coe [Nonempty κ] {B : ℝ} (hB : 0 < B) {E : ι → κ → ℝ} (hE : ∀ n b, 0 < E n b)
    {r : κ → ℝ} (hr : ∀ b, 0 < r b) {v : ι → ℝ} (hv : ∀ n, 0 < v n) :
    colNorm (B : EReal) (fun b n => ((E n b * r b * v n : ℝ) : EReal))
      = fun b n => ((E n b * r b * colStepR B E r n : ℝ) : EReal) := by
  funext b n
  have hS : 0 < ∑ b', E n b' * r b' := colSum_pos hE hr n
  have hsum : ∑ b', E n b' * r b' * v n = v n * ∑ b', E n b' * r b' := by
    rw [Finset.mul_sum]
    exact Finset.sum_congr rfl (fun _ _ => by ring)
  have hne : (∑ b', E n b' * r b' * v n) * B ≠ 0 := by
    rw [hsum]
    exact (mul_pos (mul_pos (hv n) hS) hB).ne'
  simp only [colNorm, coe_sum, ← EReal.coe_mul]
  rw [div_coe_coe _ hne, hsum]
  congr 1
  unfold colStepR
  have hvn := (hv n).ne'
  have hSne := hS.ne'
  have hBne := hB.ne'
  field_simp

theorem total_pos [Nonempty ι] [Nonempty κ] {E : ι → κ → ℝ} (hE : ∀ n b, 0 < E n b) :
    0 < ∑ b', ∑ n', E n' b' :=
  Finset.sum_pos (fun b _ => Finset.sum_pos (fun n _ => hE n b) Finset.univ_nonempty) Finset.univ_nonempty

/-- The matrix over its total sum: a constant column factor and the all-ones row factor. -/
theorem normAll_coe [Nonempty ι] [Nonempty κ] {E : ι → κ → ℝ} (hE : ∀ n b, 0 < E n b) :
    normAll (fun n b => ((E n b : ℝ) : EReal))
      = fun b n => ((E n b * (1 / ∑ b', ∑ n', E n' b') * 1 : ℝ) : EReal) := by
  funext b n
  have hne : (∑ b', ∑ n', E n' b') ≠ 0 := (total_pos hE).ne'
  simp only [normAll, coe_sum]
  rw [div_coe_coe _ hne, mul_one, mul_one_div]

/-! ## The two outputs -/

theorem kernelOut_eq_refOut [Nonempty ι] [Nonempty κ] (N B : ℝ) (hN : 0 < N) (hB : 0 < B)
    (E : ι → κ → ℝ) (hE : ∀ n b, 0 < E n b) :
    kernelOut (N : EReal) (B : EReal) (fun n b => ((E n b : ℝ) : EReal))
      = refOut (N : EReal) (B : EReal) (fun n b => ((E n b : ℝ) : EReal)) := by
  have h1 : ∀ _ : ι, (0 : ℝ) < 1 := fun _ => one_pos
  have hu : ∀ _ : κ, (0 : ℝ) < 1 / ∑ b', ∑ n', E n' b' := fun _ => one_div_pos.2 (total_pos hE)
  have hr1 := rowStepR_pos hN hE h1
  have hc1 := colStepR_pos hB hE hr1
  have hr2 := rowStepR_pos hN hE hc1
  have hc2 := colStepR_pos hB hE hr2
  have hr3 := rowStepR_pos hN hE hc2
  funext n b
  have hk : kernelOut (N : EReal) (B : EReal) (fun n b => ((E n b : ℝ) : EReal)) n b
      = ((B * E n b * rowStepR N E (colStepR B E (rowStepR N E (colStepR B E (rowStepR N E (fun _ => 1))))) b
          * colStepR B E (rowStepR N E (colStepR B E (rowStepR N E (colStepR B E (rowStepR N E (fun _ => 1)))))) n : ℝ)
          : EReal) := by
    simp only [kernelOut]
    rw [show (fun _ : ι => (1 : EReal)) = fun _ => ((1 : ℝ) : EReal) from rfl]
    rw [rowStep_coe hN hE h1, colStep_coe hB hE hr1, rowStep_coe hN hE hc1, colStep_coe hB hE hr2,
      rowStep_coe hN hE hc2, colStep_coe hB hE hr3]
    simp only [scaled, EReal.coe_mul]
  have hq : refOut (N : EReal) (B : EReal) (fun n b => ((E n b : ℝ) : EReal)) n b
      = ((E n b * rowStepR N E (colStepR B E (rowStepR N E (colStepR B E (rowStepR N E (fun _ => 1))))) b
          * colStepR B E (rowStepR N E (colStepR B E (rowStepR N E (colStepR B E (rowStepR N E (fun _ => 1)))))) n : ℝ)
          : EReal) * (B : EReal) := by
    simp only [refOut]
    rw [normAll_coe hE, rowNorm_coe hN hE (u := fun _ => 1 / ∑ b', ∑ n', E n' b') (v := fun _ => 1) hu h1,
      colNorm_coe hB hE (v := fun _ => 1) hr1 h1,
      rowNorm_coe hN hE hr1 hc1, colNorm_coe hB hE hr2 hc1,
      rowNorm_coe hN hE hr2 hc2, colNorm_coe hB hE hr3 hc2]
  rw [hk, hq, ← EReal.coe_mul]
  congr 1
  ring

end Cert.Sinkhorn

end
-- ==== Proof.Finite.lean ====
import proofs.«177643_j32452772888869_1_alg».proof.Proof.Gen.Pre_finite_inputs
import Idealize.ShloMosaic.PureOps.Ideal
import Idealize.ShloMosaic.Lib.ValueIdx
import Idealize.ShloMosaic.Lib.ReduceAll
import Mathlib.Data.EReal.Basic

/-!
  From the precondition to real entries. The precondition takes the absolute value of every entry, compares
  it strictly below the binary32 word of `+∞`, and reduces the comparison bits by `and` over both axes from
  `true`. If the result is `true`, every comparison bit is `1`; in the extended reals an entry whose absolute
  value `max x (-x)` lies strictly below `⊤` is neither `⊤` nor `⊥`, hence a real number.
-/

namespace Cert.Finite

open Idealize.ShloMosaic

/-- The binary32 word `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max x (-x)` is strictly below `⊤` is a real number:
    at `⊤` the maximum is `⊤`, at `⊥` it is `-⊥ = ⊤`. -/
theorem real_of_abs_lt_top (a : EReal) (h : max a (-a) < ⊤) : ∃ r : ℝ, a = (r : EReal) := by
  induction a using EReal.rec with
  | bot => simp at h
  | coe r => exact ⟨r, rfl⟩
  | top => simp at h

/-- Under the precondition every entry of the input is a real number. -/
theorem real_of_pre (x : FVec Ideal Cert.Pre_finite_inputs.S32768x3000 .f32)
    (h : Cert.Pre_finite_inputs.fn (F := Ideal) x = fun _ => 1#1) : ∀ i, ∃ r : ℝ, x i = (r : EReal) := by
  intro i
  haveI : Subsingleton Cert.Pre_finite_inputs.S_.Idx := ⟨fun a b => funext fun d => d.elim0⟩
  -- the scalar result at its one index, the reduction in view
  have h0 := congrFun h ValueIdx.ix0
  dsimp only [Cert.Pre_finite_inputs.fn] at h0
  -- an `and`-reduction over all axes that is 1 met a 1 at every index
  have hi := Host.reduce_andi_all _ _ _ _ _ h0 i
  -- the comparison bit at `i` is the decision of `max (x i) (-(x i)) < ⊤`
  have hlt : max (x i) (-(x i)) < (⊤ : EReal) := by
    have hc : Ideal.cmp .olt (max (x i) (-(x i))) (Ideal.ofBits .f32 0x7F800000#32) = 1#1 := hi
    rw [ofBits_inf] at hc
    -- were the inequality false the bit would be `0`
    by_contra hn
    have hb : BitVec.ofBool (decide (max (x i) (-(x i)) < (⊤ : EReal))) = 1#1 := hc
    rw [decide_eq_false hn] at hb
    exact absurd hb (by decide)
  exact real_of_abs_lt_top _ hlt

end Cert.Finite
-- ==== Proof.lean ====
/-
  The certificate's claims, assembled.

  The kernel is Sinkhorn–Knopp scaling of the matrix of exponentials as eight kernel regions: one writes `E = exp(logits)`,
  three pairs alternate the column scaling `r = 1 / (32768 · Σₙ E·c)` (accumulated across the grid) and the row scaling
  `c = 1 / (3000 · Σ_b E·r)` from the all-ones column, and the last multiplies `3000 · E · r · c`. The reference normalises
  the transposed matrix itself: by its total sum, then three times by row sums and column sums. Under the precondition
  every entry of the input is a real number, so `E` is a positive real matrix, on which the two computations agree:
  the reference's matrix is always `E` scaled by a row factor and a column factor, and each normalisation replaces one
  of the two factors by the kernel's next scaling vector (the division by the total sum is a constant row factor, which
  the first row normalisation cancels).

  The three frames: the word-level kernel's and the idealized kernel's are the run of the eight regions read at the argument
  array, which no item writes; the reference's is its run with the result dropped. The idealization rewrote nothing.
-/
import proofs.«177643_j32452772888869_1_alg».proof.Defs
import proofs.«177643_j32452772888869_1_alg».proof.Proof.Gen.Kernel
import proofs.«177643_j32452772888869_1_alg».proof.Proof.Gen.Kernel.Skeleton
import proofs.«177643_j32452772888869_1_alg».proof.Proof.Gen.Kernel.Launch
import proofs.«177643_j32452772888869_1_alg».proof.Proof.Gen.Kernel.Regions
import proofs.«177643_j32452772888869_1_alg».proof.Proof.Gen.Kernel.Points
import proofs.«177643_j32452772888869_1_alg».proof.Proof.Gen.KernelIdeal
import proofs.«177643_j32452772888869_1_alg».proof.Proof.Gen.KernelIdeal.Skeleton
import proofs.«177643_j32452772888869_1_alg».proof.Proof.Gen.KernelIdeal.Launch
import proofs.«177643_j32452772888869_1_alg».proof.Proof.Gen.KernelIdeal.Regions
import proofs.«177643_j32452772888869_1_alg».proof.Proof.Gen.KernelIdeal.Points
import proofs.«177643_j32452772888869_1_alg».proof.Proof.Gen.ReferenceIdeal
import proofs.«177643_j32452772888869_1_alg».proof.Proof.Gen.Pre_finite_inputs
import proofs.«177643_j32452772888869_1_alg».proof.Proof.Gen.ReferenceIdeal.Run
import proofs.«177643_j32452772888869_1_alg».proof.Proof.Gen.ReferenceIdeal.Read
import proofs.«177643_j32452772888869_1_alg».proof.Proof.K.Run
import proofs.«177643_j32452772888869_1_alg».proof.Proof.KI.Run
import proofs.«177643_j32452772888869_1_alg».proof.Proof.KI.KernelValue
import proofs.«177643_j32452772888869_1_alg».proof.Proof.RefValue
import proofs.«177643_j32452772888869_1_alg».proof.Proof.SinkhornAlgebra
import proofs.«177643_j32452772888869_1_alg».proof.Proof.Finite
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Hand.frame m ρ

theorem frame_kernelIdeal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

/-- On an input of real entries the matrix of exponentials is a positive real matrix, and there the kernel's scaling
    vectors and the reference's normalisations give the same matrix. -/
theorem values_agree (x : (⟨Cert.ReferenceIdeal.S32768x3000, .f32⟩ : BufTy).Contents (Elt Ideal))
    (hx : ∀ i, ∃ r : ℝ, x i = (r : EReal)) (n : Fin 32768) (b : Fin 3000) :
    Cert.Sinkhorn.refOut (ι := Fin 32768) (κ := Fin 3000) ((32768 : ℝ) : EReal) ((3000 : ℝ) : EReal) (fun n b => Ideal.exp (x (ix2 n b))) n b
      = Cert.Sinkhorn.kernelOut (ι := Fin 32768) (κ := Fin 3000) ((32768 : ℝ) : EReal) ((3000 : ℝ) : EReal) (fun n b => Ideal.exp (x (ix2 n b))) n b := by
  choose xr hxr using hx
  have hE : (fun (n : Fin 32768) (b : Fin 3000) => Ideal.exp (x (ix2 n b))) = fun n b => ((Real.exp (xr (ix2 n b)) : ℝ) : EReal) := by
    funext n b; rw [hxr]; rfl
  rw [hE]
  exact (congrFun (congrFun (Cert.Sinkhorn.kernelOut_eq_refOut (ι := Fin 32768) (κ := Fin 3000) 32768 3000 (by norm_num) (by norm_num)
    (fun n b => Real.exp (xr (ix2 n b))) (fun _ _ => Real.exp_pos _)) n) b).symm

theorem algebraic : Cert.algebraic_KernelIdeal_ReferenceIdeal := by
  intro m ρ m' ρ' hpre hagree
  refine ⟨fun c => Cert.KernelIdeal.Hand.W9 (F := Ideal) m c (Proc.devRef .tc Cert.KernelIdeal.main_v8),
    Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, hagree c]
  funext i
  obtain ⟨n, b, rfl⟩ : ∃ (n : Fin 32768) (b : Fin 3000), i = ix2 n b := ⟨i 0, i 1, eq_ix2 i⟩
  rw [Cert.ReferenceIdeal.RefValue.ref_apply]
  refine Eq.trans ?_ (Cert.KernelIdeal.Hand.result_apply m c n b).symm
  exact values_agree _ (Cert.Finite.real_of_pre _ (hpre c)) n b

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
